-- ==== Defs.lean ====
def Pre_Kernel [hPre_finite_inputs_Kernel : Cert.Pre_finite_inputs_Kernel.Facts] (m : (ℓ : Loc Cert.Kernel.nD Cert.Kernel.τ Cert.Kernel.sig) → Buf (Elt Bits) ℓ) : Prop :=
  ∀ c : Dev Cert.Kernel.nD,
    (Cert.Pre_finite_inputs_Kernel.fn (F := Bits) (m ((c.tc : Thread Cert.Kernel.nD Cert.Kernel.τ).loc Cert.Kernel.main_arg0))) = (fun _ => 1#1)

def Pre_KernelIdeal [hPre_finite_inputs_Kernel : Cert.Pre_finite_inputs_Kernel.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs_Kernel.fn (F := Ideal) (m ((c.tc : Thread Cert.KernelIdeal.nD Cert.KernelIdeal.τ).loc Cert.KernelIdeal.main_arg0))) = (fun _ => 1#1)

def Pre_ReferenceIdeal [hPre_finite_inputs_ReferenceIdeal : Cert.Pre_finite_inputs_ReferenceIdeal.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs_ReferenceIdeal.fn (F := Ideal) (m ((c.tc : Thread Cert.ReferenceIdeal.nD Cert.ReferenceIdeal.τ).loc Cert.ReferenceIdeal.main_arg0))) = (fun _ => 1#1)

def frame_Kernel [hKernel : Cert.Kernel.Facts] [hPre_finite_inputs_Kernel : Cert.Pre_finite_inputs_Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0))

def frame_KernelIdeal [hKernelIdeal : Cert.KernelIdeal.Facts] [hPre_finite_inputs_Kernel : Cert.Pre_finite_inputs_Kernel.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))

def frame_ReferenceIdeal [hReferenceIdeal : Cert.ReferenceIdeal.Facts] [hPre_finite_inputs_ReferenceIdeal : Cert.Pre_finite_inputs_ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0))

def preserves_Kernel_KernelIdeal : Prop :=
  True

def algebraic_KernelIdeal_ReferenceIdeal [hKernelIdeal : Cert.KernelIdeal.Facts] [hReferenceIdeal : Cert.ReferenceIdeal.Facts] [hPre_finite_inputs_Kernel : Cert.Pre_finite_inputs_Kernel.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m ((c.tc : Thread Cert.KernelIdeal.nD Cert.KernelIdeal.τ).loc Cert.KernelIdeal.main_arg0) = Layout.blockN ⟨2, ![512, 512]⟩ ⟨2, ![1024, 512]⟩ (Layout.meshBlock [2, 2, 2] ![[1], []] c) (m' (((0 : Dev Cert.ReferenceIdeal.nD).tc : Thread Cert.ReferenceIdeal.nD Cert.ReferenceIdeal.τ).loc Cert.ReferenceIdeal.main_arg0))) →
    ∃ (v0 : Buf (Elt Ideal) (((0 : Dev Cert.ReferenceIdeal.nD).tc : Thread Cert.ReferenceIdeal.nD Cert.ReferenceIdeal.τ).loc Cert.ReferenceIdeal.main_v1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v1) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0))

def Claim : Prop :=
  ∃ (hKernel : Cert.Kernel.Facts) (hKernelIdeal : Cert.KernelIdeal.Facts) (hReferenceIdeal : Cert.ReferenceIdeal.Facts) (hPre_finite_inputs_Kernel : Cert.Pre_finite_inputs_Kernel.Facts) (hPre_finite_inputs_ReferenceIdeal : Cert.Pre_finite_inputs_ReferenceIdeal.Facts),
    frame_Kernel (hKernel := hKernel) (hPre_finite_inputs_Kernel := hPre_finite_inputs_Kernel)
    ∧ frame_KernelIdeal (hKernelIdeal := hKernelIdeal) (hPre_finite_inputs_Kernel := hPre_finite_inputs_Kernel)
    ∧ frame_ReferenceIdeal (hReferenceIdeal := hReferenceIdeal) (hPre_finite_inputs_ReferenceIdeal := hPre_finite_inputs_ReferenceIdeal)
    ∧ preserves_Kernel_KernelIdeal
    ∧ algebraic_KernelIdeal_ReferenceIdeal (hKernelIdeal := hKernelIdeal) (hReferenceIdeal := hReferenceIdeal) (hPre_finite_inputs_Kernel := hPre_finite_inputs_Kernel)
-- ==== Pre_finite_inputs_Kernel.lean ====
abbrev S512x512 : Shape := ⟨2, ![512, 512]⟩
abbrev S_ : Shape := ⟨0, ![]⟩

class Facts : Prop where
  bcast_S_S512x512 : S_.BroadcastsInDim S512x512 (![] : Fin 0 → Fin S512x512.rank)
  reducesTo_S512x512_S_d0_1 : S512x512.ReducesTo [0, 1] S_
  h_S_ : 0 < S_.numel

variable [Facts]

def fn {F : FTy → Type} [FloatOps F] (main_arg0 : FVec F S512x512 .f32) : IVec S_ 1 :=
  let main_v0 : FVec F S512x512 .f32 := Host.absf main_arg0
  let main_cst : FVec F S_ .f32 := constant S_ .f32 0x7F800000#32
  let main_v1 : FVec F S512x512 .f32 := broadcastInDim S512x512 ![] bcast_S_S512x512 main_cst
  let main_v2 : IVec S512x512 1 := cmpf .olt main_v0 main_v1
  let main_c : IVec S_ 1 := constantI S_ 1 1#1
  let main_v3 : IVec S_ 1 := (fun x v => Host.reduce IntOp.andi x v reducesTo_S512x512_S_d0_1 h_S_) main_v2 main_c
  main_v3
-- ==== Pre_finite_inputs_ReferenceIdeal.lean ====
abbrev S1024x512 : Shape := ⟨2, ![1024, 512]⟩
abbrev S_ : Shape := ⟨0, ![]⟩

class Facts : Prop where
  bcast_S_S1024x512 : S_.BroadcastsInDim S1024x512 (![] : Fin 0 → Fin S1024x512.rank)
  reducesTo_S1024x512_S_d0_1 : S1024x512.ReducesTo [0, 1] S_
  h_S_ : 0 < S_.numel

variable [Facts]

def fn {F : FTy → Type} [FloatOps F] (main_arg0 : FVec F S1024x512 .f32) : IVec S_ 1 :=
  let main_v0 : FVec F S1024x512 .f32 := Host.absf main_arg0
  let main_cst : FVec F S_ .f32 := constant S_ .f32 0x7F800000#32
  let main_v1 : FVec F S1024x512 .f32 := broadcastInDim S1024x512 ![] bcast_S_S1024x512 main_cst
  let main_v2 : IVec S1024x512 1 := cmpf .olt main_v0 main_v1
  let main_c : IVec S_ 1 := constantI S_ 1 1#1
  let main_v3 : IVec S_ 1 := (fun x v => Host.reduce IntOp.andi x v reducesTo_S1024x512_S_d0_1 h_S_) main_v2 main_c
  main_v3
-- ==== Kernel.lean ====
abbrev S512x512 : Shape := ⟨2, ![512, 512]⟩
abbrev S8 : Shape := ⟨1, ![8]⟩
abbrev S_ : Shape := ⟨0, ![]⟩
abbrev S1 : Shape := ⟨1, ![1]⟩
abbrev S32x512 : Shape := ⟨2, ![32, 512]⟩

abbrev nBuf : Space → Nat
  | .hbm => 2
  | .vmem => 3
  | .smem => 0
  | _ => 0

abbrev bufTy : (tb : Table) → Fin (tcTables nBuf tb) → BufTy
  | .hbm, ⟨0, _⟩ => ⟨S512x512, .f32⟩
  | .hbm, ⟨1, _⟩ => ⟨S512x512, .f32⟩
  | .local _ .vmem, ⟨0, _⟩ => ⟨S512x512, .f32⟩
  | .local _ .vmem, ⟨1, _⟩ => ⟨S512x512, .f32⟩
  | .local _ .vmem, ⟨2, _⟩ => ⟨S512x512, .f32⟩
  | _, _ => ⟨S512x512, .f32⟩

abbrev bufScoped : (cs : CoreSpace) → Fin (nBuf (.core cs)) → Bool
  | .vmem, ⟨0, _⟩ => true
  | .vmem, ⟨1, _⟩ => true
  | .vmem, ⟨2, _⟩ => true
  | _, _ => false

abbrev semScoped : Fin 1 → Bool
  | ⟨0, _⟩ => false
  | _ => false

abbrev dmaSemScoped : Fin 34 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | _ => false

abbrev sig : RefSig :=
  (ofTc nBuf bufTy 1 34 bufScoped semScoped dmaSemScoped tileCredit tileCredit_eq_zero tileCredit_pos).withBarriers [(0, 0)]

abbrev main_arg0 : Ref sig .tc := ⟨.hbm, 0, rfl⟩
abbrev main_v1 : Ref sig .tc := ⟨.hbm, 1, rfl⟩
abbrev cc0_stg0_0 : Ref sig .tc := ⟨.vmem, 0, rfl⟩
abbrev cc0_stg1_0 : Ref sig .tc := ⟨.vmem, 1, rfl⟩
abbrev cc0_scratch0 : Ref sig .tc := ⟨.vmem, 2, rfl⟩
abbrev cc0_sem0_0 : DmaSem sig := 0
abbrev cc0_sem1_0 : DmaSem sig := 1
abbrev barrier0 : Sem sig := 0

abbrev nD : Nat := 8
abbrev τ : Topo := Topo.v7x

variable {F : FTy → Type} [FloatOps F]

abbrev grid0 : Pipeline.Grid := .none

def k0_dev1 (d0 : Dev nD) : Nat :=
  let c0_i32 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_6 : BitVec 32 := 4#32
  let v12 : BitVec 32 := Scalar.muli v2 c4_i32_6
  let v13 : BitVec 32 := Scalar.addi c0_i32 v12
  let c1_i32_3 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v9 : BitVec 32 := Scalar.subi c1_i32_3 v5
  let c2_i32_7 : BitVec 32 := 2#32
  let v14 : BitVec 32 := Scalar.muli v9 c2_i32_7
  let v15 : BitVec 32 := Scalar.addi v13 v14
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_8 : BitVec 32 := 1#32
  let v16 : BitVec 32 := Scalar.muli v8 c1_i32_8
  let v17 : BitVec 32 := Scalar.addi v15 v16
  v17.toNat
def k0_dev2 (d0 : Dev nD) : Nat :=
  let c0_i32_11 : BitVec 32 := 0#32
  let c1_i32_4 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v10 : BitVec 32 := Scalar.subi c1_i32_4 v2
  let c4_i32_10 : BitVec 32 := 4#32
  let v18 : BitVec 32 := Scalar.muli v10 c4_i32_10
  let v19 : BitVec 32 := Scalar.addi c0_i32_11 v18
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_12 : BitVec 32 := 2#32
  let v20 : BitVec 32 := Scalar.muli v5 c2_i32_12
  let v21 : BitVec 32 := Scalar.addi v19 v20
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_13 : BitVec 32 := 1#32
  let v22 : BitVec 32 := Scalar.muli v8 c1_i32_13
  let v23 : BitVec 32 := Scalar.addi v21 v22
  v23.toNat
def k0_off1 (d0 : Dev nD) (c0_i32_15 : BitVec 32) : Fin 2 → Nat :=
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c256_i32 : BitVec 32 := 256#32
  let v24 : BitVec 32 := Scalar.muli v2 c256_i32
  let v25 : BitVec 32 := Scalar.addi v24 c0_i32_15
  let c0_i32_22 : BitVec 32 := 0#32
  ![v25.toNat, 0]
def k0_dev3 (d0 : Dev nD) : Nat :=
  let c0_i32_19 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_18 : BitVec 32 := 4#32
  let v26 : BitVec 32 := Scalar.muli v2 c4_i32_18
  let v27 : BitVec 32 := Scalar.addi c0_i32_19 v26
  let c1_i32_3 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v9 : BitVec 32 := Scalar.subi c1_i32_3 v5
  let c2_i32_20 : BitVec 32 := 2#32
  let v28 : BitVec 32 := Scalar.muli v9 c2_i32_20
  let v29 : BitVec 32 := Scalar.addi v27 v28
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_21 : BitVec 32 := 1#32
  let v30 : BitVec 32 := Scalar.muli v8 c1_i32_21
  let v31 : BitVec 32 := Scalar.addi v29 v30
  v31.toNat
def k0_dev4 (d0 : Dev nD) : Nat :=
  let c0_i32_27 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_26 : BitVec 32 := 4#32
  let v39 : BitVec 32 := Scalar.muli v2 c4_i32_26
  let v40 : BitVec 32 := Scalar.addi c0_i32_27 v39
  let c1_i32_3 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v9 : BitVec 32 := Scalar.subi c1_i32_3 v5
  let c2_i32_28 : BitVec 32 := 2#32
  let v41 : BitVec 32 := Scalar.muli v9 c2_i32_28
  let v42 : BitVec 32 := Scalar.addi v40 v41
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_29 : BitVec 32 := 1#32
  let v43 : BitVec 32 := Scalar.muli v8 c1_i32_29
  let v44 : BitVec 32 := Scalar.addi v42 v43
  v44.toNat
def k0_dev5 (d0 : Dev nD) : Nat :=
  let c0_i32_35 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_34 : BitVec 32 := 4#32
  let v52 : BitVec 32 := Scalar.muli v2 c4_i32_34
  let v53 : BitVec 32 := Scalar.addi c0_i32_35 v52
  let c1_i32_3 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v9 : BitVec 32 := Scalar.subi c1_i32_3 v5
  let c2_i32_36 : BitVec 32 := 2#32
  let v54 : BitVec 32 := Scalar.muli v9 c2_i32_36
  let v55 : BitVec 32 := Scalar.addi v53 v54
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_37 : BitVec 32 := 1#32
  let v56 : BitVec 32 := Scalar.muli v8 c1_i32_37
  let v57 : BitVec 32 := Scalar.addi v55 v56
  v57.toNat
def k0_dev6 (d0 : Dev nD) : Nat :=
  let c0_i32_42 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_41 : BitVec 32 := 4#32
  let v65 : BitVec 32 := Scalar.muli v2 c4_i32_41
  let v66 : BitVec 32 := Scalar.addi c0_i32_42 v65
  let c1_i32_3 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v9 : BitVec 32 := Scalar.subi c1_i32_3 v5
  let c2_i32_43 : BitVec 32 := 2#32
  let v67 : BitVec 32 := Scalar.muli v9 c2_i32_43
  let v68 : BitVec 32 := Scalar.addi v66 v67
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_44 : BitVec 32 := 1#32
  let v69 : BitVec 32 := Scalar.muli v8 c1_i32_44
  let v70 : BitVec 32 := Scalar.addi v68 v69
  v70.toNat
def k0_dev7 (d0 : Dev nD) : Nat :=
  let c0_i32_50 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_49 : BitVec 32 := 4#32
  let v78 : BitVec 32 := Scalar.muli v2 c4_i32_49
  let v79 : BitVec 32 := Scalar.addi c0_i32_50 v78
  let c1_i32_3 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v9 : BitVec 32 := Scalar.subi c1_i32_3 v5
  let c2_i32_51 : BitVec 32 := 2#32
  let v80 : BitVec 32 := Scalar.muli v9 c2_i32_51
  let v81 : BitVec 32 := Scalar.addi v79 v80
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_52 : BitVec 32 := 1#32
  let v82 : BitVec 32 := Scalar.muli v8 c1_i32_52
  let v83 : BitVec 32 := Scalar.addi v81 v82
  v83.toNat
def k0_dev8 (d0 : Dev nD) : Nat :=
  let c0_i32_57 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_56 : BitVec 32 := 4#32
  let v91 : BitVec 32 := Scalar.muli v2 c4_i32_56
  let v92 : BitVec 32 := Scalar.addi c0_i32_57 v91
  let c1_i32_3 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v9 : BitVec 32 := Scalar.subi c1_i32_3 v5
  let c2_i32_58 : BitVec 32 := 2#32
  let v93 : BitVec 32 := Scalar.muli v9 c2_i32_58
  let v94 : BitVec 32 := Scalar.addi v92 v93
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_59 : BitVec 32 := 1#32
  let v95 : BitVec 32 := Scalar.muli v8 c1_i32_59
  let v96 : BitVec 32 := Scalar.addi v94 v95
  v96.toNat
def k0_dev9 (d0 : Dev nD) : Nat :=
  let c0_i32_64 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_63 : BitVec 32 := 4#32
  let v104 : BitVec 32 := Scalar.muli v2 c4_i32_63
  let v105 : BitVec 32 := Scalar.addi c0_i32_64 v104
  let c1_i32_3 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v9 : BitVec 32 := Scalar.subi c1_i32_3 v5
  let c2_i32_65 : BitVec 32 := 2#32
  let v106 : BitVec 32 := Scalar.muli v9 c2_i32_65
  let v107 : BitVec 32 := Scalar.addi v105 v106
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_66 : BitVec 32 := 1#32
  let v108 : BitVec 32 := Scalar.muli v8 c1_i32_66
  let v109 : BitVec 32 := Scalar.addi v107 v108
  v109.toNat
def k0_dev10 (d0 : Dev nD) : Nat :=
  let c0_i32_71 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_70 : BitVec 32 := 4#32
  let v117 : BitVec 32 := Scalar.muli v2 c4_i32_70
  let v118 : BitVec 32 := Scalar.addi c0_i32_71 v117
  let c1_i32_3 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v9 : BitVec 32 := Scalar.subi c1_i32_3 v5
  let c2_i32_72 : BitVec 32 := 2#32
  let v119 : BitVec 32 := Scalar.muli v9 c2_i32_72
  let v120 : BitVec 32 := Scalar.addi v118 v119
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_73 : BitVec 32 := 1#32
  let v121 : BitVec 32 := Scalar.muli v8 c1_i32_73
  let v122 : BitVec 32 := Scalar.addi v120 v121
  v122.toNat
def k0_dev11 (d0 : Dev nD) : Nat :=
  let c0_i32_88 : BitVec 32 := 0#32
  let c1_i32_4 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v10 : BitVec 32 := Scalar.subi c1_i32_4 v2
  let c4_i32_87 : BitVec 32 := 4#32
  let v140 : BitVec 32 := Scalar.muli v10 c4_i32_87
  let v141 : BitVec 32 := Scalar.addi c0_i32_88 v140
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_89 : BitVec 32 := 2#32
  let v142 : BitVec 32 := Scalar.muli v5 c2_i32_89
  let v143 : BitVec 32 := Scalar.addi v141 v142
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_90 : BitVec 32 := 1#32
  let v144 : BitVec 32 := Scalar.muli v8 c1_i32_90
  let v145 : BitVec 32 := Scalar.addi v143 v144
  v145.toNat
def k0_off2 (d0 : Dev nD) (c0_i32_76 : BitVec 32) : Fin 2 → Nat :=
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c256_i32 : BitVec 32 := 256#32
  let v24 : BitVec 32 := Scalar.muli v2 c256_i32
  let v129 : BitVec 32 := Scalar.addi v24 c0_i32_76
  let v152 : Index := Scalar.indexCast v129
  let c0 : Index := 0#32
  ![v152.toNat, 0]
def k0_dev12 (d0 : Dev nD) : Nat :=
  let c0_i32_107 : BitVec 32 := 0#32
  let c1_i32_4 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v10 : BitVec 32 := Scalar.subi c1_i32_4 v2
  let c4_i32_106 : BitVec 32 := 4#32
  let v171 : BitVec 32 := Scalar.muli v10 c4_i32_106
  let v172 : BitVec 32 := Scalar.addi c0_i32_107 v171
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_108 : BitVec 32 := 2#32
  let v173 : BitVec 32 := Scalar.muli v5 c2_i32_108
  let v174 : BitVec 32 := Scalar.addi v172 v173
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_109 : BitVec 32 := 1#32
  let v175 : BitVec 32 := Scalar.muli v8 c1_i32_109
  let v176 : BitVec 32 := Scalar.addi v174 v175
  v176.toNat
def k0_dev13 (d0 : Dev nD) : Nat :=
  let c0_i32_127 : BitVec 32 := 0#32
  let c1_i32_4 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v10 : BitVec 32 := Scalar.subi c1_i32_4 v2
  let c4_i32_126 : BitVec 32 := 4#32
  let v202 : BitVec 32 := Scalar.muli v10 c4_i32_126
  let v203 : BitVec 32 := Scalar.addi c0_i32_127 v202
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_128 : BitVec 32 := 2#32
  let v204 : BitVec 32 := Scalar.muli v5 c2_i32_128
  let v205 : BitVec 32 := Scalar.addi v203 v204
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_129 : BitVec 32 := 1#32
  let v206 : BitVec 32 := Scalar.muli v8 c1_i32_129
  let v207 : BitVec 32 := Scalar.addi v205 v206
  v207.toNat
def k0_dev14 (d0 : Dev nD) : Nat :=
  let c0_i32_147 : BitVec 32 := 0#32
  let c1_i32_4 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v10 : BitVec 32 := Scalar.subi c1_i32_4 v2
  let c4_i32_146 : BitVec 32 := 4#32
  let v233 : BitVec 32 := Scalar.muli v10 c4_i32_146
  let v234 : BitVec 32 := Scalar.addi c0_i32_147 v233
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_148 : BitVec 32 := 2#32
  let v235 : BitVec 32 := Scalar.muli v5 c2_i32_148
  let v236 : BitVec 32 := Scalar.addi v234 v235
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_149 : BitVec 32 := 1#32
  let v237 : BitVec 32 := Scalar.muli v8 c1_i32_149
  let v238 : BitVec 32 := Scalar.addi v236 v237
  v238.toNat
def k0_dev15 (d0 : Dev nD) : Nat :=
  let c0_i32_167 : BitVec 32 := 0#32
  let c1_i32_4 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v10 : BitVec 32 := Scalar.subi c1_i32_4 v2
  let c4_i32_166 : BitVec 32 := 4#32
  let v264 : BitVec 32 := Scalar.muli v10 c4_i32_166
  let v265 : BitVec 32 := Scalar.addi c0_i32_167 v264
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_168 : BitVec 32 := 2#32
  let v266 : BitVec 32 := Scalar.muli v5 c2_i32_168
  let v267 : BitVec 32 := Scalar.addi v265 v266
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_169 : BitVec 32 := 1#32
  let v268 : BitVec 32 := Scalar.muli v8 c1_i32_169
  let v269 : BitVec 32 := Scalar.addi v267 v268
  v269.toNat
def k0_dev16 (d0 : Dev nD) : Nat :=
  let c0_i32_187 : BitVec 32 := 0#32
  let c1_i32_4 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v10 : BitVec 32 := Scalar.subi c1_i32_4 v2
  let c4_i32_186 : BitVec 32 := 4#32
  let v295 : BitVec 32 := Scalar.muli v10 c4_i32_186
  let v296 : BitVec 32 := Scalar.addi c0_i32_187 v295
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_188 : BitVec 32 := 2#32
  let v297 : BitVec 32 := Scalar.muli v5 c2_i32_188
  let v298 : BitVec 32 := Scalar.addi v296 v297
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_189 : BitVec 32 := 1#32
  let v299 : BitVec 32 := Scalar.muli v8 c1_i32_189
  let v300 : BitVec 32 := Scalar.addi v298 v299
  v300.toNat
def k0_dev17 (d0 : Dev nD) : Nat :=
  let c0_i32_207 : BitVec 32 := 0#32
  let c1_i32_4 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v10 : BitVec 32 := Scalar.subi c1_i32_4 v2
  let c4_i32_206 : BitVec 32 := 4#32
  let v326 : BitVec 32 := Scalar.muli v10 c4_i32_206
  let v327 : BitVec 32 := Scalar.addi c0_i32_207 v326
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_208 : BitVec 32 := 2#32
  let v328 : BitVec 32 := Scalar.muli v5 c2_i32_208
  let v329 : BitVec 32 := Scalar.addi v327 v328
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_209 : BitVec 32 := 1#32
  let v330 : BitVec 32 := Scalar.muli v8 c1_i32_209
  let v331 : BitVec 32 := Scalar.addi v329 v330
  v331.toNat
def k0_dev18 (d0 : Dev nD) : Nat :=
  let c0_i32_227 : BitVec 32 := 0#32
  let c1_i32_4 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v10 : BitVec 32 := Scalar.subi c1_i32_4 v2
  let c4_i32_226 : BitVec 32 := 4#32
  let v357 : BitVec 32 := Scalar.muli v10 c4_i32_226
  let v358 : BitVec 32 := Scalar.addi c0_i32_227 v357
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_228 : BitVec 32 := 2#32
  let v359 : BitVec 32 := Scalar.muli v5 c2_i32_228
  let v360 : BitVec 32 := Scalar.addi v358 v359
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_229 : BitVec 32 := 1#32
  let v361 : BitVec 32 := Scalar.muli v8 c1_i32_229
  let v362 : BitVec 32 := Scalar.addi v360 v361
  v362.toNat
def k0_off3 (d0 : Dev nD) (c0_i32_237 : BitVec 32) : Fin 2 → Nat :=
  let c1_i32_235 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v377 : BitVec 32 := Scalar.subi c1_i32_235 v2
  let c256_i32_236 : BitVec 32 := 256#32
  let v378 : BitVec 32 := Scalar.muli v377 c256_i32_236
  let v379 : BitVec 32 := Scalar.addi v378 c0_i32_237
  let v390 : Index := Scalar.indexCast v379
  let c0_246 : Index := 0#32
  ![v390.toNat, 0]
abbrev stage0_0 : Fin 1 → Memref sig .tc .vmem S512x512 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S512x512 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

class Facts₀ : Prop where
  hamt_1 : (1#32 : BitVec 32).msb = false
  hamt_2 : (2#32 : BitVec 32).msb = false
  inb_S8_S1_0 : ∀ a, (![0] : Fin 1 → Nat) a + S1.size a ≤ S8.size a
  squeezes_S1_S_ : S1.Squeezes S_
  inb_S8_S1_1 : ∀ a, (![1] : Fin 1 → Nat) a + S1.size a ≤ S8.size a
  inb_S8_S1_2 : ∀ a, (![2] : Fin 1 → Nat) a + S1.size a ≤ S8.size a
  inb_S8_S1_3 : ∀ a, (![3] : Fin 1 → Nat) a + S1.size a ≤ S8.size a
  inb_S8_S1_4 : ∀ a, (![4] : Fin 1 → Nat) a + S1.size a ≤ S8.size a
  inb_S8_S1_5 : ∀ a, (![5] : Fin 1 → Nat) a + S1.size a ≤ S8.size a
  inb_S8_S1_6 : ∀ a, (![6] : Fin 1 → Nat) a + S1.size a ≤ S8.size a
  inb_S8_S1_7 : ∀ a, (![7] : Fin 1 → Nat) a + S1.size a ≤ S8.size a
  h_S32x512 : 0 < S32x512.numel
  shapeCasts_S32x512_S32x512 : S32x512.ShapeCasts S32x512
  hcc0_scratch1 : 2 + S8.numel ≤ 34
  hcc0_scratch2 : 10 + S8.numel ≤ 34
  hcc0_scratch3 : 18 + S8.numel ≤ 34
  hcc0_scratch4 : 26 + S8.numel ≤ 34
  k0_dev1_lt : ∀ d0 : Dev nD, (k0_dev1 d0) < nD
  k0_dev2_lt : ∀ d0 : Dev nD, (k0_dev2 d0) < nD
  k0_off1_inb : ∀ d0 : Dev nD, ∀ (r : Fin 8), ∀ a, (k0_off1 d0 (BitVec.ofNat 32 (32 * r.val))) a + S32x512.size a ≤ S512x512.size a
  k0_dev3_lt : ∀ d0 : Dev nD, (k0_dev3 d0) < nD
  k0_dev4_lt : ∀ d0 : Dev nD, (k0_dev4 d0) < nD
  k0_dev5_lt : ∀ d0 : Dev nD, (k0_dev5 d0) < nD
  k0_dev6_lt : ∀ d0 : Dev nD, (k0_dev6 d0) < nD
  k0_dev7_lt : ∀ d0 : Dev nD, (k0_dev7 d0) < nD
  k0_dev8_lt : ∀ d0 : Dev nD, (k0_dev8 d0) < nD
  k0_dev9_lt : ∀ d0 : Dev nD, (k0_dev9 d0) < nD
  k0_dev10_lt : ∀ d0 : Dev nD, (k0_dev10 d0) < nD
  k0_dev11_lt : ∀ d0 : Dev nD, (k0_dev11 d0) < nD
  k0_off2_inb : ∀ d0 : Dev nD, ∀ (r : Fin 8), ∀ a, (k0_off2 d0 (BitVec.ofNat 32 (32 * r.val))) a + S32x512.size a ≤ S512x512.size a
  k0_dev12_lt : ∀ d0 : Dev nD, (k0_dev12 d0) < nD
  k0_dev13_lt : ∀ d0 : Dev nD, (k0_dev13 d0) < nD
  k0_dev14_lt : ∀ d0 : Dev nD, (k0_dev14 d0) < nD
  k0_dev15_lt : ∀ d0 : Dev nD, (k0_dev15 d0) < nD
  k0_dev16_lt : ∀ d0 : Dev nD, (k0_dev16 d0) < nD
  k0_dev17_lt : ∀ d0 : Dev nD, (k0_dev17 d0) < nD
  k0_dev18_lt : ∀ d0 : Dev nD, (k0_dev18 d0) < nD
  k0_off3_inb : ∀ d0 : Dev nD, ∀ (r : Fin 8), ∀ a, (k0_off3 d0 (BitVec.ofNat 32 (32 * r.val))) a + S32x512.size a ≤ S512x512.size a
  hstage0_0 : ∀ j, (stage0_0 j).IsWhole
  hstage0_1 : ∀ j, (stage0_1 j).IsWhole

variable [Facts₀]

abbrev cc0_scratch1 : DmaSems sig S8 := SemArray.consecutive 2 S8 hcc0_scratch1
abbrev cc0_scratch2 : DmaSems sig S8 := SemArray.consecutive 10 S8 hcc0_scratch2
abbrev cc0_scratch3 : DmaSems sig S8 := SemArray.consecutive 18 S8 hcc0_scratch3
abbrev cc0_scratch4 : DmaSems sig S8 := SemArray.consecutive 26 S8 hcc0_scratch4

abbrev win0_0 : Pipeline.Window sig grid0 :=
  Pipeline.Window.whole (Memref.whole main_arg0) false false (stage0_0 0) (sem0_0 0) (Memref.isWhole_whole _) (hstage0_0 0)

abbrev win0_1 : Pipeline.Window sig grid0 :=
  Pipeline.Window.whole (Memref.whole main_v1) true false (stage0_1 0) (sem0_1 0) (Memref.isWhole_whole _) (hstage0_1 0)

abbrev win0 : Fin 2 → Pipeline.Window sig grid0 := fun | 0 => win0_0 | 1 => win0_1 | ⟨_ + 2, h⟩ => absurd h (Nat.not_lt.2 (Nat.le_add_left _ _))
abbrev spec0 : Fin 2 → Pipeline.WinSpec sig grid0.rank := fun w => (win0 w).toWinSpec

class Facts : Prop extends Facts₀ where

variable [Facts]
-- ==== ReferenceIdeal.lean ====
abbrev S1024x512 : Shape := ⟨2, ![1024, 512]⟩
abbrev S2x512x512 : Shape := ⟨3, ![2, 512, 512]⟩
abbrev S_ : Shape := ⟨0, ![]⟩
abbrev S512x512 : Shape := ⟨2, ![512, 512]⟩

abbrev nBuf : Space → Nat
  | .hbm => 4
  | .vmem => 0
  | .smem => 0
  | _ => 0

abbrev bufTy : (tb : Table) → Fin (tcTables nBuf tb) → BufTy
  | .hbm, ⟨0, _⟩ => ⟨S1024x512, .f32⟩
  | .hbm, ⟨1, _⟩ => ⟨S2x512x512, .f32⟩
  | .hbm, ⟨2, _⟩ => ⟨S_, .f32⟩
  | .hbm, ⟨3, _⟩ => ⟨S512x512, .f32⟩
  | _, _ => ⟨S1024x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_cst : Ref sig .tc := ⟨.hbm, 2, rfl⟩
abbrev main_v1 : Ref sig .tc := ⟨.hbm, 3, rfl⟩

abbrev nD : Nat := 1
abbrev τ : Topo := Topo.v7x

variable {F : FTy → Type} [FloatOps F]

class Facts₀ : Prop where
  shapeCasts_S1024x512_S2x512x512 : S1024x512.ShapeCasts S2x512x512
  reducesTo_S2x512x512_S512x512_d0 : S2x512x512.ReducesTo [0] S512x512
  h_S_ : 0 < S_.numel

variable [Facts₀]

class Facts : Prop extends Facts₀ where

variable [Facts]
-- ==== Proof.RefValue.lean ====
/-
  The reference's value: the host program reshapes the whole array to two blocks of 512 rows and adds them.
-/
import proofs.«900702_g7700000000000703_dist_ar_v7x_xyz2x2x2_y_m512_n512_f32_1_alg».proof.Defs
import proofs.«900702_g7700000000000703_dist_ar_v7x_xyz2x2x2_y_m512_n512_f32_1_alg».proof.Proof.Gen.ReferenceIdeal.Run
import proofs.«900702_g7700000000000703_dist_ar_v7x_xyz2x2x2_y_m512_n512_f32_1_alg».proof.Proof.Gen.ReferenceIdeal.Read
import Idealize.ShloMosaic.Lib.Layout
import Idealize.ShloMosaic.Lib.ValueIdx
import Idealize.ShloMosaic.PureOps.Ideal.Laws

noncomputable section

namespace Cert.ReferenceIdeal.RefValue

open Cert.ReferenceIdeal Cert.ReferenceIdeal.Gen Idealize.ShloMosaic Idealize.ShloMosaic.TcCoe Idealize.SL.Sem

/-- Row r of block b of the whole array. -/
def rowOf (b : Fin 2) (i : S512x512.Idx) : S1024x512.Idx := fun a => match a with
  | ⟨0, _⟩ => ⟨512 * b.val + (i 0).val, by
      have hb : b.val < 2 := b.isLt
      have h0 : (i 0).val < 512 := (i 0).isLt
      show 512 * b.val + (i 0).val < 1024
      omega⟩
  | ⟨1, _⟩ => ⟨(i 1).val, (i 1).isLt⟩

theorem rowOf_val0 (b : Fin 2) (i : S512x512.Idx) : (rowOf b i 0).val = 512 * b.val + (i 0).val := rfl
theorem rowOf_val1 (b : Fin 2) (i : S512x512.Idx) : (rowOf b i 1).val = (i 1).val := rfl

/-- The two blocks of 512 rows added, entry by entry. -/
def sumBlocks (X : (⟨S1024x512, .f32⟩ : BufTy).Contents (Elt Ideal)) : (⟨S512x512, .f32⟩ : BufTy).Contents (Elt Ideal) :=
  fun i => (show EReal from X (rowOf 0 i)) + (show EReal from X (rowOf 1 i))

/-- The reshaped index of row i 0 of slab k is row 512 k + i 0 of the whole array. -/
theorem idx_rowOf (k : Fin 2) (i : S512x512.Idx) :
    Read.idx_main_v0 (Read.idx_main_v1 i k) = rowOf k i := by
  have hk : k.val < 2 := k.isLt
  have h0 : (i 0).val < 512 := (i 0).isLt
  have h1 : (i 1).val < 512 := (i 1).isLt
  funext a
  match a with
  | ⟨0, _⟩ =>
    refine Fin.ext ?_
    show ((k.val * 512 + (i 0).val) * 512 + (i 1).val) / 512 = 512 * k.val + (i 0).val
    omega
  | ⟨1, _⟩ =>
    refine Fin.ext ?_
    show ((k.val * 512 + (i 0).val) * 512 + (i 1).val) % 512 = (i 1).val
    omega

theorem ref_val (X : (⟨S1024x512, .f32⟩ : BufTy).Contents (Elt Ideal)) :
    Read.val_main_v1 (F := Ideal) X = sumBlocks X := by
  funext i
  rw [Read.val_main_v1_apply, Fin.sum_univ_two, Read.val_main_v0_apply, Read.val_main_v0_apply,
    idx_rowOf, idx_rowOf, Read.val_main_cst_apply]
  show Ideal.ofBits .f32 0x00000000#32 + _ = _
  rw [Ideal.ofBits_zero_f32, zero_add]
  rfl

/-- Every weakly fair execution of the reference ends with the result at the sum of the two blocks of its argument,
    the argument unchanged. -/
theorem ref_run (m' : (ℓ : Loc Cert.ReferenceIdeal.nD Cert.ReferenceIdeal.τ Cert.ReferenceIdeal.sig) → Buf (Elt Ideal) ℓ) (ρ' : Dev Cert.ReferenceIdeal.nD → PrngReg) :
    θ_run (Cert.ReferenceIdeal.defs (F := Ideal)) (onTc (τ := Cert.ReferenceIdeal.τ) (Cert.ReferenceIdeal.main (F := Ideal))) ⟨m', fun _ => 0, ρ'⟩ (fun r => ∀ c : Dev Cert.ReferenceIdeal.nD,
      r.2.mem ((c.tc : Thread _ Cert.ReferenceIdeal.τ).loc Cert.ReferenceIdeal.main_v1) = sumBlocks (m' ((c.tc : Thread _ Cert.ReferenceIdeal.τ).loc Cert.ReferenceIdeal.main_arg0))
      ∧ r.2.mem ((c.tc : Thread _ Cert.ReferenceIdeal.τ).loc Cert.ReferenceIdeal.main_arg0) = m' ((c.tc : Thread _ Cert.ReferenceIdeal.τ).loc Cert.ReferenceIdeal.main_arg0)) :=
  (θ_run Cert.ReferenceIdeal.defs _ _).mono
    (fun _ h c => ⟨(h c).1.trans ((Read.val_main_v1_eq _).trans (ref_val _)), (h c).2⟩)
    (Cert.ReferenceIdeal.Value.run (F := Ideal) m' ρ')

/-- The reference runs and leaves its argument as it was: its run with the result dropped. -/
theorem frame_ri [Cert.Pre_finite_inputs_ReferenceIdeal.Facts] : Cert.frame_ReferenceIdeal := fun m ρ _ =>
  (θ_run Cert.ReferenceIdeal.defs _ _).mono (fun _ h c => (h c).2) (Cert.ReferenceIdeal.Value.run (F := Ideal) m ρ)

/-- On the 2 x 2 x 2 mesh, numbered row-major, a device's block number along the y axis is its y coordinate. -/
theorem meshLin_y (c : Nat) : Layout.meshLin [2, 2, 2] c [1] = c / 2 % 2 := by
  show c / (2 * 1) % 2 * 1 + 0 = c / 2 % 2
  omega

/-- Device c's block of the whole array, at an index: block number c/2 % 2 (the y coordinate). -/
theorem blk_apply (c : Dev 8) (X : (⟨S1024x512, .f32⟩ : BufTy).Contents (Elt Ideal)) (i : S512x512.Idx) :
    (Layout.blockN ⟨2, ![512, 512]⟩ ⟨2, ![1024, 512]⟩ (Layout.meshBlock [2, 2, 2] ![[1], []] c) X) i
      = X (rowOf ⟨c.val / 2 % 2, by omega⟩ i) := by
  rw [Layout.blockN_apply]
  refine congrArg X (funext fun a => ?_)
  match a with
  | ⟨0, _⟩ =>
    refine Fin.ext ?_
    show Layout.meshLin [2, 2, 2] c.val [1] * 512 + (i 0).val = 512 * (c.val / 2 % 2) + (i 0).val
    rw [meshLin_y]
    omega
  | ⟨1, _⟩ =>
    refine Fin.ext ?_
    show 0 * 512 + (i 1).val = (i 1).val
    omega

/-- A device's block plus the block of any device in the other y-row is the reference's result. -/
theorem own_plus_other (c c' : Dev 8) (h : c'.val / 2 % 2 = 1 - c.val / 2 % 2) (X : (⟨S1024x512, .f32⟩ : BufTy).Contents (Elt Ideal)) :
    (fun i => (show EReal from (Layout.blockN ⟨2, ![512, 512]⟩ ⟨2, ![1024, 512]⟩ (Layout.meshBlock [2, 2, 2] ![[1], []] c) X) i)
        + (show EReal from (Layout.blockN ⟨2, ![512, 512]⟩ ⟨2, ![1024, 512]⟩ (Layout.meshBlock [2, 2, 2] ![[1], []] c') X) i))
      = sumBlocks X := by
  funext i
  rw [blk_apply c X i, blk_apply c' X i]
  rcases Nat.mod_two_eq_zero_or_one (c.val / 2) with h0 | h1
  · have e0 : (⟨c.val / 2 % 2, by omega⟩ : Fin 2) = 0 := Fin.ext h0
    have e1 : (⟨c'.val / 2 % 2, by omega⟩ : Fin 2) = 1 := Fin.ext (by show c'.val / 2 % 2 = 1; omega)
    rw [e0, e1]
    rfl
  · have e0 : (⟨c.val / 2 % 2, by omega⟩ : Fin 2) = 1 := Fin.ext h1
    have e1 : (⟨c'.val / 2 % 2, by omega⟩ : Fin 2) = 0 := Fin.ext (by show c'.val / 2 % 2 = 0; omega)
    rw [e0, e1]
    exact add_comm (G := EReal) _ _

/-- The layout lemmas apply as they stand to the reference's argument array read from a memory. -/
example (m' : (ℓ : Loc Cert.ReferenceIdeal.nD Cert.ReferenceIdeal.τ Cert.ReferenceIdeal.sig) → Buf (Elt Ideal) ℓ)
    (c : Dev 8) (i : S512x512.Idx) :
    (Layout.blockN ⟨2, ![512, 512]⟩ ⟨2, ![1024, 512]⟩ (Layout.meshBlock [2, 2, 2] ![[1], []] c)
        (m' (((0 : Dev Cert.ReferenceIdeal.nD).tc : Thread Cert.ReferenceIdeal.nD Cert.ReferenceIdeal.τ).loc Cert.ReferenceIdeal.main_arg0))) i
      = m' (((0 : Dev Cert.ReferenceIdeal.nD).tc : Thread Cert.ReferenceIdeal.nD Cert.ReferenceIdeal.τ).loc Cert.ReferenceIdeal.main_arg0)
          (rowOf ⟨c.val / 2 % 2, by omega⟩ i) := by
  rw [blk_apply]

example (m' : (ℓ : Loc Cert.ReferenceIdeal.nD Cert.ReferenceIdeal.τ Cert.ReferenceIdeal.sig) → Buf (Elt Ideal) ℓ)
    (c c' : Dev 8) (h : c'.val / 2 % 2 = 1 - c.val / 2 % 2) :
    (fun i => (show EReal from (Layout.blockN ⟨2, ![512, 512]⟩ ⟨2, ![1024, 512]⟩ (Layout.meshBlock [2, 2, 2] ![[1], []] c)
          (m' (((0 : Dev Cert.ReferenceIdeal.nD).tc : Thread Cert.ReferenceIdeal.nD Cert.ReferenceIdeal.τ).loc Cert.ReferenceIdeal.main_arg0))) i)
        + (show EReal from (Layout.blockN ⟨2, ![512, 512]⟩ ⟨2, ![1024, 512]⟩ (Layout.meshBlock [2, 2, 2] ![[1], []] c')
          (m' (((0 : Dev Cert.ReferenceIdeal.nD).tc : Thread Cert.ReferenceIdeal.nD Cert.ReferenceIdeal.τ).loc Cert.ReferenceIdeal.main_arg0))) i))
      = sumBlocks (m' (((0 : Dev Cert.ReferenceIdeal.nD).tc : Thread Cert.ReferenceIdeal.nD Cert.ReferenceIdeal.τ).loc Cert.ReferenceIdeal.main_arg0)) :=
  own_plus_other c c' h _

example (hPre : Cert.Pre_finite_inputs_ReferenceIdeal.Facts) :
    Cert.frame_ReferenceIdeal (hReferenceIdeal := Cert.ReferenceIdeal.Gen.facts) (hPre_finite_inputs_ReferenceIdeal := hPre) := frame_ri

end Cert.ReferenceIdeal.RefValue

end
-- ==== Proof.Mesh.lean ====
/- The mesh arithmetic of the eight devices: the two neighbour maps (along y and along x), the
   coordinates they flip, and the thirty-two-row chunks of a device's half of the rows. Device `c`
   sits at coordinates (c / 4, c / 2 % 2, c % 2) of a 2 × 2 × 2 mesh. -/
import proofs.«900702_g7700000000000703_dist_ar_v7x_xyz2x2x2_y_m512_n512_f32_1_alg».proof.Proof.Gen.KernelIdeal

namespace Cert.KernelIdeal.Mesh

open Idealize.ShloMosaic Cert.KernelIdeal Cert.KernelIdeal.Gen

/-! ## The neighbours -/

/-- The neighbour along y: the y coordinate flipped, the other two kept (`c` xor 2). -/
def ny (c : Dev nD) : Dev nD :=
  ⟨(4 * (c.val / 4) + (c.val % 2) + 2) - 2 * ((c.val / 2) % 2), by
    have h : c.val < 8 := c.isLt
    show _ < 8
    omega⟩

/-- The neighbour along x: the x coordinate flipped, the other two kept (`c` xor 4). -/
def nx (c : Dev nD) : Dev nD :=
  ⟨(2 * ((c.val / 2) % 2) + (c.val % 2) + 4) - 4 * (c.val / 4), by
    have h : c.val < 8 := c.isLt
    show _ < 8
    omega⟩

/-- Flipping y twice is the identity. -/
theorem ny_ny (c : Dev nD) : ny (ny c) = c := by revert c; decide
/-- Flipping x twice is the identity. -/
theorem nx_nx (c : Dev nD) : nx (nx c) = c := by revert c; decide
/-- The two flips commute. -/
theorem ny_nx (c : Dev nD) : ny (nx c) = nx (ny c) := by revert c; decide
theorem ny_ne (c : Dev nD) : ny c ≠ c := by revert c; decide
theorem nx_ne (c : Dev nD) : nx c ≠ c := by revert c; decide
/-- The two neighbours differ: they differ from `c` on different axes. -/
theorem ny_ne_nx (c : Dev nD) : ny c ≠ nx c := by revert c; decide

/-- The y flip as a permutation of the devices (an involution). -/
def nyE : Dev nD ≃ Dev nD := ⟨ny, ny, ny_ny, ny_ny⟩
/-- The x flip as a permutation of the devices (an involution). -/
def nxE : Dev nD ≃ Dev nD := ⟨nx, nx, nx_nx, nx_nx⟩

/-! ## The device ids the program computes

Each id the program computes for a signal or a copy is one of the two neighbours: the first ten
address the y neighbour (all but the second), the others the x neighbour. -/

theorem dev1_eq (c : Dev nD) : (⟨k0_dev1 c, k0_dev1_lt c⟩ : Dev nD) = ny c := Fin.ext (k0_dev1_eq c)
theorem dev3_eq (c : Dev nD) : (⟨k0_dev3 c, k0_dev3_lt c⟩ : Dev nD) = ny c := Fin.ext (k0_dev3_eq c)
theorem dev4_eq (c : Dev nD) : (⟨k0_dev4 c, k0_dev4_lt c⟩ : Dev nD) = ny c := Fin.ext (k0_dev4_eq c)
theorem dev5_eq (c : Dev nD) : (⟨k0_dev5 c, k0_dev5_lt c⟩ : Dev nD) = ny c := Fin.ext (k0_dev5_eq c)
theorem dev6_eq (c : Dev nD) : (⟨k0_dev6 c, k0_dev6_lt c⟩ : Dev nD) = ny c := Fin.ext (k0_dev6_eq c)
theorem dev7_eq (c : Dev nD) : (⟨k0_dev7 c, k0_dev7_lt c⟩ : Dev nD) = ny c := Fin.ext (k0_dev7_eq c)
theorem dev8_eq (c : Dev nD) : (⟨k0_dev8 c, k0_dev8_lt c⟩ : Dev nD) = ny c := Fin.ext (k0_dev8_eq c)
theorem dev9_eq (c : Dev nD) : (⟨k0_dev9 c, k0_dev9_lt c⟩ : Dev nD) = ny c := Fin.ext (k0_dev9_eq c)
theorem dev10_eq (c : Dev nD) : (⟨k0_dev10 c, k0_dev10_lt c⟩ : Dev nD) = ny c := Fin.ext (k0_dev10_eq c)

theorem dev2_eq (c : Dev nD) : (⟨k0_dev2 c, k0_dev2_lt c⟩ : Dev nD) = nx c := Fin.ext (k0_dev2_eq c)
theorem dev11_eq (c : Dev nD) : (⟨k0_dev11 c, k0_dev11_lt c⟩ : Dev nD) = nx c := Fin.ext (k0_dev11_eq c)
theorem dev12_eq (c : Dev nD) : (⟨k0_dev12 c, k0_dev12_lt c⟩ : Dev nD) = nx c := Fin.ext (k0_dev12_eq c)
theorem dev13_eq (c : Dev nD) : (⟨k0_dev13 c, k0_dev13_lt c⟩ : Dev nD) = nx c := Fin.ext (k0_dev13_eq c)
theorem dev14_eq (c : Dev nD) : (⟨k0_dev14 c, k0_dev14_lt c⟩ : Dev nD) = nx c := Fin.ext (k0_dev14_eq c)
theorem dev15_eq (c : Dev nD) : (⟨k0_dev15 c, k0_dev15_lt c⟩ : Dev nD) = nx c := Fin.ext (k0_dev15_eq c)
theorem dev16_eq (c : Dev nD) : (⟨k0_dev16 c, k0_dev16_lt c⟩ : Dev nD) = nx c := Fin.ext (k0_dev16_eq c)
theorem dev17_eq (c : Dev nD) : (⟨k0_dev17 c, k0_dev17_lt c⟩ : Dev nD) = nx c := Fin.ext (k0_dev17_eq c)
theorem dev18_eq (c : Dev nD) : (⟨k0_dev18 c, k0_dev18_lt c⟩ : Dev nD) = nx c := Fin.ext (k0_dev18_eq c)

/-! ## The coordinates -/

/-- The x coordinate of a device. -/
def xc (c : Dev nD) : ℕ := c.val / 4
/-- The y coordinate of a device. -/
def yc (c : Dev nD) : ℕ := c.val / 2 % 2

theorem xc_ny (c : Dev nD) : xc (ny c) = xc c := by revert c; decide
theorem xc_nx (c : Dev nD) : xc (nx c) = 1 - xc c := by revert c; decide
theorem xc_le (c : Dev nD) : xc c ≤ 1 := by revert c; decide
theorem yc_ny (c : Dev nD) : yc (ny c) = 1 - yc c := by revert c; decide
theorem yc_nx (c : Dev nD) : yc (nx c) = yc c := by revert c; decide
theorem yc_le (c : Dev nD) : yc c ≤ 1 := by revert c; decide

/-! ## The row offsets of the chunks -/

/-- The word the program passes for the `k`-th chunk: `32 k`. -/
def kw (k : Fin 8) : BitVec 32 := BitVec.ofNat 32 (32 * k.val)

theorem kw0 : kw 0 = 0#32 := rfl
theorem kw1 : kw 1 = 32#32 := rfl
theorem kw2 : kw 2 = 64#32 := rfl
theorem kw3 : kw 3 = 96#32 := rfl
theorem kw4 : kw 4 = 128#32 := rfl
theorem kw5 : kw 5 = 160#32 := rfl
theorem kw6 : kw 6 = 192#32 := rfl
theorem kw7 : kw 7 = 224#32 := rfl

/-- The `k`-th chunk a device sends starts at row `256 x + 32 k` of its block, `x` its x
    coordinate: the device's half of the rows, thirty-two at a time. -/
theorem off1_eq (c : Dev nD) (k : Fin 8) : k0_off1 c (kw k) = ![256 * xc c + 32 * k.val, 0] :=
  k0_off1_eq c k

/-- The chunk a device forwards is the chunk it sent: the same rows. -/
theorem off2_eq_off1 (c : Dev nD) (k : Fin 8) : k0_off2 c (kw k) = k0_off1 c (kw k) :=
  (k0_off2_eq c k).trans (k0_off1_eq c k).symm

/-- The other half of the rows is the x neighbour's half. -/
theorem off3_eq_off1_nx (c : Dev nD) (k : Fin 8) : k0_off3 c (kw k) = k0_off1 (nx c) (kw k) := by
  have hx := xc_le c
  have h : (32 * k.val + 256) - 256 * (c.val / 4) = 256 * (1 - xc c) + 32 * k.val := by
    unfold xc at *; omega
  rw [off1_eq, xc_nx, ← h]
  exact k0_off3_eq c k

/-- The y neighbour sends the same rows: it has the same x coordinate. -/
theorem off1_ny (c : Dev nD) (k : Fin 8) : k0_off1 (ny c) (kw k) = k0_off1 c (kw k) := by
  rw [off1_eq, off1_eq, xc_ny]

/-! ## The chunks as sets of indices -/

/-- The `k`-th chunk of device `c`: thirty-two whole rows from row `256 x + 32 k`. -/
abbrev chunk (c : Dev nD) (k : Fin 8) : Rect S512x512 :=
  Rect.unit (s := S512x512) (k0_off1 c (kw k)) S32x512.size (k0_off1_inb c k)

/-- An index lies in a chunk iff its row does. -/
theorem mem_chunk (c : Dev nD) (k : Fin 8) (i : S512x512.Idx) :
    i ∈ (chunk c k).set ↔
      256 * xc c + 32 * k.val ≤ (i 0).val ∧ (i 0).val < 256 * xc c + 32 * k.val + 32 := by
  refine Rect.mem_set_unit.trans ?_
  rw [off1_eq]
  constructor
  · intro h
    exact h 0
  · intro h
    refine Fin.forall_fin_two.mpr ⟨h, Nat.zero_le _, ?_⟩
    have h1 : (i 1).val < 512 := (i 1).isLt
    show (i 1).val < 0 + 512
    omega

/-- Two different chunks of one device are disjoint: their row ranges are. -/
theorem chunk_disjoint (c : Dev nD) (k k' : Fin 8) (h : k ≠ k') :
    Disjoint (chunk c k).set (chunk c k').set := by
  have hk : k.val ≠ k'.val := fun e => h (Fin.ext e)
  refine Rect.unit_disjoint 0 ?_
  rw [off1_eq, off1_eq]
  show 256 * xc c + 32 * k.val + 32 ≤ 256 * xc c + 32 * k'.val ∨
    256 * xc c + 32 * k'.val + 32 ≤ 256 * xc c + 32 * k.val
  omega

/-- A device's chunks and its x neighbour's lie in different halves of the rows. -/
theorem chunk_disjoint_nx (c : Dev nD) (k k' : Fin 8) :
    Disjoint (chunk c k).set (chunk (nx c) k').set := by
  have hx := xc_le c
  have hk : k.val < 8 := k.isLt
  have hk' : k'.val < 8 := k'.isLt
  refine Rect.unit_disjoint 0 ?_
  rw [off1_eq, off1_eq, xc_nx]
  show 256 * xc c + 32 * k.val + 32 ≤ 256 * (1 - xc c) + 32 * k'.val ∨
    256 * (1 - xc c) + 32 * k'.val + 32 ≤ 256 * xc c + 32 * k.val
  omega

/-- Every index lies in a chunk of the device or in the chunk of the same number of its x
    neighbour: the sixteen chunks cover the 512 rows. -/
theorem chunk_cover (c : Dev nD) (i : S512x512.Idx) :
    ∃ k : Fin 8, i ∈ (chunk c k).set ∨ i ∈ (chunk (nx c) k).set := by
  have hi : (i 0).val < 512 := (i 0).isLt
  have hx := xc_le c
  refine ⟨⟨(i 0).val % 256 / 32, by omega⟩, ?_⟩
  rw [mem_chunk, mem_chunk, xc_nx]
  show (256 * xc c + 32 * ((i 0).val % 256 / 32) ≤ (i 0).val ∧
      (i 0).val < 256 * xc c + 32 * ((i 0).val % 256 / 32) + 32) ∨
    (256 * (1 - xc c) + 32 * ((i 0).val % 256 / 32) ≤ (i 0).val ∧
      (i 0).val < 256 * (1 - xc c) + 32 * ((i 0).val % 256 / 32) + 32)
  omega

end Cert.KernelIdeal.Mesh
-- ==== Proof.Cells.lean ====
/-
  The all-reduce over the y axis of a 2×2×2 mesh, as a protocol of semaphore cells.

  Device c holds block y(c) of the whole array. It sends the half of its block that its x coordinate names, in eight
  chunks of 32 rows, to its y-neighbour's receive buffer at the same rows; forwards each chunk it receives to its
  x-neighbour's receive buffer, again at the same rows; and stores, chunk by chunk, its own rows plus the received
  rows. So every row of every result is the device's own block plus the block of the other y-row.

  Cells of a device: the barrier (two duties of one unit: one from each neighbour, each handing over the eight
  chunks of the payer's receive buffer the owner will write), and per chunk k the cells ys k, yr k, xs k, xr k of the
  two transfers (one duty each of the chunk's transfer credit; a receive cell hands its owner the chunk holding the
  sender's rows, a send cell hands back the half share of the source the transfer read).
-/
import proofs.«900702_g7700000000000703_dist_ar_v7x_xyz2x2x2_y_m512_n512_f32_1_alg».proof.Proof.Mesh
import proofs.«900702_g7700000000000703_dist_ar_v7x_xyz2x2x2_y_m512_n512_f32_1_alg».proof.Proof.Gen.KernelIdeal.Launch
import Idealize.ShloMosaic.Lib.Pipeline.Launch
import Idealize.ShloMosaic.Lib.Pipeline.Kit
import Idealize.ShloMosaic.Lib.Tactic

noncomputable section

namespace Cert.KernelIdeal.AR

open Cert.KernelIdeal Cert.KernelIdeal.Gen Cert.KernelIdeal.Mesh

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

/-! ## The resource algebra: the pipeline library's copy beside the rounds library's (duty names Bool) -/

abbrev UB : Type := URounds (GSem nD τ sig) Bool
abbrev UU : Type := UR sig nD τ × UB

local notation "𝕄" => MT nD τ sig Unit (Elt F) ℕ UU ℕ

abbrev EP : Emb (UR sig nD τ) (MT nD τ sig Unit (Elt F) ℕ UU ℕ) := embL
abbrev ER : Emb UB (MT nD τ sig Unit (Elt F) ℕ UU ℕ) := embR

variable (m : (ℓ : Loc nD τ sig) → Buf (Elt F) ℓ) (ρ : Dev nD → PrngReg)

/-- The memory at launch: arbitrary contents, every semaphore counter zero. -/
def s₀ : MemSt nD τ sig (Elt F) := ⟨m, fun _ => 0, ρ⟩

/-! ## Memrefs, chunks, semaphores, cells -/

abbrev xM : Memref sig .tc .vmem S512x512 .f32 := Memref.whole cc0_stg0_0
abbrev oM : Memref sig .tc .vmem S512x512 .f32 := Memref.whole cc0_stg1_0
abbrev rM : Memref sig .tc .vmem S512x512 .f32 := Memref.whole cc0_scratch0

/-- Rows 256·x(c') + 32k … + 32 of the x staging buffer, of the output staging buffer, of the receive buffer. -/
abbrev xK (c' : Dev nD) (k : Fin 8) : Memref sig .tc .vmem S32x512 .f32 := xM.slice (chunk c' k) (fun _ => rfl)
abbrev oK (c' : Dev nD) (k : Fin 8) : Memref sig .tc .vmem S32x512 .f32 := oM.slice (chunk c' k) (fun _ => rfl)
abbrev rK (c' : Dev nD) (k : Fin 8) : Memref sig .tc .vmem S32x512 .f32 := rM.slice (chunk c' k) (fun _ => rfl)

theorem inb8 : ∀ (k : Fin 8) (a : Fin 1), (![k.val] : Fin 1 → Nat) a + S1.size a ≤ S8.size a := by decide

/-- Element k of an array of eight DMA semaphores, as the body names it (slice, then squeeze). -/
abbrev semAt (A : DmaSems sig S8) (k : Fin 8) : DmaSem sig :=
  ((A.slice (Rect.unit (s := S8) ![k.val] S1.size (inb8 k))).squeeze S_ squeezes_S1_S_).sem

abbrev barS : Sem sig := (SemArray.scalar (sig.barrier 0 rfl) : Sems sig S_).sem
abbrev ysS (k : Fin 8) : DmaSem sig := semAt cc0_scratch1 k
abbrev yrS (k : Fin 8) : DmaSem sig := semAt cc0_scratch2 k
abbrev xsS (k : Fin 8) : DmaSem sig := semAt cc0_scratch3 k
abbrev xrS (k : Fin 8) : DmaSem sig := semAt cc0_scratch4 k

abbrev barCell (c : Dev nD) : GSem nD τ sig := ((c : Thread nD τ), .reg barS)
abbrev ysCell (c : Dev nD) (k : Fin 8) : GSem nD τ sig := ((c : Thread nD τ), .dma (ysS k))
abbrev yrCell (c : Dev nD) (k : Fin 8) : GSem nD τ sig := ((c : Thread nD τ), .dma (yrS k))
abbrev xsCell (c : Dev nD) (k : Fin 8) : GSem nD τ sig := ((c : Thread nD τ), .dma (xsS k))
abbrev xrCell (c : Dev nD) (k : Fin 8) : GSem nD τ sig := ((c : Thread nD τ), .dma (xrS k))

theorem ysS_val (k : Fin 8) : (ysS k).val = 2 + k.val := by revert k; decide
theorem yrS_val (k : Fin 8) : (yrS k).val = 10 + k.val := by revert k; decide
theorem xsS_val (k : Fin 8) : (xsS k).val = 18 + k.val := by revert k; decide
theorem xrS_val (k : Fin 8) : (xrS k).val = 26 + k.val := by revert k; decide

/-- The 33 cells of a device, as this proof indexes them: 0 the barrier, 1 + k … 25 + k the four arrays. -/
theorem nDma : sig.nDmaSem = 34 := rfl
abbrev dsemN (n : ℕ) (h : n < 34) : DmaSem sig := ⟨n, nDma ▸ h⟩
abbrev csem (j : Fin 33) : SemLoc sig := if j.val = 0 then .reg barS else .dma (dsemN (j.val + 1) (by omega))
abbrev kcell (ck : Dev nD × Fin 33) : GSem nD τ sig := ((ck.1 : Thread nD τ), csem ck.2)
/-- The kernel's own (scoped) semaphores, as the launch indexes them: the 32 scratch DMA semaphores. -/
abbrev osem (j : Fin 32) : SemLoc sig := .dma (dsemN (j.val + 2) (by omega))

abbrev jys (k : Fin 8) : Fin 33 := ⟨1 + k.val, by omega⟩
abbrev jyr (k : Fin 8) : Fin 33 := ⟨9 + k.val, by omega⟩
abbrev jxs (k : Fin 8) : Fin 33 := ⟨17 + k.val, by omega⟩
abbrev jxr (k : Fin 8) : Fin 33 := ⟨25 + k.val, by omega⟩

theorem kcell_bar (c : Dev nD) : kcell (c, 0) = barCell c := rfl
theorem csem_ys : ∀ k : Fin 8, csem (jys k) = .dma (ysS k) := by decide
theorem csem_yr : ∀ k : Fin 8, csem (jyr k) = .dma (yrS k) := by decide
theorem csem_xs : ∀ k : Fin 8, csem (jxs k) = .dma (xsS k) := by decide
theorem csem_xr : ∀ k : Fin 8, csem (jxr k) = .dma (xrS k) := by decide
theorem kcell_ys (c : Dev nD) (k : Fin 8) : kcell (c, jys k) = ysCell c k := congrArg (Prod.mk (c : Thread nD τ)) (csem_ys k)
theorem kcell_yr (c : Dev nD) (k : Fin 8) : kcell (c, jyr k) = yrCell c k := congrArg (Prod.mk (c : Thread nD τ)) (csem_yr k)
theorem kcell_xs (c : Dev nD) (k : Fin 8) : kcell (c, jxs k) = xsCell c k := congrArg (Prod.mk (c : Thread nD τ)) (csem_xs k)
theorem kcell_xr (c : Dev nD) (k : Fin 8) : kcell (c, jxr k) = xrCell c k := congrArg (Prod.mk (c : Thread nD τ)) (csem_xr k)

/-- The credit of one chunk's transfer. -/
abbrev N : ℕ := (rK (0 : Dev nD) (0 : Fin 8)).view.dmaCredit
theorem N_pos : 0 < N := View.dmaCredit_pos _ (by decide)

/-- The half share a transfer reads its source through; the other half stays with the device for its loads. -/
abbrev qL : PosShare TreeShare := fullShare.left
abbrev qR : PosShare TreeShare := fullShare.right

/-! ## Contents -/

/-- Device c's block of the argument, as the pipeline stages it. -/
def xstg (c : Dev nD) : (cc0_stg0_0 : Ref sig .tc).ty.Contents (Elt F) :=
  (win0_0.blk (0 : Fin 1)).view.read (Elt F) ((s₀ m ρ).mem ((c : Thread nD τ).loc main_arg0))

/-- What device c's receive buffer ends holding: on the rows its y-neighbour wrote, that neighbour's rows; on the
    other rows, forwarded by its x-neighbour, the rows of that neighbour's y-neighbour. -/
def other (c : Dev nD) : (cc0_scratch0 : Ref sig .tc).ty.Contents (Elt F) := fun i =>
  if 256 * xc c ≤ (i 0).val ∧ (i 0).val < 256 * xc c + 256 then xstg m ρ (ny c) i else xstg m ρ (ny (nx c)) i

/-- The result on device c: its own block plus what it received, entry by entry. -/
def outAt (c : Dev nD) : (cc0_stg1_0 : Ref sig .tc).ty.Contents (Elt F) := addf (xstg m ρ c) (other m ρ c)

/-- Chunk (c', k) of the x staging buffer, of the receive buffer, of the output staging buffer, on device c. -/
abbrev C512 (F : FTy → Type) : Type := (⟨S512x512, .f32⟩ : BufTy).Contents (Elt F)
def xPts (c c' : Dev nD) (k : Fin 8) (q : PosShare TreeShare) (f : C512 F) : sProp 𝕄 :=
  (xK c' k).view.loc (c : Thread nD τ) ↦[(xK c' k).view.set]{q} f
def rPts (c c' : Dev nD) (k : Fin 8) (q : PosShare TreeShare) (f : C512 F) : sProp 𝕄 :=
  (rK c' k).view.loc (c : Thread nD τ) ↦[(rK c' k).view.set]{q} f
def oPts (c c' : Dev nD) (k : Fin 8) (f : C512 F) : sProp 𝕄 :=
  (oK c' k).view.loc (c : Thread nD τ) ↦[(oK c' k).view.set]{fullShare} f

instance xPts_storable (c c' : Dev nD) (k : Fin 8) (q) (f) : BI.Storable (upEmb : UEmb _ 𝕄) (xPts (F := F) c c' k q f) := by unfold xPts; infer_instance
instance rPts_storable (c c' : Dev nD) (k : Fin 8) (q) (f) : BI.Storable (upEmb : UEmb _ 𝕄) (rPts (F := F) c c' k q f) := by unfold rPts; infer_instance

/-! ## The schedule -/

/-- What the y-neighbour's barrier signal hands device c: the eight chunks of the neighbour's receive buffer c will write. -/
def barPayY (c : Dev nD) : sProp 𝕄 := bigSep Finset.univ fun k : Fin 8 => iprop(∃ f, rPts (ny c) c k fullShare f)
/-- What the x-neighbour's hands it: the eight chunks of that neighbour's receive buffer c will write. -/
def barPayX (c : Dev nD) : sProp 𝕄 := bigSep Finset.univ fun k : Fin 8 => iprop(∃ f, rPts (nx c) c k fullShare f)
def ysPay (c : Dev nD) (k : Fin 8) : sProp 𝕄 := xPts c c k qL (xstg m ρ c)
def yrPay (c : Dev nD) (k : Fin 8) : sProp 𝕄 := rPts c c k fullShare (xstg m ρ (ny c))
def xsPay (c : Dev nD) (k : Fin 8) : sProp 𝕄 := rPts c c k qL (xstg m ρ (ny c))
def xrPay (c : Dev nD) (k : Fin 8) : sProp 𝕄 := rPts c (nx c) k fullShare (xstg m ρ (ny (nx c)))

/-- The chunk a scratch DMA semaphore belongs to. -/
abbrev kOf (s : DmaSem sig) : Fin 8 := ⟨(s.val + 6) % 8, Nat.mod_lt _ (by decide)⟩

/-- One round, round 0. -/
def sched : Rounds.Schedule (GSem nD τ sig) Bool 𝕄 where
  duties g r := if r = 0 ∧ g.1.2 = .tc then (match g.2 with | .reg _ => Finset.univ | .dma s => if 2 ≤ s.val then {false} else ∅) else ∅
  amount g _ _ := match g.2 with | .reg _ => 1 | .dma _ => N
  payload g _ d := match g.2 with
    | .reg _ => if d then barPayX g.1.1 else barPayY g.1.1
    | .dma s => if s.val < 2 then iprop(emp) else if s.val < 10 then ysPay m ρ g.1.1 (kOf s) else if s.val < 18 then yrPay m ρ g.1.1 (kOf s)
        else if s.val < 26 then xsPay m ρ g.1.1 (kOf s) else xrPay m ρ g.1.1 (kOf s)
  amount_pos g _ _ _ := by
    cases g.2 with
    | reg _ => exact Nat.one_pos
    | dma _ => exact N_pos

end Cert.KernelIdeal.AR

end
-- ==== Proof.Tables.lean ====
/-
  The schedule's tables, cell by cell: which duties round 0 has, how much each pays, what each hands over.
-/
import proofs.«900702_g7700000000000703_dist_ar_v7x_xyz2x2x2_y_m512_n512_f32_1_alg».proof.Proof.Cells

noncomputable section

namespace Cert.KernelIdeal.AR

open Cert.KernelIdeal Cert.KernelIdeal.Gen Cert.KernelIdeal.Mesh

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

instance sched_payload_storable (g : GSem nD τ sig) (r : ℕ) (d : Bool) :
    BI.Storable (upEmb : UEmb _ 𝕄) ((sched (F := F) m ρ).payload g r d) := by
  dsimp only [sched]
  unfold barPayX barPayY ysPay yrPay xsPay xrPay
  (repeat' split) <;> infer_instance

section Tables
variable (c : Dev nD) (k : Fin 8)

omit [FloatOps F] in
theorem kOf_ys : kOf (ysS k) = k := Fin.ext (by have := ysS_val k; simp only [kOf]; omega)
omit [FloatOps F] in
theorem kOf_yr : kOf (yrS k) = k := Fin.ext (by have := yrS_val k; simp only [kOf]; omega)
omit [FloatOps F] in
theorem kOf_xs : kOf (xsS k) = k := Fin.ext (by have := xsS_val k; simp only [kOf]; omega)
omit [FloatOps F] in
theorem kOf_xr : kOf (xrS k) = k := Fin.ext (by have := xrS_val k; simp only [kOf]; omega)

omit [FloatOps F] in
theorem duties_bar : (sched (F := F) m ρ).duties (barCell c) 0 = Finset.univ := by
  dsimp only [sched]; exact if_pos ⟨rfl, rfl⟩
omit [FloatOps F] in
theorem duties_dma (s : DmaSem sig) (hs : 2 ≤ s.val) : (sched (F := F) m ρ).duties ((c : Thread nD τ), .dma s) 0 = {false} := by
  dsimp only [sched]; rw [if_pos ⟨rfl, rfl⟩]; exact if_pos hs
omit [FloatOps F] in
theorem duties_ys : (sched (F := F) m ρ).duties (ysCell c k) 0 = {false} := duties_dma m ρ c _ (by rw [ysS_val]; omega)
omit [FloatOps F] in
theorem duties_yr : (sched (F := F) m ρ).duties (yrCell c k) 0 = {false} := duties_dma m ρ c _ (by rw [yrS_val]; omega)
omit [FloatOps F] in
theorem duties_xs : (sched (F := F) m ρ).duties (xsCell c k) 0 = {false} := duties_dma m ρ c _ (by rw [xsS_val]; omega)
omit [FloatOps F] in
theorem duties_xr : (sched (F := F) m ρ).duties (xrCell c k) 0 = {false} := duties_dma m ρ c _ (by rw [xrS_val]; omega)
omit [FloatOps F] in
theorem duties_later (g : GSem nD τ sig) : ∀ r, 1 ≤ r → (sched (F := F) m ρ).duties g r = ∅ :=
  fun r hr => by dsimp only [sched]; rw [if_neg fun h => by omega]

omit [FloatOps F] in
theorem amount_bar (d : Bool) : (sched (F := F) m ρ).amount (barCell c) 0 d = 1 := rfl
omit [FloatOps F] in
theorem amount_dma (s : DmaSem sig) (r : ℕ) (d : Bool) : (sched (F := F) m ρ).amount ((c : Thread nD τ), .dma s) r d = N := rfl

omit [FloatOps F] in
theorem expect_bar : (sched (F := F) m ρ).expect (barCell c) 0 = 2 := by
  unfold Schedule.expect Schedule.amountOf
  rw [duties_bar, Finset.sum_congr rfl fun d _ => amount_bar m ρ c d, Finset.sum_const, Finset.card_univ, Fintype.card_bool, smul_eq_mul]
omit [FloatOps F] in
theorem expect_dma (s : DmaSem sig) (hs : 2 ≤ s.val) : (sched (F := F) m ρ).expect ((c : Thread nD τ), .dma s) 0 = N := by
  unfold Schedule.expect Schedule.amountOf; rw [duties_dma m ρ c s hs, Finset.sum_singleton, amount_dma]
omit [FloatOps F] in
theorem expect_ys : (sched (F := F) m ρ).expect (ysCell c k) 0 = N := expect_dma m ρ c _ (by rw [ysS_val]; omega)
omit [FloatOps F] in
theorem expect_yr : (sched (F := F) m ρ).expect (yrCell c k) 0 = N := expect_dma m ρ c _ (by rw [yrS_val]; omega)
omit [FloatOps F] in
theorem expect_xs : (sched (F := F) m ρ).expect (xsCell c k) 0 = N := expect_dma m ρ c _ (by rw [xsS_val]; omega)
omit [FloatOps F] in
theorem expect_xr : (sched (F := F) m ρ).expect (xrCell c k) 0 = N := expect_dma m ρ c _ (by rw [xrS_val]; omega)

omit [FloatOps F] in
theorem payload_bar_false : (sched (F := F) m ρ).payload (barCell c) 0 false = barPayY c := by
  dsimp only [sched]; exact if_neg Bool.false_ne_true
omit [FloatOps F] in
theorem payload_bar_true : (sched (F := F) m ρ).payload (barCell c) 0 true = barPayX c := by
  dsimp only [sched]; exact if_pos rfl
omit [FloatOps F] in
theorem payload_ys (d : Bool) : (sched (F := F) m ρ).payload (ysCell c k) 0 d = ysPay m ρ c k := by
  dsimp only [sched]; have h := ysS_val k
  rw [if_neg (by omega), if_pos (by omega), kOf_ys]
omit [FloatOps F] in
theorem payload_yr (d : Bool) : (sched (F := F) m ρ).payload (yrCell c k) 0 d = yrPay m ρ c k := by
  dsimp only [sched]; have h := yrS_val k
  rw [if_neg (by omega), if_neg (by omega), if_pos (by omega), kOf_yr]
omit [FloatOps F] in
theorem payload_xs (d : Bool) : (sched (F := F) m ρ).payload (xsCell c k) 0 d = xsPay m ρ c k := by
  dsimp only [sched]; have h := xsS_val k
  rw [if_neg (by omega), if_neg (by omega), if_neg (by omega), if_pos (by omega), kOf_xs]
omit [FloatOps F] in
theorem payload_xr (d : Bool) : (sched (F := F) m ρ).payload (xrCell c k) 0 d = xrPay m ρ c k := by
  dsimp only [sched]; have h := xrS_val k
  rw [if_neg (by omega), if_neg (by omega), if_neg (by omega), if_neg (by omega), kOf_xr]

omit [FloatOps F] in
/-- The rest of the barrier cell's round, no duty taken: what both neighbours hand over. -/
theorem rest_bar : bigSep ((sched (F := F) m ρ).duties (barCell c) 0 \ ∅) (fun d => (sched (F := F) m ρ).payload (barCell c) 0 d) = iprop(barPayY c ∗ barPayX c) := by
  rw [Finset.sdiff_empty, duties_bar, bigSep_univ_eq_bigSepL [false, true] (by decide) (by decide), bigSepL_cons_cons, bigSepL_singleton,
    payload_bar_false, payload_bar_true]
  rfl
omit [FloatOps F] in
theorem rest_ys : bigSep ((sched (F := F) m ρ).duties (ysCell c k) 0 \ ∅) (fun d => (sched (F := F) m ρ).payload (ysCell c k) 0 d) = ysPay m ρ c k := by
  rw [Finset.sdiff_empty, duties_ys, bigSep_singleton, payload_ys]
omit [FloatOps F] in
theorem rest_yr : bigSep ((sched (F := F) m ρ).duties (yrCell c k) 0 \ ∅) (fun d => (sched (F := F) m ρ).payload (yrCell c k) 0 d) = yrPay m ρ c k := by
  rw [Finset.sdiff_empty, duties_yr, bigSep_singleton, payload_yr]
omit [FloatOps F] in
theorem rest_xs : bigSep ((sched (F := F) m ρ).duties (xsCell c k) 0 \ ∅) (fun d => (sched (F := F) m ρ).payload (xsCell c k) 0 d) = xsPay m ρ c k := by
  rw [Finset.sdiff_empty, duties_xs, bigSep_singleton, payload_xs]
omit [FloatOps F] in
theorem rest_xr : bigSep ((sched (F := F) m ρ).duties (xrCell c k) 0 \ ∅) (fun d => (sched (F := F) m ρ).payload (xrCell c k) 0 d) = xrPay m ρ c k := by
  rw [Finset.sdiff_empty, duties_xr, bigSep_singleton, payload_xr]

end Tables

end Cert.KernelIdeal.AR

end
-- ==== Proof.OwesDefs.lean ====
/-
  What each device owes at launch, and the levels of the cells: the definitions.
-/
import proofs.«900702_g7700000000000703_dist_ar_v7x_xyz2x2x2_y_m512_n512_f32_1_alg».proof.Proof.Cells

noncomputable section

namespace Cert.KernelIdeal.AR

open Cert.KernelIdeal Cert.KernelIdeal.Gen Cert.KernelIdeal.Mesh

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

/-- The credit device c owes the k-th Y-receive cell of its y-neighbour, the k-th X-receive cell of its x-neighbour. -/
abbrev tY (c : Dev nD) (k : Fin 8) : CellTallies nD τ sig Unit := tallyAt (yrCell (ny c) k) () N
abbrev tX (c : Dev nD) (k : Fin 8) : CellTallies nD τ sig Unit := tallyAt (xrCell (nx c) k) () N

/-- What it still owes the Y-receive cells (the X-receive cells) before its j-th transfer of that kind: chunks j … 7. -/
def restY (c : Dev nD) (j : ℕ) : CellTallies nD τ sig Unit := ∑ k ∈ Finset.univ.filter (fun k : Fin 8 => j ≤ k.val), tY c k
def restX (c : Dev nD) (j : ℕ) : CellTallies nD τ sig Unit := ∑ k ∈ Finset.univ.filter (fun k : Fin 8 => j ≤ k.val), tX c k

/-- At launch: summed so that the first signal (to the y-neighbour) peels the last summand, the second (to the
    x-neighbour) the next one. -/
def O₁ (c : Dev nD) : CellTallies nD τ sig Unit := restX c 0 + restY c 0 + tallyAt (barCell (nx c)) () 1
def O₀ (c : Dev nD) : CellTallies nD τ sig Unit := O₁ c + tallyAt (barCell (ny c)) () 1

/-- The barrier at level 1, the Y-receive cells at 2, the X-receive cells at 3, every other cell at 0. -/
def L (g : GSem nD τ sig) : Finset Unit := if g.1.2 = .tc then {()} else ∅
def lv (g : GSem nD τ sig) (_ : Unit) : ℕ := match g.2 with
  | .reg _ => 1
  | .dma s => if 10 ≤ s.val ∧ s.val < 18 then 2 else if 26 ≤ s.val then 3 else 0

end Cert.KernelIdeal.AR

end
-- ==== Proof.Proto.lean ====
/-
  The proof data of the one pipeline point, the ghost state a device's body starts from, and the body's steps.

  A step is one rule instance over a chunk k: the Y-transfer of chunk k; the second loop's trip (wait for the landed
  chunk, forward it, add and store); the third loop's trip (wait for the forwarded chunk, add and store); the two send
  waits. Each is stated at a symbolic device and chunk, over exactly the resources it touches.
-/
import proofs.«900702_g7700000000000703_dist_ar_v7x_xyz2x2x2_y_m512_n512_f32_1_alg».proof.Proof.Tables
import proofs.«900702_g7700000000000703_dist_ar_v7x_xyz2x2x2_y_m512_n512_f32_1_alg».proof.Proof.OwesDefs

noncomputable section

namespace Cert.KernelIdeal.AR

open Cert.KernelIdeal Cert.KernelIdeal.Gen Cert.KernelIdeal.Mesh

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

abbrev 𝒱₀ : Variants := Variants.none

omit [FloatOps F] in
theorem credit_r (c' : Dev nD) (k : Fin 8) : (rK c' k).view.dmaCredit = N := rfl
omit [FloatOps F] in
theorem credit_x (c' : Dev nD) (k : Fin 8) : (xK c' k).view.dmaCredit = N := rfl

theorem cfg0_N : cfg0.N = 1 := by decide
def t₀ : Fin cfg0.N := ⟨0, by rw [cfg0_N]; decide⟩
theorem fin_N (t : Fin cfg0.N) : t = t₀ := by
  obtain ⟨t, ht⟩ := t; have := cfg0_N; exact Fin.ext (by simp only [t₀]; omega)

/-! ## Ghost state -/

/-- Every cell's invariant, under the names the launch allocated them at, and that every cell has reached round 0. -/
def records (K : Dev nD × Fin 33 → ℕ) : sProp 𝕄 :=
  iprop((bigSep Finset.univ fun ck : Dev nD × Fin 33 => cellInv ER (sched m ρ) (K ck) (kcell ck))
    ∗ bigSep Finset.univ fun ck : Dev nD × Fin 33 => reached ER (kcell ck) 0)

instance records_persistent (K : Dev nD × Fin 33 → ℕ) : BI.Persistent (records m ρ K) := by unfold records; infer_instance

/-- The tokens of the duties device c pays: one barrier duty of each neighbour, the sixteen receive duties of its
    transfers' targets, the sixteen send duties of its own cells. -/
def payToks (c : Dev nD) : sProp 𝕄 :=
  iprop(dutyTok ER (barCell (ny c)) 0 false ∗ dutyTok ER (barCell (nx c)) 0 true
    ∗ (bigSep Finset.univ fun k : Fin 8 => dutyTok ER (yrCell (ny c) k) 0 false)
    ∗ (bigSep Finset.univ fun k : Fin 8 => dutyTok ER (xrCell (nx c) k) 0 false)
    ∗ (bigSep Finset.univ fun k : Fin 8 => dutyTok ER (ysCell c k) 0 false)
    ∗ (bigSep Finset.univ fun k : Fin 8 => dutyTok ER (xsCell c k) 0 false))

/-- What stays with device c: its position at round 0 of each of its 33 cells, and the tokens it pays with. -/
def linear (c : Dev nD) : sProp 𝕄 :=
  iprop((bigSep Finset.univ fun j : Fin 33 => atPos ER (kcell (c, j)) 0 ∅ 0) ∗ payToks c)

def ghost (K : Dev nD × Fin 33 → ℕ) (c : Dev nD) : sProp 𝕄 := iprop(records m ρ K ∗ linear c)

/-- What device c's body starts from: the ghost state at some names, the credit the others owe its barrier and its
    sixteen receive cells, and the level facts. -/
def start (c : Dev nD) : sProp 𝕄 :=
  iprop((∃ K, ghost m ρ K c) ∗ cred (tallyAt (barCell c) () 2)
    ∗ (bigSep Finset.univ fun k : Fin 8 => cred (tallyAt (yrCell c k) () N))
    ∗ (bigSep Finset.univ fun k : Fin 8 => cred (tallyAt (xrCell c k) () N)) ∗ levAts L lv)

def Φ₀ (c : Dev nD) : sProp 𝕄 := iprop(start m ρ c ∗ ∃ f, (((c : Thread nD τ).loc cc0_scratch0) ↦{fullShare} f))
/-- After the point: the receive buffer whole again, holding what was received; the 32 own cells at zero, closed. -/
def Φ₁ (c : Dev nD) : sProp 𝕄 :=
  iprop((((c : Thread nD τ).loc cc0_scratch0) ↦{fullShare} other m ρ c) ∗ bigSep Finset.univ fun j : Fin 32 => semVal ((c : Thread nD τ), osem j) 0)

def dats (_ : Fin 1) (c : Dev nD) : Dat τ (Elt F) Unit ℕ UU ℕ cfg0 c where
  A w := (s₀ m ρ).mem ((cfg0.win w).arr.view.loc (c : Thread nD τ))
  after w _ := match w with
    | ⟨0, _⟩ => xstg m ρ c
    | ⟨1, _⟩ => outAt m ρ c
  Φ t := match t with
    | ⟨0, _⟩ => Φ₀ m ρ c
    | ⟨_ + 1, _⟩ => Φ₁ m ρ c
  q _ := fullShare
  owed t := match t with
    | ⟨0, _⟩ => O₀ c
    | ⟨_ + 1, _⟩ => 0

/-- The half share of the whole x staging buffer the device keeps for its loads. -/
def xRight (c : Dev nD) : sProp 𝕄 :=
  (xM : Memref sig .tc .vmem S512x512 .f32).view.loc (c : Thread nD τ) ↦[(xM : Memref sig .tc .vmem S512x512 .f32).view.set]{qR} xstg m ρ c

/-- The rectangle the second loop's trip k loads and stores through (rows 256·x(c) + 32k …), and the third loop's
    (rows 256·(1 − x(c)) + 32k …). -/
abbrev r2 (c : Dev nD) (k : Fin 8) : Rect S512x512 := Rect.unit (s := S512x512) (k0_off2 c (kw k)) S32x512.size (Gen.k0_off2_inb c k)
abbrev r3 (c : Dev nD) (k : Fin 8) : Rect S512x512 := Rect.unit (s := S512x512) (k0_off3 c (kw k)) S32x512.size (Gen.k0_off3_inb c k)

/-! ## Reading the records -/

omit [FloatOps F] in
theorem inv_at (K : Dev nD × Fin 33 → ℕ) (ck : Dev nD × Fin 33) : records m ρ K ⊢ cellInv ER (sched m ρ) (K ck) (kcell ck) := by
  have h : (bigSep Finset.univ fun ck : Dev nD × Fin 33 => (cellInv ER (sched m ρ) (K ck) (kcell ck) : sProp 𝕄)) ⊢ cellInv ER (sched m ρ) (K ck) (kcell ck) :=
    bigSep_elim (Finset.mem_univ ck)
  unfold records; iintro ⟨HI, -⟩; iapply h; iexact HI
omit [FloatOps F] in
theorem reached_at (K : Dev nD × Fin 33 → ℕ) (ck : Dev nD × Fin 33) : records m ρ K ⊢ reached ER (kcell ck) 0 := by
  have h : (bigSep Finset.univ fun ck : Dev nD × Fin 33 => (reached ER (kcell ck) 0 : sProp 𝕄)) ⊢ reached ER (kcell ck) 0 :=
    bigSep_elim (Finset.mem_univ ck)
  unfold records; iintro ⟨-, HR⟩; iapply h; iexact HR

omit [FloatOps F] in
theorem inv_bar (K) (c : Dev nD) : records m ρ K ⊢ cellInv ER (sched m ρ) (K (c, 0)) (barCell c) := inv_at m ρ K (c, 0)
omit [FloatOps F] in
theorem inv_ys (K) (c : Dev nD) (k : Fin 8) : records m ρ K ⊢ cellInv ER (sched m ρ) (K (c, jys k)) (ysCell c k) := by
  have h := inv_at m ρ K (c, jys k); rwa [kcell_ys] at h
omit [FloatOps F] in
theorem inv_yr (K) (c : Dev nD) (k : Fin 8) : records m ρ K ⊢ cellInv ER (sched m ρ) (K (c, jyr k)) (yrCell c k) := by
  have h := inv_at m ρ K (c, jyr k); rwa [kcell_yr] at h
omit [FloatOps F] in
theorem inv_xs (K) (c : Dev nD) (k : Fin 8) : records m ρ K ⊢ cellInv ER (sched m ρ) (K (c, jxs k)) (xsCell c k) := by
  have h := inv_at m ρ K (c, jxs k); rwa [kcell_xs] at h
omit [FloatOps F] in
theorem inv_xr (K) (c : Dev nD) (k : Fin 8) : records m ρ K ⊢ cellInv ER (sched m ρ) (K (c, jxr k)) (xrCell c k) := by
  have h := inv_at m ρ K (c, jxr k); rwa [kcell_xr] at h
omit [FloatOps F] in
theorem reached_bar (K) (c : Dev nD) : records m ρ K ⊢ reached ER (barCell c) 0 := reached_at m ρ K (c, 0)
omit [FloatOps F] in
theorem reached_ys (K) (c : Dev nD) (k : Fin 8) : records m ρ K ⊢ reached ER (ysCell c k) 0 := by
  have h := reached_at m ρ K (c, jys k); rwa [kcell_ys] at h
omit [FloatOps F] in
theorem reached_yr (K) (c : Dev nD) (k : Fin 8) : records m ρ K ⊢ reached ER (yrCell c k) 0 := by
  have h := reached_at m ρ K (c, jyr k); rwa [kcell_yr] at h
omit [FloatOps F] in
theorem reached_xs (K) (c : Dev nD) (k : Fin 8) : records m ρ K ⊢ reached ER (xsCell c k) 0 := by
  have h := reached_at m ρ K (c, jxs k); rwa [kcell_xs] at h
omit [FloatOps F] in
theorem reached_xr (K) (c : Dev nD) (k : Fin 8) : records m ρ K ⊢ reached ER (xrCell c k) 0 := by
  have h := reached_at m ρ K (c, jxr k); rwa [kcell_xr] at h

end Cert.KernelIdeal.AR

end
-- ==== Proof.KValue.lean ====
/-
  What the kernel's run leaves, joined to the reference's value: the staged block of the argument is the device's block of
  the array itself; the argument is never written; the result array ends holding the staged result; and over the
  extended reals a device's block plus what it received is the sum of the two blocks of the whole array.
-/
import proofs.«900702_g7700000000000703_dist_ar_v7x_xyz2x2x2_y_m512_n512_f32_1_alg».proof.Proof.Proto
import proofs.«900702_g7700000000000703_dist_ar_v7x_xyz2x2x2_y_m512_n512_f32_1_alg».proof.Proof.RefValue
import proofs.«900702_g7700000000000703_dist_ar_v7x_xyz2x2x2_y_m512_n512_f32_1_alg».proof.Proof.Gen.KernelIdeal.Points
import Idealize.ShloMosaic.PureOps.Ideal.Laws

noncomputable section

namespace Cert.KernelIdeal.AR

open Cert.KernelIdeal Cert.KernelIdeal.Gen Cert.KernelIdeal.Mesh

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

omit [FloatOps F] in
/-- The staged block of the argument is the device's block of the argument array itself: the window is the whole
    array, and its one block places each index at itself. -/
theorem xstg_eq (c : Dev nD) : xstg m ρ c = (m ((c : Thread nD τ).loc main_arg0) : C512 F) := by
  funext i
  have he : (win0_0.blk (0 : Fin 1)).view.emb i = i := by
    funext a
    apply Fin.ext
    show 0 * _ + 1 * (i a).val = (i a).val
    omega
  unfold xstg
  rw [View.read_apply, he]
  rfl

/-- Over the extended reals, what a device ends with is the sum of the two blocks of the whole array: its own block
    plus a block of the other y-row, whichever neighbour that block came through. -/
theorem outAt_ideal (m : (ℓ : Loc nD τ sig) → Buf (Elt Ideal) ℓ) (ρ : Dev nD → PrngReg)
    (X : (⟨Cert.ReferenceIdeal.S1024x512, .f32⟩ : BufTy).Contents (Elt Ideal))
    (hag : ∀ c : Dev nD, m ((c.tc : Thread nD τ).loc main_arg0)
      = Layout.blockN ⟨2, ![512, 512]⟩ ⟨2, ![1024, 512]⟩ (Layout.meshBlock [2, 2, 2] ![[1], []] c) X) (c : Dev nD) :
    outAt (F := Ideal) m ρ c = Cert.ReferenceIdeal.RefValue.sumBlocks X := by
  have hx : ∀ c' : Dev nD, xstg (F := Ideal) m ρ c'
      = Layout.blockN ⟨2, ![512, 512]⟩ ⟨2, ![1024, 512]⟩ (Layout.meshBlock [2, 2, 2] ![[1], []] c') X :=
    fun c' => (xstg_eq m ρ c').trans (hag c')
  have hy1 : (ny c).val / 2 % 2 = 1 - c.val / 2 % 2 := yc_ny c
  have hy2 : (ny (nx c)).val / 2 % 2 = 1 - c.val / 2 % 2 := by
    have h1 := yc_ny (nx c)
    have h2 := yc_nx c
    unfold yc at h1 h2
    omega
  funext i
  show (show EReal from xstg m ρ c i) + (show EReal from other m ρ c i) = _
  unfold other
  split
  · rw [hx c, hx (ny c)]
    exact congrFun (Cert.ReferenceIdeal.RefValue.own_plus_other c (ny c) hy1 X) i
  · rw [hx c, hx (ny (nx c))]
    exact congrFun (Cert.ReferenceIdeal.RefValue.own_plus_other c (ny (nx c)) hy2 X) i

/-- The argument array is never written back: it ends as it was at launch. -/
theorem final_x (c : Dev nD) :
    (dats m ρ 0 c).arrAt (0 : Fin 2) cfg0.N = (s₀ m ρ).mem (win0_0.arr.view.loc (c : Thread nD τ)) :=
  (dats m ρ 0 c).arrAt_in (0 : Fin 2) rfl _

/-- The result array ends holding the staged result: the one point writes the whole block back. -/
theorem final_out (c : Dev nD) : (dats m ρ 0 c).arrAt (1 : Fin 2) cfg0.N = (outAt m ρ c : C512 F) := by
  have hN : (dats m ρ 0 c).arrAt (1 : Fin 2) cfg0.N = (dats m ρ 0 c).arrAt (1 : Fin 2) (t₀.val + 1) :=
    congrArg _ cfg0_N
  rw [hN, Dat.arrAt_succ, if_pos (flush0_1 t₀)]
  funext i
  have he : ((cfg0.win 1).blk t₀).view.emb i = i := by
    funext a
    apply Fin.ext
    show 0 * _ + 1 * (i a).val = (i a).val
    omega
  have hw := View.write_emb_of_mem (v := ((cfg0.win 1).blk t₀).view) (Val := Elt F)
    ((dats m ρ 0 c).arrAt 1 t₀.val) ((dats m ρ 0 c).flushed 1 t₀) (Finset.mem_univ i)
  rw [he] at hw
  rw [hw]
  rfl

end Cert.KernelIdeal.AR

end
-- ==== Proof.Owes.lean ====
/-
  What each device owes at launch, and why no wait can block for ever.

  A device owes one barrier unit to each neighbour, and one chunk's transfer credit to each of the eight Y-receive cells
  of its y-neighbour and the eight X-receive cells of its x-neighbour. A wait is allowed only on a cell whose level is
  below the level of everything the waiter still owes: the barrier is at level 1, the Y-receive cells at 2, the
  X-receive cells at 3, every other cell at 0. At its barrier wait a device owes only receive cells; at its k-th
  Y-receive wait only X-receive cells; at every other wait nothing.
-/
import proofs.«900702_g7700000000000703_dist_ar_v7x_xyz2x2x2_y_m512_n512_f32_1_alg».proof.Proof.OwesDefs

noncomputable section

namespace Cert.KernelIdeal.AR

open Cert.KernelIdeal Cert.KernelIdeal.Gen Cert.KernelIdeal.Mesh

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

/-! ## What a device owes -/

/-- The chunks from k on are chunk k and the chunks from k + 1 on. -/
theorem filter_from (k : Fin 8) :
    (Finset.univ.filter fun i : Fin 8 => k.val ≤ i.val) = insert k (Finset.univ.filter fun i : Fin 8 => k.val + 1 ≤ i.val) := by
  ext i
  rw [Finset.mem_insert, Finset.mem_filter, Finset.mem_filter]
  constructor
  · rintro ⟨_, h⟩
    by_cases e : i = k
    · exact Or.inl e
    · have hne : i.val ≠ k.val := fun h' => e (Fin.ext h')
      exact Or.inr ⟨Finset.mem_univ _, by omega⟩
  · rintro (rfl | ⟨_, h⟩)
    · exact ⟨Finset.mem_univ _, le_refl _⟩
    · exact ⟨Finset.mem_univ _, by omega⟩

theorem not_mem_from (k : Fin 8) : k ∉ Finset.univ.filter fun i : Fin 8 => k.val + 1 ≤ i.val :=
  fun h => absurd (Finset.mem_filter.mp h).2 (by omega)

theorem restY_succ (c : Dev nD) (k : Fin 8) : restY c k.val = restY c (k.val + 1) + tY c k := by
  unfold restY
  rw [filter_from k, Finset.sum_insert (not_mem_from k)]
  exact add_comm _ _
theorem restX_succ (c : Dev nD) (k : Fin 8) : restX c k.val = restX c (k.val + 1) + tX c k := by
  unfold restX
  rw [filter_from k, Finset.sum_insert (not_mem_from k)]
  exact add_comm _ _
theorem restY_eight (c : Dev nD) : restY c 8 = 0 := by
  unfold restY
  exact Finset.sum_eq_zero fun k hk => absurd (Finset.mem_filter.mp hk).2 (by have := k.isLt; omega)
theorem restX_eight (c : Dev nD) : restX c 8 = 0 := by
  unfold restX
  exact Finset.sum_eq_zero fun k hk => absurd (Finset.mem_filter.mp hk).2 (by have := k.isLt; omega)

/-! ## Levels -/

theorem L_of_ne (g : GSem nD τ sig) (h : g.1.2 ≠ .tc) : L g = ∅ := if_neg h
theorem L_tc (c : Dev nD) (sm : SemLoc sig) : L ((c : Thread nD τ), sm) = {()} := if_pos rfl

/-- Anything owed out of restX is an X-receive cell of the x-neighbour; out of restY a Y-receive cell of the y-neighbour. -/
theorem restX_pos {c : Dev nD} {j : ℕ} {g : GSem nD τ sig} {u : Unit} (h : 0 < restX c j g u) : ∃ k : Fin 8, g = xrCell (nx c) k := by
  unfold restX at h
  obtain ⟨k, _, hk⟩ := Pipeline.sum_pos_exists h
  exact ⟨k, (Pipeline.tallyAt_pos hk).1⟩
theorem restY_pos {c : Dev nD} {j : ℕ} {g : GSem nD τ sig} {u : Unit} (h : 0 < restY c j g u) : ∃ k : Fin 8, g = yrCell (ny c) k := by
  unfold restY at h
  obtain ⟨k, _, hk⟩ := Pipeline.sum_pos_exists h
  exact ⟨k, (Pipeline.tallyAt_pos hk).1⟩

/-- Anything owed at launch is a receive cell or the barrier of a neighbour. -/
theorem O₀_pos {c : Dev nD} {g : GSem nD τ sig} {u : Unit} (h : 0 < O₀ c g u) :
    (∃ k : Fin 8, g = xrCell (nx c) k) ∨ (∃ k : Fin 8, g = yrCell (ny c) k) ∨ g = barCell (nx c) ∨ g = barCell (ny c) := by
  unfold O₀ O₁ at h
  rcases Pipeline.add_pos_cases h with h | h
  · rcases Pipeline.add_pos_cases h with h | h
    · rcases Pipeline.add_pos_cases h with h | h
      · exact Or.inl (restX_pos h)
      · exact Or.inr (Or.inl (restY_pos h))
    · exact Or.inr (Or.inr (Or.inl (Pipeline.tallyAt_pos h).1))
  · exact Or.inr (Or.inr (Or.inr (Pipeline.tallyAt_pos h).1))

/-- The levels of the cells: the barrier 1, a Y-receive cell 2, an X-receive cell 3, a staging cell 0. -/
theorem lv_bar (c : Dev nD) (u : Unit) : lv (barCell c) u = 1 := rfl
theorem lv_yr (c : Dev nD) (k : Fin 8) (u : Unit) : lv (yrCell c k) u = 2 := by
  have hk := k.isLt
  show (if 10 ≤ (yrS k).val ∧ (yrS k).val < 18 then 2 else if 26 ≤ (yrS k).val then 3 else 0) = 2
  rw [yrS_val, if_pos (by omega)]
theorem lv_xr (c : Dev nD) (k : Fin 8) (u : Unit) : lv (xrCell c k) u = 3 := by
  have hk := k.isLt
  show (if 10 ≤ (xrS k).val ∧ (xrS k).val < 18 then 2 else if 26 ≤ (xrS k).val then 3 else 0) = 3
  rw [xrS_val, if_neg (by omega), if_pos (by omega)]
theorem lv_stage (c : Dev nD) (q : DmaSem sig) (hq : q.val < 2) (u : Unit) : lv ((c : Thread nD τ), .dma q) u = 0 := by
  show (if 10 ≤ q.val ∧ q.val < 18 then 2 else if 26 ≤ q.val then 3 else 0) = 0
  rw [if_neg (by omega), if_neg (by omega)]

theorem mem_L (c : Dev nD) (sm : SemLoc sig) (u : Unit) : u ∈ L ((c : Thread nD τ), sm) := by
  rw [L_tc]; exact Finset.mem_singleton_self _

/-- The pipeline's own staging waits (DMA semaphores 0 and 1), at launch debt or none. -/
theorem mayWait_stage (c : Dev nD) (q : DmaSem sig) (hq : q.val < 2) (O : CellTallies nD τ sig Unit) (hO : O = O₀ c ∨ O = 0) :
    (levAts L lv : sProp 𝕄) ⊢ MayWait (c : Thread nD τ) (.dma q) () O := by
  rcases hO with rfl | rfl
  · refine Pipeline.mayWait_of_levAts (mem_L c _ _) fun g u hg => ?_
    rw [lv_stage c q hq]
    rcases O₀_pos hg with ⟨k, rfl⟩ | ⟨k, rfl⟩ | rfl | rfl
    · exact ⟨mem_L _ _ _, by rw [lv_xr]; decide⟩
    · exact ⟨mem_L _ _ _, by rw [lv_yr]; decide⟩
    · exact ⟨mem_L _ _ _, by rw [lv_bar]; decide⟩
    · exact ⟨mem_L _ _ _, by rw [lv_bar]; decide⟩
  · rw [MayWait_zero]; iintro -; iempintro
/-- The barrier wait, both signals sent: only receive cells are owed. -/
theorem mayWait_bar (c : Dev nD) :
    (levAts L lv : sProp 𝕄) ⊢ MayWait (c : Thread nD τ) (.reg barS) () (restX c 0 + restY c 0) := by
  refine Pipeline.mayWait_of_levAts (mem_L c _ _) fun g u hg => ?_
  rw [show lv ((c : Thread nD τ), .reg barS) () = 1 from rfl]
  rcases Pipeline.add_pos_cases hg with h | h
  · obtain ⟨k, rfl⟩ := restX_pos h
    exact ⟨mem_L _ _ _, by rw [lv_xr]; decide⟩
  · obtain ⟨k, rfl⟩ := restY_pos h
    exact ⟨mem_L _ _ _, by rw [lv_yr]; decide⟩
/-- The k-th Y-receive wait: only X-receive cells are owed. -/
theorem mayWait_yr (c : Dev nD) (k : Fin 8) (j : ℕ) :
    (levAts L lv : sProp 𝕄) ⊢ MayWait (c : Thread nD τ) (.dma (yrS k)) () (restX c j) := by
  refine Pipeline.mayWait_of_levAts (mem_L c _ _) fun g u hg => ?_
  rw [show lv ((c : Thread nD τ), .dma (yrS k)) () = 2 from lv_yr c k ()]
  obtain ⟨k', rfl⟩ := restX_pos hg
  exact ⟨mem_L _ _ _, by rw [lv_xr]; decide⟩

/-! ## The launch credit: what the others owe device c's cells -/

/-- Every device owing its x-neighbour's k-th X-receive cell a chunk's credit, device c is dealt that credit on its own. -/
theorem launch_x (c : Dev nD) :
    (Pipeline.launchCred (fun d => restX d 0) c : sProp 𝕄) ⊢ bigSep Finset.univ fun k : Fin 8 => cred (tallyAt (xrCell c k) () N) := by
  have e : (fun d : Dev nD => restX d 0) = fun d => ∑ k ∈ (Finset.univ : Finset (Fin 8)), tX d k := by
    funext d; unfold restX; rw [Finset.filter_true_of_mem fun k _ => Nat.zero_le _]
  rw [e, Pipeline.launchCred_sum]
  exact bigSep_mono fun k _ => Pipeline.launchCred_tallyAt (.dma (xrS k)) nx nx nx_nx nx_nx () N c
/-- The same along y. -/
theorem launch_y (c : Dev nD) :
    (Pipeline.launchCred (fun d => restY d 0) c : sProp 𝕄) ⊢ bigSep Finset.univ fun k : Fin 8 => cred (tallyAt (yrCell c k) () N) := by
  have e : (fun d : Dev nD => restY d 0) = fun d => ∑ k ∈ (Finset.univ : Finset (Fin 8)), tY d k := by
    funext d; unfold restY; rw [Finset.filter_true_of_mem fun k _ => Nat.zero_le _]
  rw [e, Pipeline.launchCred_sum]
  exact bigSep_mono fun k _ => Pipeline.launchCred_tallyAt (.dma (yrS k)) ny ny ny_ny ny_ny () N c
/-- Every device owing each neighbour's barrier a unit, device c is dealt one unit from each side. -/
theorem launch_bar_x (c : Dev nD) :
    (Pipeline.launchCred (fun d => tallyAt (barCell (nx d)) () 1) c : sProp 𝕄) ⊢ cred (tallyAt (barCell c) () 1) :=
  Pipeline.launchCred_tallyAt (.reg barS) nx nx nx_nx nx_nx () 1 c
theorem launch_bar_y (c : Dev nD) :
    (Pipeline.launchCred (fun d => tallyAt (barCell (ny d)) () 1) c : sProp 𝕄) ⊢ cred (tallyAt (barCell c) () 1) :=
  Pipeline.launchCred_tallyAt (.reg barS) ny ny ny_ny ny_ny () 1 c
theorem bar_two (c : Dev nD) :
    iprop(cred (tallyAt (barCell c) () 1) ∗ cred (tallyAt (barCell c) () 1)) ⊢ (cred (tallyAt (barCell c) () 2) : sProp 𝕄) := by
  rw [show (tallyAt (barCell c) () 2 : CellTallies nD τ sig Unit) = tallyAt (barCell c) () 1 + tallyAt (barCell c) () 1 from
    (tallyAt_add _ _ 1 1).symm]
  exact (cred_add _ _).2

/-- The credit tokens dealt to device c at launch: two barrier units, and one chunk's credit on each of its sixteen
    receive cells. -/
theorem creds (c : Dev nD) :
    (Pipeline.launchCred O₀ c : sProp 𝕄) ⊢ iprop(cred (tallyAt (barCell c) () 2)
      ∗ (bigSep Finset.univ fun k : Fin 8 => cred (tallyAt (yrCell c k) () N))
      ∗ (bigSep Finset.univ fun k : Fin 8 => cred (tallyAt (xrCell c k) () N))) := by
  have hO : (O₀ : Dev nD → CellTallies nD τ sig Unit)
      = fun d => restX d 0 + restY d 0 + tallyAt (barCell (nx d)) () 1 + tallyAt (barCell (ny d)) () 1 := rfl
  rw [hO, Pipeline.launchCred_add, Pipeline.launchCred_add, Pipeline.launchCred_add]
  refine (BIClass.sep_mono (BIClass.sep_mono (BIClass.sep_mono (launch_x c) (launch_y c)) (launch_bar_x c)) (launch_bar_y c)).trans ?_
  iintro ⟨⟨⟨HX, HY⟩, H1⟩, H2⟩
  isplitl [H1 H2]
  · iapply (bar_two (F := F) c)
    isplitl [H1]
    · iexact H1
    · iexact H2
  isplitl [HY]
  · iexact HY
  · iexact HX

end Cert.KernelIdeal.AR

end
-- ==== Proof.Split.lean ====
/-
  A 512×512 buffer as sixteen chunks of 32 rows: the eight chunks at the device's own rows 256·x(c) + 32k … and the eight at
  its x-neighbour's rows 256·(1 − x(c)) + 32k … are pairwise disjoint and cover every row. So a points-to of the whole
  buffer is the sixteen chunks' points-tos, at any share and any contents; a share splits in two halves; a chunk that a
  transfer rewrote from the same rows of another buffer holds that buffer's entries on its rows.
-/
import proofs.«900702_g7700000000000703_dist_ar_v7x_xyz2x2x2_y_m512_n512_f32_1_alg».proof.Proof.Cells

noncomputable section

namespace Cert.KernelIdeal.AR

open Cert.KernelIdeal Cert.KernelIdeal.Gen Cert.KernelIdeal.Mesh

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

/-- Two unit rectangles at equal offsets are equal. -/
theorem unit_congr {s : Shape} {off off' size : Fin s.rank → ℕ} (h : off = off')
    (inb : ∀ a, off a + size a ≤ s.size a) (inb' : ∀ a, off' a + size a ≤ s.size a) :
    Rect.unit off size inb = Rect.unit off' size inb' := by
  subst h; rfl

omit [FloatOps F] in
/-- The y-neighbour has the same x coordinate, so its chunks are the same rectangles. -/
theorem chunk_ny (c : Dev nD) (k : Fin 8) : chunk (ny c) k = chunk c k :=
  unit_congr (off1_ny c k) _ _

omit [FloatOps F] in
theorem rPts_ny (c c' : Dev nD) (k : Fin 8) (q : PosShare TreeShare) (f : C512 F) :
    rPts c (ny c') k q f = rPts c c' k q f := by
  unfold rPts
  have key : ∀ (r r' : Rect S512x512) (h : r = r') (hr : ∀ a, r.stride a = 1) (hr' : ∀ a, r'.stride a = 1),
      (((rM.slice r hr).view.loc (c : Thread nD τ) ↦[(rM.slice r hr).view.set]{q} f) : sProp 𝕄)
        = ((rM.slice r' hr').view.loc (c : Thread nD τ) ↦[(rM.slice r' hr').view.set]{q} f) := by
    intro r r' h hr hr'; subst h; rfl
  exact key _ _ (chunk_ny c' k) _ _

omit [FloatOps F] in
/-- A points-to on a set of elements, at the full share, is its two halves. -/
theorem share_split {ℓ : Loc nD τ sig} (S : Finset (Idx ℓ)) (f : Buf (Elt F) ℓ) :
    (ℓ ↦[S]{fullShare} f : sProp 𝕄) ⊣⊢ iprop((ℓ ↦[S]{qL} f) ∗ (ℓ ↦[S]{qR} f)) :=
  pointsTo_share (PosShare.mem_left_op_right fullShare)

omit [FloatOps F] in
/-- A whole buffer is two families of eight sets of its elements, when the sixteen sets are pairwise disjoint and
    cover it. -/
theorem pointsTo_sixteen {ℓ : Loc nD τ sig} (K K' : Fin 8 → Finset (Idx ℓ))
    (hd : ∀ k k', k ≠ k' → Disjoint (K k) (K k')) (hd' : ∀ k k', k ≠ k' → Disjoint (K' k) (K' k'))
    (hx : ∀ k k', Disjoint (K k) (K' k')) (hc : ∀ i, ∃ k, i ∈ K k ∨ i ∈ K' k)
    (q : PosShare TreeShare) (f : Buf (Elt F) ℓ) :
    (ℓ ↦{q} f : sProp 𝕄)
      ⊣⊢ iprop((bigSep Finset.univ fun k : Fin 8 => ℓ ↦[K k]{q} f) ∗ (bigSep Finset.univ fun k : Fin 8 => ℓ ↦[K' k]{q} f)) := by
  have hU : (Finset.univ : Finset (Idx ℓ)) = (Finset.univ.biUnion K) ∪ (Finset.univ.biUnion K') := by
    ext i
    simp only [Finset.mem_univ, Finset.mem_union, Finset.mem_biUnion, true_and, true_iff]
    obtain ⟨k, h | h⟩ := hc i
    · exact Or.inl ⟨k, h⟩
    · exact Or.inr ⟨k, h⟩
  have hD : Disjoint (Finset.univ.biUnion K) (Finset.univ.biUnion K') := by
    rw [Finset.disjoint_biUnion_left]
    intro k _
    rw [Finset.disjoint_biUnion_right]
    intro k' _
    exact hx k k'
  rw [hU]
  refine (pointsTo_union hD).trans ?_
  rw [pointsTo_biUnion _ K (fun k _ k' _ h => hd k k' h), pointsTo_biUnion _ K' (fun k _ k' _ h => hd' k k' h)]

omit [FloatOps F] in
/-- The elements under a chunk of each of the three buffers are the chunk's indices. -/
theorem rK_set (c' : Dev nD) (k : Fin 8) : (rK c' k).view.set = (chunk c' k).set := View.set_slice_whole _ _
omit [FloatOps F] in
theorem xK_set (c' : Dev nD) (k : Fin 8) : (xK c' k).view.set = (chunk c' k).set := View.set_slice_whole _ _
omit [FloatOps F] in
theorem oK_set (c' : Dev nD) (k : Fin 8) : (oK c' k).view.set = (chunk c' k).set := View.set_slice_whole _ _

omit [FloatOps F] in
/-- The receive buffer whole is its sixteen chunks. -/
theorem scr_split (c : Dev nD) (q : PosShare TreeShare) (f : C512 F) :
    ((((c : Thread nD τ).loc cc0_scratch0) ↦{q} f) : sProp 𝕄)
      ⊣⊢ iprop((bigSep Finset.univ fun k : Fin 8 => rPts c c k q f) ∗ (bigSep Finset.univ fun k : Fin 8 => rPts c (nx c) k q f)) := by
  unfold rPts
  exact pointsTo_sixteen (F := F) (ℓ := (c : Thread nD τ).loc cc0_scratch0)
    (fun k => (rK c k).view.set) (fun k => (rK (nx c) k).view.set)
    (fun k k' h => by rw [rK_set, rK_set]; exact chunk_disjoint c k k' h)
    (fun k k' h => by rw [rK_set, rK_set]; exact chunk_disjoint (nx c) k k' h)
    (fun k k' => by rw [rK_set, rK_set]; exact chunk_disjoint_nx c k k')
    (fun i => by
      obtain ⟨k, h⟩ := chunk_cover c i
      exact ⟨k, by rw [rK_set, rK_set]; exact h⟩) q f

omit [FloatOps F] in
/-- The output staging buffer whole is its sixteen chunks. -/
theorem out_split (c : Dev nD) (f : C512 F) :
    ((((c : Thread nD τ).loc cc0_stg1_0) ↦{fullShare} f) : sProp 𝕄)
      ⊣⊢ iprop((bigSep Finset.univ fun k : Fin 8 => oPts c c k f) ∗ (bigSep Finset.univ fun k : Fin 8 => oPts c (nx c) k f)) := by
  unfold oPts
  exact pointsTo_sixteen (F := F) (ℓ := (c : Thread nD τ).loc cc0_stg1_0)
    (fun k => (oK c k).view.set) (fun k => (oK (nx c) k).view.set)
    (fun k k' h => by rw [oK_set, oK_set]; exact chunk_disjoint c k k' h)
    (fun k k' h => by rw [oK_set, oK_set]; exact chunk_disjoint (nx c) k k' h)
    (fun k k' => by rw [oK_set, oK_set]; exact chunk_disjoint_nx c k k')
    (fun i => by
      obtain ⟨k, h⟩ := chunk_cover c i
      exact ⟨k, by rw [oK_set, oK_set]; exact h⟩) fullShare f

omit [FloatOps F] in
/-- The x staging buffer at a share is, at that share, its eight own-row chunks and the rest (the x-neighbour's rows). -/
theorem x_split (c : Dev nD) (q : PosShare TreeShare) (f : C512 F) :
    ((((c : Thread nD τ).loc cc0_stg0_0) ↦{q} f) : sProp 𝕄)
      ⊣⊢ iprop((bigSep Finset.univ fun k : Fin 8 => xPts c c k q f) ∗ (bigSep Finset.univ fun k : Fin 8 => xPts c (nx c) k q f)) := by
  unfold xPts
  exact pointsTo_sixteen (F := F) (ℓ := (c : Thread nD τ).loc cc0_stg0_0)
    (fun k => (xK c k).view.set) (fun k => (xK (nx c) k).view.set)
    (fun k k' h => by rw [xK_set, xK_set]; exact chunk_disjoint c k k' h)
    (fun k k' h => by rw [xK_set, xK_set]; exact chunk_disjoint (nx c) k k' h)
    (fun k k' => by rw [xK_set, xK_set]; exact chunk_disjoint_nx c k k')
    (fun i => by
      obtain ⟨k, h⟩ := chunk_cover c i
      exact ⟨k, by rw [xK_set, xK_set]; exact h⟩) q f

omit [FloatOps F] in
/-- A chunk's points-to reads the contents only on the chunk. -/
theorem rPts_congr (c c' : Dev nD) (k : Fin 8) (q : PosShare TreeShare) (f g : C512 F)
    (h : ∀ i ∈ (rK c' k).view.set, f i = g i) : rPts c c' k q f = rPts c c' k q g := by
  unfold rPts
  exact pointsTo_congr h
omit [FloatOps F] in
theorem oPts_congr (c c' : Dev nD) (k : Fin 8) (f g : C512 F)
    (h : ∀ i ∈ (oK c' k).view.set, f i = g i) : oPts c c' k f = oPts c c' k g := by
  unfold oPts
  exact pointsTo_congr h

omit [FloatOps F] in
/-- A chunk rewritten whole from the same rows of the x staging buffer (of any device) holds that buffer's entries there. -/
theorem landed_x (c' : Dev nD) (k : Fin 8) (fd fs : C512 F) :
    ∀ i ∈ (rK c' k).view.set, (rK c' k).view.write (Elt F) fd ((xK c' k).view.read (Elt F) fs) Finset.univ i = fs i := by
  intro i hi
  obtain ⟨y, -, rfl⟩ := Finset.mem_map.mp hi
  rw [View.write_emb_of_mem _ _ (Finset.mem_univ y), View.read_apply]
  rfl
omit [FloatOps F] in
/-- The same from the same rows of another receive buffer. -/
theorem landed_r (c' : Dev nD) (k : Fin 8) (fd fs : C512 F) :
    ∀ i ∈ (rK c' k).view.set, (rK c' k).view.write (Elt F) fd ((rK c' k).view.read (Elt F) fs) Finset.univ i = fs i := by
  intro i hi
  obtain ⟨y, -, rfl⟩ := Finset.mem_map.mp hi
  rw [View.write_emb_of_mem _ _ (Finset.mem_univ y), View.read_apply]
  rfl

omit [FloatOps F] in
/-- What the receive buffer ends holding, on the device's own rows and on its x-neighbour's. -/
theorem other_on_base (c : Dev nD) (k : Fin 8) : ∀ i ∈ (rK c k).view.set, other m ρ c i = xstg m ρ (ny c) i := by
  intro i hi
  rw [rK_set] at hi
  have hi' := (mem_chunk c k i).mp hi
  have hk : k.val < 8 := k.isLt
  unfold other
  rw [if_pos ⟨by omega, by omega⟩]
omit [FloatOps F] in
theorem other_on_obase (c : Dev nD) (k : Fin 8) : ∀ i ∈ (rK (nx c) k).view.set, other m ρ c i = xstg m ρ (ny (nx c)) i := by
  intro i hi
  rw [rK_set] at hi
  have hi' := (mem_chunk (nx c) k i).mp hi
  rw [xc_nx] at hi'
  have hk : k.val < 8 := k.isLt
  have hx := xc_le c
  unfold other
  rw [if_neg (by omega)]

end Cert.KernelIdeal.AR

end
-- ==== Proof.Plumb.lean ====
/-
  Regrouping a device's ghost state by cell kind, and closing its thirty-two own cells once every round is consumed.
-/
import proofs.«900702_g7700000000000703_dist_ar_v7x_xyz2x2x2_y_m512_n512_f32_1_alg».proof.Proof.Proto
import proofs.«900702_g7700000000000703_dist_ar_v7x_xyz2x2x2_y_m512_n512_f32_1_alg».proof.Proof.Owes

noncomputable section

namespace Cert.KernelIdeal.AR

open Cert.KernelIdeal Cert.KernelIdeal.Gen Cert.KernelIdeal.Mesh

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

omit [FloatOps F] in
theorem bigSep_fin8 (Φ : Fin 8 → sProp 𝕄) :
    bigSep Finset.univ Φ = iprop(Φ 0 ∗ Φ 1 ∗ Φ 2 ∗ Φ 3 ∗ Φ 4 ∗ Φ 5 ∗ Φ 6 ∗ Φ 7) :=
  bigSep_univ_eq_bigSepL [0, 1, 2, 3, 4, 5, 6, 7] (by decide) (by decide) Φ

/-! ## The 33 cell indices are the barrier's and four copies of the eight chunks -/

namespace Plumb

/-- The four index maps k ↦ 1 + k, 9 + k, 17 + k, 25 + k are injective. -/
def eys : Fin 8 ↪ Fin 33 := ⟨jys, fun a b h => Fin.ext (by have := congrArg Fin.val h; simp only [jys] at this; omega)⟩
def eyr : Fin 8 ↪ Fin 33 := ⟨jyr, fun a b h => Fin.ext (by have := congrArg Fin.val h; simp only [jyr] at this; omega)⟩
def exs : Fin 8 ↪ Fin 33 := ⟨jxs, fun a b h => Fin.ext (by have := congrArg Fin.val h; simp only [jxs] at this; omega)⟩
def exr : Fin 8 ↪ Fin 33 := ⟨jxr, fun a b h => Fin.ext (by have := congrArg Fin.val h; simp only [jxr] at this; omega)⟩

/-- {0, …, 32} = {0} ∪ {1 + k} ∪ {9 + k} ∪ {17 + k} ∪ {25 + k}, k < 8, the five parts pairwise disjoint. -/
theorem univ33 : (Finset.univ : Finset (Fin 33))
    = insert 0 (Finset.univ.map eys ∪ (Finset.univ.map eyr ∪ (Finset.univ.map exs ∪ Finset.univ.map exr))) := by decide

omit [FloatOps F] in
/-- A family over the 33 indices, part by part. -/
theorem split33 (Φ : Fin 33 → sProp 𝕄) :
    bigSep Finset.univ Φ = iprop(Φ 0
      ∗ (bigSep Finset.univ fun k : Fin 8 => Φ (jys k)) ∗ (bigSep Finset.univ fun k : Fin 8 => Φ (jyr k))
      ∗ (bigSep Finset.univ fun k : Fin 8 => Φ (jxs k)) ∗ (bigSep Finset.univ fun k : Fin 8 => Φ (jxr k))) := by
  rw [univ33, bigSep_insert (by decide), bigSep_union (by decide), bigSep_union (by decide), bigSep_union (by decide),
    bigSep_map, bigSep_map, bigSep_map, bigSep_map]
  rfl

end Plumb

open Plumb

omit [FloatOps F] in
/-- A device's positions at round R of its 33 cells, cell kind by cell kind. -/
theorem atPos_open (c : Dev nD) (R : ℕ) :
    ((bigSep Finset.univ fun j : Fin 33 => atPos ER (kcell (c, j)) R ∅ 0) : sProp 𝕄)
      ⊣⊢ iprop(atPos ER (barCell c) R ∅ 0
        ∗ (bigSep Finset.univ fun k : Fin 8 => atPos ER (ysCell c k) R ∅ 0)
        ∗ (bigSep Finset.univ fun k : Fin 8 => atPos ER (yrCell c k) R ∅ 0)
        ∗ (bigSep Finset.univ fun k : Fin 8 => atPos ER (xsCell c k) R ∅ 0)
        ∗ (bigSep Finset.univ fun k : Fin 8 => atPos ER (xrCell c k) R ∅ 0)) := by
  refine BiEntails.of_eq ?_
  rw [split33]
  simp only [kcell_ys, kcell_yr, kcell_xs, kcell_xr]
  rfl

omit [FloatOps F] in
/-- One own cell, its one round consumed, closes: its counter is zero and the device's again. -/
theorem close_one (K : Dev nD × Fin 33 → ℕ) (c : Dev nD) (j : Fin 33) (hj : 1 ≤ j.val) :
    iprop(records m ρ K ∗ atPos ER (kcell (c, j)) 1 ∅ 0) ⊢ |={Set.univ}=> (semVal (kcell (c, j)) 0 : sProp 𝕄) :=
  (BIClass.sep_mono (inv_at m ρ K (c, j)) .rfl).trans
    (Rounds.cell_close ER (sched m ρ) (Set.mem_univ (K (c, j))) (fun h => h) (duties_later m ρ (kcell (c, j))))

/-! ## The 32 own semaphores are four copies of the eight chunks -/

namespace Plumb

abbrev o0 (k : Fin 8) : Fin 32 := ⟨k.val, by omega⟩
abbrev o1 (k : Fin 8) : Fin 32 := ⟨8 + k.val, by omega⟩
abbrev o2 (k : Fin 8) : Fin 32 := ⟨16 + k.val, by omega⟩
abbrev o3 (k : Fin 8) : Fin 32 := ⟨24 + k.val, by omega⟩

def e0 : Fin 8 ↪ Fin 32 := ⟨o0, fun a b h => Fin.ext (by have := congrArg Fin.val h; simp only [o0] at this; omega)⟩
def e1 : Fin 8 ↪ Fin 32 := ⟨o1, fun a b h => Fin.ext (by have := congrArg Fin.val h; simp only [o1] at this; omega)⟩
def e2 : Fin 8 ↪ Fin 32 := ⟨o2, fun a b h => Fin.ext (by have := congrArg Fin.val h; simp only [o2] at this; omega)⟩
def e3 : Fin 8 ↪ Fin 32 := ⟨o3, fun a b h => Fin.ext (by have := congrArg Fin.val h; simp only [o3] at this; omega)⟩

theorem univ32 : (Finset.univ : Finset (Fin 32))
    = Finset.univ.map e0 ∪ (Finset.univ.map e1 ∪ (Finset.univ.map e2 ∪ Finset.univ.map e3)) := by decide

omit [FloatOps F] in
theorem split32 (Ψ : Fin 32 → sProp 𝕄) :
    bigSep Finset.univ Ψ = iprop((bigSep Finset.univ fun k : Fin 8 => Ψ (o0 k)) ∗ (bigSep Finset.univ fun k : Fin 8 => Ψ (o1 k))
      ∗ (bigSep Finset.univ fun k : Fin 8 => Ψ (o2 k)) ∗ (bigSep Finset.univ fun k : Fin 8 => Ψ (o3 k))) := by
  rw [univ32, bigSep_union (by decide), bigSep_union (by decide), bigSep_union (by decide),
    bigSep_map, bigSep_map, bigSep_map, bigSep_map]
  rfl

theorem osem_ys : ∀ k : Fin 8, osem (o0 k) = .dma (ysS k) := by decide
theorem osem_yr : ∀ k : Fin 8, osem (o1 k) = .dma (yrS k) := by decide
theorem osem_xs : ∀ k : Fin 8, osem (o2 k) = .dma (xsS k) := by decide
theorem osem_xr : ∀ k : Fin 8, osem (o3 k) = .dma (xrS k) := by decide

/-- Own semaphore j is cell j + 1 of the device. -/
theorem osem_cell (c : Dev nD) (j : Fin 32) : ((c : Thread nD τ), osem j) = kcell (c, ⟨j.val + 1, by omega⟩) := rfl

end Plumb

omit [FloatOps F] in
/-- The thirty-two own cells closed. -/
theorem close_own (K : Dev nD × Fin 33 → ℕ) (c : Dev nD) :
    iprop(records m ρ K
        ∗ (bigSep Finset.univ fun k : Fin 8 => atPos ER (ysCell c k) 1 ∅ 0)
        ∗ (bigSep Finset.univ fun k : Fin 8 => atPos ER (yrCell c k) 1 ∅ 0)
        ∗ (bigSep Finset.univ fun k : Fin 8 => atPos ER (xsCell c k) 1 ∅ 0)
        ∗ (bigSep Finset.univ fun k : Fin 8 => atPos ER (xrCell c k) 1 ∅ 0))
      ⊢ |={Set.univ}=> (bigSep Finset.univ fun j : Fin 32 => semVal ((c : Thread nD τ), osem j) 0 : sProp 𝕄) := by
  -- the four families are the positions of the 32 own cells
  have hpos : (iprop((bigSep Finset.univ fun k : Fin 8 => atPos ER (ysCell c k) 1 ∅ 0)
        ∗ (bigSep Finset.univ fun k : Fin 8 => atPos ER (yrCell c k) 1 ∅ 0)
        ∗ (bigSep Finset.univ fun k : Fin 8 => atPos ER (xsCell c k) 1 ∅ 0)
        ∗ (bigSep Finset.univ fun k : Fin 8 => atPos ER (xrCell c k) 1 ∅ 0)) : sProp 𝕄)
      = bigSep Finset.univ fun j : Fin 32 => atPos ER ((c : Thread nD τ), osem j) 1 ∅ 0 := by
    rw [split32]
    simp only [osem_ys, osem_yr, osem_xs, osem_xr]
  rw [hpos]
  -- each closes, the records serving all of them
  refine (bigSep_with_persistent fun j _ => ?_).trans (bigSep_fupd Finset.univ _)
  rw [osem_cell]
  exact close_one m ρ K c _ (Nat.le_add_left 1 j.val)

end Cert.KernelIdeal.AR

end
-- ==== Proof.StepY.lean ====
/-
  The Y-transfer of chunk k: rows 256·x(c) + 32k … of the device's block go to the same rows of its y-neighbour's receive buffer.
-/
import proofs.«900702_g7700000000000703_dist_ar_v7x_xyz2x2x2_y_m512_n512_f32_1_alg».proof.Proof.Proto
import proofs.«900702_g7700000000000703_dist_ar_v7x_xyz2x2x2_y_m512_n512_f32_1_alg».proof.Proof.Split

noncomputable section

namespace Cert.KernelIdeal.AR

open Cert.KernelIdeal Cert.KernelIdeal.Gen Cert.KernelIdeal.Mesh

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

omit [FloatOps F] in
/-- The send cell's payload is the half share of the source chunk the transfer reads through. -/
theorem stepY_pay_send (c : Dev nD) (k : Fin 8) :
    ((xK c k).view.loc (c : Thread nD τ) ↦[(xK c k).view.set]{qL} xstg m ρ c : sProp 𝕄)
      ⊢ (sched m ρ).payload (ysCell c k) 0 false := by
  rw [payload_ys]; exact Entails.rfl

omit [FloatOps F] in
/-- The y-neighbour's receive cell's payload: its chunk k (the same rows as the sender's: the two devices have the same
    x coordinate), rewritten whole from the sender's rows, holds the sender's block there; and the neighbour's
    y-neighbour is the sender. -/
theorem stepY_pay_recv (c : Dev nD) (k : Fin 8) (f : C512 F) :
    ((rK c k).view.loc ((ny c : Dev nD) : Thread nD τ) ↦[(rK c k).view.set]{fullShare}
        ((rK c k).view.write (Elt F) f ((xK c k).view.read (Elt F) (xstg m ρ c)) Finset.univ) : sProp 𝕄)
      ⊢ (sched m ρ).payload (yrCell (ny c) k) 0 false := by
  rw [payload_yr, yrPay, ny_ny, rPts_ny, ← rPts_congr (ny c) c k fullShare _ _ (landed_x c k f (xstg m ρ c))]
  exact Entails.rfl

/-- The transfer pays the send duty of the device's own cell ys k with the half share of the source it reads through,
    and the receive duty of the y-neighbour's cell yr k with the neighbour's chunk rewritten to the source's rows; it
    takes the chunk's credit off what the device owes and leaves the send cell's credit. -/
theorem stepY (K : Dev nD × Fin 33 → ℕ) (c n : Dev nD) (hn : n = ny c) (k : Fin 8)
    {hsc : ((rK c k : Memref sig .tc .vmem S32x512 .f32) : Memref sig (Dev.tc n : Thread nD τ).2.kind .vmem S32x512 .f32).view.ref.isScScratch = false}
    {hsrc : (xK c k).view.WordExact} {hdst : (rK c k).view.WordExact}
    {hsem : DmaTarget.Typed .vmem (.dma (yrS k)) (.remote (Dev.tc n : Thread nD τ) (rK c k) (.dma (ysS k)) hsc)}
    {α : Type} {Q : α → sProp 𝕄} {kont : PUnit → Prog (TpuEff nD τ sig (Elt F) Λ₀ .tc) α}
    (O : CellTallies nD τ sig Unit) (W : Waits sig Unit) :
    iprop(records m ρ K ∗ xPts c c k qL (xstg m ρ c) ∗ (∃ f, rPts (ny c) c k fullShare f)
        ∗ owes (c : Thread nD τ) (O + tY c k) W
        ∗ dutyTok ER (ysCell c k) 0 false ∗ dutyTok ER (yrCell (ny c) k) 0 false)
      ⊢ iprop(((cred (tallyAt (ysCell c k) () N) ∗ owes (c : Thread nD τ) O W) -∗ wp frame (wpE (defs₀ (F := F)) 𝒱₀ (c : Thread nD τ) none) Set.univ (kont ⟨⟩) Q)
          -∗ wp frame (wpE (defs₀ (F := F)) 𝒱₀ (c : Thread nD τ) none) Set.univ
              (.op (.enqueueDma (xK c k) (.remote (Dev.tc n : Thread nD τ) (rK c k) (.dma (ysS k)) hsc) (.dma (yrS k)) hsrc hdst hsem) kont) Q) := by
  subst hn
  unfold xPts rPts
  iintro ⟨#HI, Hsrc, ⟨%f, Hdst⟩, HO, Ht1, Ht2⟩ Hk
  ihave #Hg1 := (inv_ys m ρ K c k) $$ HI
  ihave #Hg2 := (inv_yr m ρ K (ny c) k) $$ HI
  ihave #Hr1 := (reached_ys m ρ K c k) $$ HI
  ihave #Hr2 := (reached_yr m ρ K (ny c) k) $$ HI
  iapply (Rounds.wp_send_pointsTo 𝒱₀ ER (sched m ρ) (c : Thread nD τ) none
      (c' := ((ny c : Dev nD) : Thread nD τ)) (src := xK c k) (dst := rK c k) (sS := .dma (ysS k)) (sem := .dma (yrS k)) (q := qL)
      (fs := xstg m ρ c) (fd := f) (r₁ := 0) (r₂ := 0) (d₁ := false) (d₂ := false)
      (by rw [duties_ys]; exact Finset.mem_singleton_self _) (by rw [duties_yr]; exact Finset.mem_singleton_self _)
      () () N (credit_r c k) (amount_dma m ρ c _ 0 false) (amount_dma m ρ (ny c) _ 0 false)
      O rfl (stepY_pay_send m ρ c k) (stepY_pay_recv m ρ c k f)) $$ [Hsrc Hdst HO Ht1 Ht2]
  · isplitr; · iexact Hg1
    isplitr; · iexact Hg2
    isplitl [Hsrc]; · iexact Hsrc
    isplitl [Hdst]; · iexact Hdst
    isplitl [HO]; · iexact HO
    isplitl [Ht1]; · iexact Ht1
    isplitr; · iexact Hr1
    isplitl [Ht2]; · iexact Ht2
    iexact Hr2
  iexact Hk

end Cert.KernelIdeal.AR

end
-- ==== Proof.StepE.lean ====
/-
  The two send waits of chunk k: the half shares the two transfers read their sources through come back.
-/
import proofs.«900702_g7700000000000703_dist_ar_v7x_xyz2x2x2_y_m512_n512_f32_1_alg».proof.Proof.Proto

noncomputable section

namespace Cert.KernelIdeal.AR

open Cert.KernelIdeal Cert.KernelIdeal.Gen Cert.KernelIdeal.Mesh

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

theorem stepE (K : Dev nD × Fin 33 → ℕ) (c : Dev nD) (k : Fin 8)
    {h1 : (rK c k).view.WordExact} {h2 : (xK c k).view.WordExact} {h3 : (rK c k).view.WordExact} {h4 : (rK c k).view.WordExact}
    {α : Type} {Q : α → sProp 𝕄} {kont : PUnit → Prog (TpuEff nD τ sig (Elt F) Λ₀ .tc) α}
    (W : Waits sig Unit) :
    iprop(records m ρ K ∗ cred (tallyAt (ysCell c k) () N) ∗ cred (tallyAt (xsCell c k) () N)
        ∗ atPos ER (ysCell c k) 0 ∅ 0 ∗ atPos ER (xsCell c k) 0 ∅ 0 ∗ owes (c : Thread nD τ) 0 W)
      ⊢ iprop(((atPos ER (ysCell c k) 1 ∅ 0 ∗ atPos ER (xsCell c k) 1 ∅ 0
              ∗ owes (c : Thread nD τ) 0 (insert (SemLoc.dma (xsS k), ()) (insert (SemLoc.dma (ysS k), ()) W))
              ∗ xPts c c k qL (xstg m ρ c) ∗ rPts c c k qL (xstg m ρ (ny c)))
            -∗ wp frame (wpE (defs₀ (F := F)) 𝒱₀ (c : Thread nD τ) none) Set.univ (kont ⟨⟩) Q)
          -∗ wp frame (wpE (defs₀ (F := F)) 𝒱₀ (c : Thread nD τ) none) Set.univ
              (.op (.waitDma2 (ysS k) (rK c k) (xK c k) h1 h2) fun _ => .op (.waitDma2 (xsS k) (rK c k) (rK c k) h3 h4) kont) Q) := by
  unfold xPts rPts
  have hw1 := Rounds.wp_wait_rest_token (defs := defs₀ (F := F)) 𝒱₀ ER (sched m ρ) (c : Thread nD τ) none
      (Γ := .empty) (Q := Q) (w := .waitDma2 (ysS k) (rK c k) (xK c k) h1 h2) (sm := .dma (ysS k)) (k' := N) (Es := Set.univ)
      (κ := K (c, jys k)) (wpE_waitDma2_eq 𝒱₀ (c : Thread nD τ) none Set.univ) (Set.mem_univ _)
      (k := fun _ => .op (.waitDma2 (xsS k) (rK c k) (rK c k) h3 h4) kont) () (O := 0) (W := W) (R := 0) (m := 0) (T := ∅)
      ((Nat.zero_add N).trans (expect_ys m ρ c k).symm)
  have hw2 := Rounds.wp_wait_rest_token (defs := defs₀ (F := F)) 𝒱₀ ER (sched m ρ) (c : Thread nD τ) none
      (Γ := .empty) (Q := Q) (w := .waitDma2 (xsS k) (rK c k) (rK c k) h3 h4) (sm := .dma (xsS k)) (k' := N) (Es := Set.univ)
      (κ := K (c, jxs k)) (wpE_waitDma2_eq 𝒱₀ (c : Thread nD τ) none Set.univ) (Set.mem_univ _)
      (k := kont) () (O := 0) (W := insert (SemLoc.dma (ysS k), ()) W) (R := 0) (m := 0) (T := ∅)
      ((Nat.zero_add N).trans (expect_xs m ρ c k).symm)
  rw [MayWait_zero, rest_ys] at hw1
  rw [MayWait_zero, rest_xs] at hw2
  unfold ysPay xPts at hw1
  unfold xsPay rPts at hw2
  iintro ⟨#HI, Hc1, Hc2, Hat1, Hat2, HO⟩ Hk
  ihave #Hg1 := (inv_ys m ρ K c k) $$ HI
  ihave #Hg2 := (inv_xs m ρ K c k) $$ HI
  iapply hw1 $$ [Hc1 HO Hat1]
  · isplitr; · iexact Hg1
    isplitl [Hc1]; · iexact Hc1
    isplitl [HO]; · iexact HO
    isplitr; · iempintro
    iexact Hat1
  iintro ⟨HO, Hat1, -, Hx⟩
  iapply hw2 $$ [Hc2 HO Hat2]
  · isplitr; · iexact Hg2
    isplitl [Hc2]; · iexact Hc2
    isplitl [HO]; · iexact HO
    isplitr; · iempintro
    iexact Hat2
  iintro ⟨HO, Hat2, -, Hr⟩
  iapply Hk
  isplitl [Hat1]; · iexact Hat1
  isplitl [Hat2]; · iexact Hat2
  isplitl [HO]; · iexact HO
  isplitl [Hx]; · iexact Hx
  iexact Hr

end Cert.KernelIdeal.AR

end
-- ==== Proof.StepC.lean ====
/-
  The second loop's trip k: wait for the chunk the y-neighbour sent, forward it to the x-neighbour, add it to the device's own rows and store.
-/
import proofs.«900702_g7700000000000703_dist_ar_v7x_xyz2x2x2_y_m512_n512_f32_1_alg».proof.Proof.Proto
import proofs.«900702_g7700000000000703_dist_ar_v7x_xyz2x2x2_y_m512_n512_f32_1_alg».proof.Proof.Split
import proofs.«900702_g7700000000000703_dist_ar_v7x_xyz2x2x2_y_m512_n512_f32_1_alg».proof.Proof.Owes
import Idealize.ShloMosaic.Lib.Pipeline.Value

noncomputable section

namespace Cert.KernelIdeal.AR

open Cert.KernelIdeal Cert.KernelIdeal.Gen Cert.KernelIdeal.Mesh

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

/-- The rectangle the trip loads and stores through is the chunk it forwards: the same rows. -/
private theorem r2_eq (c : Dev nD) (k : Fin 8) : r2 c k = chunk c k :=
  Rect.unit_congr (off2_eq_off1 c k) _ _

/-- The landed chunk, held whole, is its two half shares. -/
private theorem yrPay_split (c : Dev nD) (k : Fin 8) :
    yrPay m ρ c k ⊢ iprop(((rK c k).view.loc (c : Thread nD τ) ↦[(rK c k).view.set]{qL} xstg m ρ (ny c))
      ∗ ((rK c k).view.loc (c : Thread nD τ) ↦[(rK c k).view.set]{qR} xstg m ρ (ny c))) := by
  unfold yrPay rPts
  exact (share_split _ _).mp

/-- The left half of the landed chunk is what the send cell hands back. -/
private theorem pay_xs (c : Dev nD) (k : Fin 8) :
    ((rK c k).view.loc (c : Thread nD τ) ↦[(rK c k).view.set]{qL} xstg m ρ (ny c))
      ⊢ (sched m ρ).payload (xsCell c k) 0 false := by
  rw [payload_xs]; unfold xsPay rPts; exact .rfl

/-- The x-neighbour's chunk rewritten from the landed chunk holds the y-neighbour's rows: what its receive cell hands over. -/
private theorem pay_xr (c : Dev nD) (k : Fin 8) (f : C512 F) :
    ((rK c k).view.loc ((nx c : Dev nD) : Thread nD τ) ↦[(rK c k).view.set]{fullShare}
        ((rK c k).view.write (Elt F) f ((rK c k).view.read (Elt F) (xstg m ρ (ny c))) Finset.univ))
      ⊢ (sched m ρ).payload (xrCell (nx c) k) 0 false := by
  rw [payload_xr]; unfold xrPay; rw [nx_nx]
  refine Entails.of_eq ?_
  show rPts (nx c) c k fullShare _ = _
  exact rPts_congr (nx c) c k fullShare _ _ (landed_r c k f (xstg m ρ (ny c)))

/-- The rows a load of the trip reads are the chunk's rows. -/
private theorem sub_r (c : Dev nD) (k : Fin 8) :
    (rM : Memref sig .tc .vmem S512x512 .f32).view.setOn (r2 c k).toLoadRect.set ⊆ (rK c k).view.set := by
  rw [r2_eq]
  show _ ⊆ ((rM : Memref sig .tc .vmem S512x512 .f32).view.slice (chunk c k)).set
  rw [View.set_slice]; exact Finset.Subset.refl _

private theorem sub_o (c : Dev nD) (k : Fin 8) :
    (oM : Memref sig .tc .vmem S512x512 .f32).view.setOn (r2 c k).toLoadRect.set ⊆ (oK c k).view.set := by
  rw [r2_eq]
  show _ ⊆ ((oM : Memref sig .tc .vmem S512x512 .f32).view.slice (chunk c k)).set
  rw [View.set_slice]; exact Finset.Subset.refl _

private theorem sub_st (c : Dev nD) (k : Fin 8) :
    ((oM : Memref sig .tc .vmem S512x512 .f32).access (r2 c k)).setOn Finset.univ ⊆ (oK c k).view.set := by
  rw [r2_eq]; exact Finset.Subset.refl _

/-- On the chunk's elements the stored sum is the result: own rows plus the y-neighbour's rows. -/
private theorem stored_value (c : Dev nD) (k : Fin 8) (off : Fin S512x512.rank → ℕ)
    (inb : ∀ a, off a + S32x512.size a ≤ S512x512.size a) (h : off = k0_off1 c (kw k)) (g : C512 F)
    (w : Vec F S32x512 .f32 → Vec F S32x512 .f32 → FVec F S32x512 .f32)
    (hw : ∀ a b, w a b = addf (shapeCast S32x512 a Gen.shapeCasts_S32x512_S32x512) b) :
    ∀ i ∈ (oK c k).view.set,
      ((oM : Memref sig .tc .vmem S512x512 .f32).access (Rect.unit (s := S512x512) off S32x512.size inb)).write (Elt F) g
          (w ((xM : Memref sig .tc .vmem S512x512 .f32).view.readAt (Elt F) (Rect.unit (s := S512x512) off S32x512.size inb).toLoadRect (xstg m ρ c))
             ((rM : Memref sig .tc .vmem S512x512 .f32).view.readAt (Elt F) (Rect.unit (s := S512x512) off S32x512.size inb).toLoadRect (xstg m ρ (ny c))))
          Finset.univ i = outAt m ρ c i := by
  subst h
  intro i hi
  obtain ⟨x, rfl⟩ := View.exists_emb_of_mem_set (oK c k).view hi
  refine (View.write_emb_of_mem (v := (oK c k).view) g _ (Finset.mem_univ x)).trans ?_
  have ho : other m ρ c ((oK c k).view.emb x) = xstg m ρ (ny c) ((oK c k).view.emb x) :=
    other_on_base m ρ c k _ ((rK c k).view.emb_mem_set x)
  rw [hw, shapeCast_self]
  unfold outAt
  show FloatOps.addf _ _ = FloatOps.addf (xstg m ρ c ((oK c k).view.emb x)) (other m ρ c ((oK c k).view.emb x))
  rw [ho]
  rfl

/-- The chunk after the store holds the result on its rows. -/
private theorem out_restate (c : Dev nD) (k : Fin 8) (g : C512 F)
    (w : Vec F S32x512 .f32 → Vec F S32x512 .f32 → FVec F S32x512 .f32)
    (hw : ∀ a b, w a b = addf (shapeCast S32x512 a Gen.shapeCasts_S32x512_S32x512) b) :
    ((((oM : Memref sig .tc .vmem S512x512 .f32).access (r2 c k)).loc (c : Thread nD τ) ↦[(oK c k).view.set]{fullShare}
        (((oM : Memref sig .tc .vmem S512x512 .f32).access (r2 c k)).write (Elt F) g
          (w ((xM : Memref sig .tc .vmem S512x512 .f32).view.readAt (Elt F) (r2 c k).toLoadRect (xstg m ρ c))
             ((rM : Memref sig .tc .vmem S512x512 .f32).view.readAt (Elt F) (r2 c k).toLoadRect (xstg m ρ (ny c)))) Finset.univ)) : sProp 𝕄)
      ⊢ ((oK c k).view.loc (c : Thread nD τ) ↦[(oK c k).view.set]{fullShare} outAt m ρ c) := by
  refine Entails.of_eq ?_
  show oPts c c k _ = oPts c c k _
  exact oPts_congr c c k _ _ (stored_value m ρ c k _ (Gen.k0_off2_inb c k) (off2_eq_off1 c k) g w hw)

attribute [local sl_rounds] duties_yr duties_xs duties_xr amount_dma expect_yr expect_xs expect_xr payload_yr payload_xs payload_xr rest_yr

/-- From the landed chunk (rows of the y-neighbour's block) the trip keeps the right half share for its load and sends
    the left half through the X-transfer, which pays the send duty of xs k and the receive duty of the x-neighbour's
    xr k; the three loads and the store leave chunk k of the output holding own rows plus received rows. -/
theorem stepC (K : Dev nD × Fin 33 → ℕ) (c n : Dev nD) (hn : n = nx c) (k : Fin 8)
    {hw1 : (xK c k).view.WordExact} {hw2 : (rK c k).view.WordExact}
    {hsc : ((rK c k : Memref sig .tc .vmem S32x512 .f32) : Memref sig (Dev.tc n : Thread nD τ).2.kind .vmem S32x512 .f32).view.ref.isScScratch = false}
    {hsrc : (rK c k).view.WordExact} {hdst : (rK c k).view.WordExact}
    {hsem : DmaTarget.Typed .vmem (.dma (xrS k)) (.remote (Dev.tc n : Thread nD τ) (rK c k) (.dma (xsS k)) hsc)}
    {hl0 : (xM : Memref sig .tc .vmem S512x512 .f32).view.LoadsAt (r2 c k).toLoadRect}
    {hl2 : (rM : Memref sig .tc .vmem S512x512 .f32).view.LoadsAt (r2 c k).toLoadRect}
    {hl1 : (oM : Memref sig .tc .vmem S512x512 .f32).view.LoadsAt (r2 c k).toLoadRect}
    {hx : ((oM : Memref sig .tc .vmem S512x512 .f32).access (r2 c k)).Stores Finset.univ} {hm : (Finset.univ : Finset (r2 c k).shape.Idx) = Finset.univ ∨ ∀ a, (r2 c k).stride a = 1}
    (w : Vec F S32x512 .f32 → Vec F S32x512 .f32 → FVec F S32x512 .f32)
    (hw : ∀ a b, w a b = addf (shapeCast S32x512 a Gen.shapeCasts_S32x512_S32x512) b)
    {α : Type} {Q : α → sProp 𝕄} {kont : PUnit → Prog (TpuEff nD τ sig (Elt F) Λ₀ .tc) α}
    (O : CellTallies nD τ sig Unit) (W : Waits sig Unit)
    (hmw : (levAts L lv : sProp 𝕄) ⊢ MayWait (c : Thread nD τ) (.dma (yrS k)) () (O + tX c k)) :
    iprop(records m ρ K ∗ levAts L lv ∗ cred (tallyAt (yrCell c k) () N) ∗ atPos ER (yrCell c k) 0 ∅ 0
        ∗ owes (c : Thread nD τ) (O + tX c k) W ∗ (∃ f, rPts (nx c) c k fullShare f)
        ∗ dutyTok ER (xsCell c k) 0 false ∗ dutyTok ER (xrCell (nx c) k) 0 false
        ∗ xRight m ρ c ∗ (∃ g, oPts c c k g))
      ⊢ iprop(((cred (tallyAt (xsCell c k) () N) ∗ atPos ER (yrCell c k) 1 ∅ 0
              ∗ owes (c : Thread nD τ) O (insert (SemLoc.dma (yrS k), ()) W)
              ∗ rPts c c k qR (xstg m ρ (ny c)) ∗ xRight m ρ c ∗ oPts c c k (outAt m ρ c))
            -∗ wp frame (wpE (defs₀ (F := F)) 𝒱₀ (c : Thread nD τ) none) Set.univ (kont ⟨⟩) Q)
          -∗ wp frame (wpE (defs₀ (F := F)) 𝒱₀ (c : Thread nD τ) none) Set.univ
              (.op (.waitDma2 (yrS k) (xK c k) (rK c k) hw1 hw2) fun _ =>
               .op (.enqueueDma (rK c k) (.remote (Dev.tc n : Thread nD τ) (rK c k) (.dma (xsS k)) hsc) (.dma (xrS k)) hsrc hdst hsem) fun _ =>
               .op (.load xM (r2 c k).toLoadRect hl0) fun a =>
               .op (.load rM (r2 c k).toLoadRect hl2) fun b =>
               .op (.load oM (r2 c k).toLoadRect hl1) fun _ =>
               .op (.store oM (r2 c k) (w a b) Finset.univ hx hm) kont) Q) := by
  subst hn
  iintro ⟨#HI, Hlev, Hcr, Hat, HO, ⟨%f, Hdst⟩, Htxs, Htxr, HxR, ⟨%g, Hout⟩⟩ Hk
  ihave #Hiyr := (inv_yr m ρ K c k) $$ HI
  ihave #Hixs := (inv_xs m ρ K c k) $$ HI
  ihave #Hixr := (inv_xr m ρ K (nx c) k) $$ HI
  ihave #Hrxs := (reached_xs m ρ K c k) $$ HI
  ihave #Hrxr := (reached_xr m ρ K (nx c) k) $$ HI
  ihave Hmw := hmw $$ Hlev
  sl_exec
  ihave Hpay := (yrPay_split m ρ c k) $$ Hat_pay1
  icases Hpay with ⟨HqL, HqR⟩
  unfold rPts
  iapply (Rounds.wp_send_pointsTo 𝒱₀ ER (sched m ρ) (c : Thread nD τ) none
      (c' := ((nx c : Dev nD) : Thread nD τ)) (src := rK c k) (dst := rK c k) (q := qL)
      (fs := xstg m ρ (ny c)) (fd := f) (r₁ := 0) (r₂ := 0) (d₁ := false) (d₂ := false)
      (by rw [duties_xs]; exact Finset.mem_singleton_self _) (by rw [duties_xr]; exact Finset.mem_singleton_self _)
      () () N rfl rfl rfl O rfl (pay_xs m ρ c k) (pay_xr m ρ c k f)) $$ [HqL Hdst HO Htxs Htxr]
  · isplitr; · iexact Hixs
    isplitr; · iexact Hixr
    isplitl [HqL]; · iexact HqL
    isplitl [Hdst]; · iexact Hdst
    isplitl [HO]; · iexact HO
    isplitl [Htxs]; · iexact Htxs
    isplitr; · iexact Hrxs
    isplitl [Htxr]; · iexact Htxr
    iexact Hrxr
  iintro ⟨Hcx, HO⟩
  unfold xRight oPts
  iapply (wp_load 𝒱₀ (c : Thread nD τ) none Set.univ (m := xM) (S := (xM : Memref sig .tc .vmem S512x512 .f32).view.set) (q := qR) (f := xstg m ρ c)
      (by rw [View.set_whole]; exact Finset.subset_univ _)) $$ HxR
  iintro HxR
  iapply (wp_load 𝒱₀ (c : Thread nD τ) none Set.univ (m := rM) (S := (rK c k).view.set) (q := qR) (f := xstg m ρ (ny c))
      (sub_r c k)) $$ HqR
  iintro HqR
  iapply (wp_load 𝒱₀ (c : Thread nD τ) none Set.univ (m := oM) (S := (oK c k).view.set) (q := fullShare) (f := g)
      (sub_o c k)) $$ Hout
  iintro Hout
  iapply (wp_store 𝒱₀ (c : Thread nD τ) none Set.univ (m := oM) (r := r2 c k) (S := (oK c k).view.set) (f := g) (sub_st c k)) $$ Hout
  iintro Hout
  ihave Hout := (out_restate m ρ c k g w hw) $$ Hout
  iapply Hk
  isplitl [Hcx]; · iexact Hcx
  isplitl [Hat]; · iexact Hat
  isplitl [HO]; · iexact HO
  isplitl [HqR]; · iexact HqR
  isplitl [HxR]; · iexact HxR
  iexact Hout

end Cert.KernelIdeal.AR

end
-- ==== Proof.StepD.lean ====
/-
  The third loop's trip k: wait for the chunk the x-neighbour forwarded, add it to the device's own rows and store.
-/
import proofs.«900702_g7700000000000703_dist_ar_v7x_xyz2x2x2_y_m512_n512_f32_1_alg».proof.Proof.Proto
import proofs.«900702_g7700000000000703_dist_ar_v7x_xyz2x2x2_y_m512_n512_f32_1_alg».proof.Proof.Split
import proofs.«900702_g7700000000000703_dist_ar_v7x_xyz2x2x2_y_m512_n512_f32_1_alg».proof.Proof.Owes
import Idealize.ShloMosaic.Lib.Pipeline.Value

noncomputable section

namespace Cert.KernelIdeal.AR

open Cert.KernelIdeal Cert.KernelIdeal.Gen Cert.KernelIdeal.Mesh

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

attribute [local sl_rounds] duties_xr expect_xr payload_xr amount_dma rest_xr

namespace StepD

omit [FloatOps F] in
/-- Unit-stride rectangles of one size at equal offsets are equal. -/
theorem unitRect_congr {s : Shape} {off off' size : Fin s.rank → Nat} (h : off = off')
    (p : ∀ a, off a + size a ≤ s.size a) (p' : ∀ a, off' a + size a ≤ s.size a) :
    Rect.unit off size p = Rect.unit off' size p' := by
  subst h; rfl

omit [FloatOps F] in
/-- The rows the third loop's trip k works on are the x-neighbour's k-th chunk. -/
theorem r3_eq (c : Dev nD) (k : Fin 8) : r3 c k = chunk (nx c) k :=
  unitRect_congr (off3_eq_off1_nx c k) _ _

omit [FloatOps F] in
/-- The elements a load through that rectangle reads are the chunk's. -/
theorem setOn_r3 (M : Memref sig .tc .vmem S512x512 .f32) (c : Dev nD) (k : Fin 8) :
    M.view.setOn (r3 c k).toLoadRect.set = (M.slice (chunk (nx c) k) (fun _ => rfl)).view.set :=
  (congrArg (fun r : Rect S512x512 => r.set.map M.view.emb) (r3_eq c k)).trans
    (View.set_slice M.view (chunk (nx c) k)).symm

omit [FloatOps F] in
/-- The elements a store through that rectangle writes are the chunk's. -/
theorem set_access_r3 (c : Dev nD) (k : Fin 8) :
    ((oM : Memref sig .tc .vmem S512x512 .f32).access (r3 c k)).setOn Finset.univ ⊆ (oK (nx c) k).view.set := by
  intro i hi
  rw [View.setOn_univ, View.set_slice] at hi
  rw [← setOn_r3 oM c k]
  exact hi

/-- A chunk of the output buffer stored whole, through a rectangle at the chunk's offsets, with the entrywise sum of
    two arrays' entries at the rectangle's rows, holds on the chunk the entrywise sum of the two arrays. -/
theorem stored_chunk (c' : Dev nD) (k : Fin 8) (off : Fin S512x512.rank → ℕ)
    (inb : ∀ a, off a + S32x512.size a ≤ S512x512.size a) (h : off = k0_off1 c' (kw k))
    (g X Y : C512 F) (v : FVec F S32x512 .f32)
    (hv : ∀ y : S32x512.Idx, v y = FloatOps.addf (X ((Rect.unit (s := S512x512) off S32x512.size inb).emb y))
      (Y ((Rect.unit (s := S512x512) off S32x512.size inb).emb y))) :
    ∀ i ∈ (oK c' k).view.set,
      (((oM : Memref sig .tc .vmem S512x512 .f32).access (Rect.unit (s := S512x512) off S32x512.size inb)).write (Elt F) g v Finset.univ : C512 F) i
        = (addf X Y : C512 F) i := by
  subst h
  intro i hi
  obtain ⟨y, rfl⟩ := View.exists_emb_of_mem_set (oK c' k).view hi
  refine (View.write_emb_of_mem (v := (oK c' k).view) g v (Finset.mem_univ y)).trans ?_
  rw [hv y]
  rfl

end StepD

open StepD in
theorem stepD (K : Dev nD × Fin 33 → ℕ) (c : Dev nD) (k : Fin 8)
    {hw1 : (rK c k).view.WordExact} {hw2 : (rK c k).view.WordExact}
    {hl0 : (xM : Memref sig .tc .vmem S512x512 .f32).view.LoadsAt (r3 c k).toLoadRect}
    {hl2 : (rM : Memref sig .tc .vmem S512x512 .f32).view.LoadsAt (r3 c k).toLoadRect}
    {hl1 : (oM : Memref sig .tc .vmem S512x512 .f32).view.LoadsAt (r3 c k).toLoadRect}
    {hx : ((oM : Memref sig .tc .vmem S512x512 .f32).access (r3 c k)).Stores Finset.univ} {hm : (Finset.univ : Finset (r3 c k).shape.Idx) = Finset.univ ∨ ∀ a, (r3 c k).stride a = 1}
    (w : Vec F S32x512 .f32 → Vec F S32x512 .f32 → FVec F S32x512 .f32)
    (hw : ∀ a b, w a b = addf (shapeCast S32x512 a Gen.shapeCasts_S32x512_S32x512) b)
    {α : Type} {Q : α → sProp 𝕄} {kont : PUnit → Prog (TpuEff nD τ sig (Elt F) Λ₀ .tc) α}
    (W : Waits sig Unit) :
    iprop(records m ρ K ∗ cred (tallyAt (xrCell c k) () N) ∗ atPos ER (xrCell c k) 0 ∅ 0
        ∗ owes (c : Thread nD τ) 0 W ∗ xRight m ρ c ∗ (∃ g, oPts c (nx c) k g))
      ⊢ iprop(((atPos ER (xrCell c k) 1 ∅ 0 ∗ owes (c : Thread nD τ) 0 (insert (SemLoc.dma (xrS k), ()) W)
              ∗ rPts c (nx c) k fullShare (xstg m ρ (ny (nx c))) ∗ xRight m ρ c ∗ oPts c (nx c) k (outAt m ρ c))
            -∗ wp frame (wpE (defs₀ (F := F)) 𝒱₀ (c : Thread nD τ) none) Set.univ (kont ⟨⟩) Q)
          -∗ wp frame (wpE (defs₀ (F := F)) 𝒱₀ (c : Thread nD τ) none) Set.univ
              (.op (.waitDma2 (xrS k) (rK c k) (rK c k) hw1 hw2) fun _ =>
               .op (.load xM (r3 c k).toLoadRect hl0) fun a =>
               .op (.load rM (r3 c k).toLoadRect hl2) fun b =>
               .op (.load oM (r3 c k).toLoadRect hl1) fun _ =>
               .op (.store oM (r3 c k) (w a b) Finset.univ hx hm) kont) Q) := by
  iintro ⟨#HI, Hc, Hat, HL, HxR, ⟨%g, Ho⟩⟩ Hk
  ihave #HIc := (inv_xr m ρ K c k) $$ HI
  ihave #HRc := (reached_xr m ρ K c k) $$ HI
  -- the wait: the cell's round ends and hands over the forwarded chunk of the receive buffer
  sl_exec
  unfold xRight xrPay rPts oPts
  -- the three loads: the device's own rows, the forwarded rows, the output chunk
  iapply (wp_load 𝒱₀ (c : Thread nD τ) none Set.univ (m := xM) (r := (r3 c k).toLoadRect)
    (S := (xM : Memref sig .tc .vmem S512x512 .f32).view.set) (q := qR) (f := xstg m ρ c)
    (View.setOn_subset_set _ _)) $$ HxR
  iintro HxR
  iapply (wp_load 𝒱₀ (c : Thread nD τ) none Set.univ (m := rM) (r := (r3 c k).toLoadRect)
    (S := (rK (nx c) k).view.set) (q := fullShare) (f := xstg m ρ (ny (nx c)))
    (setOn_r3 rM c k).subset) $$ Hat_pay1
  iintro Hr
  iapply (wp_load 𝒱₀ (c : Thread nD τ) none Set.univ (m := oM) (r := (r3 c k).toLoadRect)
    (S := (oK (nx c) k).view.set) (q := fullShare) (f := g)
    (setOn_r3 oM c k).subset) $$ Ho
  iintro Ho
  -- the store rewrites the output chunk
  iapply (wp_store 𝒱₀ (c : Thread nD τ) none Set.univ (m := oM) (r := r3 c k)
    (S := (oK (nx c) k).view.set) (f := g) (set_access_r3 c k)) $$ Ho
  iintro Ho
  iapply Hk
  isplitl [Hat]; · iexact Hat
  isplitl [HL]; · iexact HL
  isplitl [Hr]; · iexact Hr
  isplitl [HxR]; · iexact HxR
  -- the stored value, entry by entry: own row entry plus forwarded row entry
  have hv : ∀ y : S32x512.Idx,
      w (View.readAt (Elt F) (xM : Memref sig .tc .vmem S512x512 .f32).view (r3 c k).toLoadRect (xstg m ρ c))
          (View.readAt (Elt F) (rM : Memref sig .tc .vmem S512x512 .f32).view (r3 c k).toLoadRect (xstg m ρ (ny (nx c)))) y
        = FloatOps.addf (xstg m ρ c ((r3 c k).emb y)) (xstg m ρ (ny (nx c)) ((r3 c k).emb y)) := by
    intro y
    rw [hw, shapeCast_self]
    rfl
  -- on the chunk, what the receive buffer ends holding is the forwarded block, so the stored chunk is the result's
  have hval : ∀ i ∈ (oK (nx c) k).view.set,
      (View.write (Elt F) ((oM : Memref sig .tc .vmem S512x512 .f32).access (r3 c k)) g
        (w (View.readAt (Elt F) (xM : Memref sig .tc .vmem S512x512 .f32).view (r3 c k).toLoadRect (xstg m ρ c))
          (View.readAt (Elt F) (rM : Memref sig .tc .vmem S512x512 .f32).view (r3 c k).toLoadRect (xstg m ρ (ny (nx c)))))
        Finset.univ : C512 F) i = outAt m ρ c i := by
    intro i hi
    refine (stored_chunk (nx c) k _ _ (off3_eq_off1_nx c k) g (xstg m ρ c) (xstg m ρ (ny (nx c))) _ hv i hi).trans ?_
    have hi' : i ∈ (rK (nx c) k).view.set := by
      simp only [Memref.view_slice, Memref.view_whole, View.set_slice_whole] at hi ⊢
      exact hi
    show FloatOps.addf _ _ = FloatOps.addf _ _
    rw [other_on_obase m ρ c k i hi']
  have e := oPts_congr c (nx c) k _ (outAt m ρ c) hval
  unfold oPts at e
  iapply (Entails.of_eq e)
  iexact Ho

end Cert.KernelIdeal.AR

end
-- ==== Proof.Body.lean ====
/-
  One device's body, run from the ghost state the launch deals it.

  The receive buffer and the output staging buffer are cut into their sixteen chunks, the x staging buffer into a right
  half share kept whole for the loads and a left half share cut into chunks for the transfers. The device hands each
  neighbour, with its barrier signal, the eight chunks of its own receive buffer that neighbour will write; waits for
  both signals and so holds the chunks of the neighbours' buffers it will write; sends its eight chunks; then, chunk by
  chunk, waits for a landed chunk, forwards it, adds and stores; waits for a forwarded chunk, adds and stores; waits
  for its sends. Every chunk of the output then holds own rows plus received rows, every chunk of the receive buffer
  what was received, and the three buffers are whole again.
-/
import proofs.«900702_g7700000000000703_dist_ar_v7x_xyz2x2x2_y_m512_n512_f32_1_alg».proof.Proof.Proto
import proofs.«900702_g7700000000000703_dist_ar_v7x_xyz2x2x2_y_m512_n512_f32_1_alg».proof.Proof.Owes
import proofs.«900702_g7700000000000703_dist_ar_v7x_xyz2x2x2_y_m512_n512_f32_1_alg».proof.Proof.Split
import proofs.«900702_g7700000000000703_dist_ar_v7x_xyz2x2x2_y_m512_n512_f32_1_alg».proof.Proof.Plumb
import proofs.«900702_g7700000000000703_dist_ar_v7x_xyz2x2x2_y_m512_n512_f32_1_alg».proof.Proof.StepY
import proofs.«900702_g7700000000000703_dist_ar_v7x_xyz2x2x2_y_m512_n512_f32_1_alg».proof.Proof.StepE
import proofs.«900702_g7700000000000703_dist_ar_v7x_xyz2x2x2_y_m512_n512_f32_1_alg».proof.Proof.StepC
import proofs.«900702_g7700000000000703_dist_ar_v7x_xyz2x2x2_y_m512_n512_f32_1_alg».proof.Proof.StepD
import proofs.«900702_g7700000000000703_dist_ar_v7x_xyz2x2x2_y_m512_n512_f32_1_alg».proof.Proof.Gen.KernelIdeal.Skeleton

noncomputable section

namespace Cert.KernelIdeal.AR

open Cert.KernelIdeal Cert.KernelIdeal.Gen Cert.KernelIdeal.Mesh

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

omit [FloatOps F] in
theorem bigSep_W (Φ : Fin cfg0.W → sProp 𝕄) : bigSep Finset.univ Φ = iprop(Φ (0 : Fin 2) ∗ Φ (1 : Fin 2)) := bigSep_W0 Φ

theorem fetch_0 (t : Fin cfg0.N) : (cfg0.win (0 : Fin 2)).fetch t = true := by rw [fin_N t]; rfl

omit [FloatOps F] in
theorem owns_whole_eq (c : Dev nD) (b : Ref sig .tc) (X : b.ty.Contents (Elt F)) :
    (owns (Ix := Unit) (Name := ℕ) (U := UU) (Lvl := ℕ) (c : Thread nD τ) (Memref.whole b) fullShare X : sProp 𝕄)
      = iprop(∃ f : Buf (Elt F) (((c : Dev nD) : Thread nD τ).loc b), ⌜f = X⌝ ∗ (((c : Thread nD τ).loc b) ↦{fullShare} f)) := by
  unfold owns; simp only [Memref.view_whole, View.read_whole, View.set_whole]

abbrev stg (c : Dev nD) (b : Ref sig .tc) (X : b.ty.Contents (Elt F)) : sProp 𝕄 :=
  iprop(∃ f : Buf (Elt F) (((c : Dev nD) : Thread nD τ).loc b), ⌜f = X⌝ ∗ (((c : Thread nD τ).loc b) ↦{fullShare} f))

/-! ## Small joins -/

omit [FloatOps F] in
theorem fin8_intro (Φ : Fin 8 → sProp 𝕄) : iprop(Φ 0 ∗ Φ 1 ∗ Φ 2 ∗ Φ 3 ∗ Φ 4 ∗ Φ 5 ∗ Φ 6 ∗ Φ 7) ⊢ bigSep Finset.univ Φ :=
  Entails.of_eq (bigSep_fin8 Φ).symm
omit [FloatOps F] in
theorem fin8_elim (Φ : Fin 8 → sProp 𝕄) : bigSep Finset.univ Φ ⊢ iprop(Φ 0 ∗ Φ 1 ∗ Φ 2 ∗ Φ 3 ∗ Φ 4 ∗ Φ 5 ∗ Φ 6 ∗ Φ 7) :=
  Entails.of_eq (bigSep_fin8 Φ)

omit [FloatOps F] in
/-- The device's own-row chunks of its receive buffer, handed to the y-neighbour: that neighbour's barrier duty 'false'. -/
theorem barPayY_intro (c : Dev nD) (f : C512 F) :
    ((bigSep Finset.univ fun k : Fin 8 => rPts c c k fullShare f) : sProp 𝕄) ⊢ barPayY (ny c) := by
  unfold barPayY
  refine bigSep_mono fun k _ => ?_
  show rPts c c k fullShare f ⊢ iprop(∃ f, rPts (ny (ny c)) (ny c) k fullShare f)
  rw [ny_ny]
  iintro H; iexists f; rw [rPts_ny]; iexact H
omit [FloatOps F] in
/-- Its other chunks, handed to the x-neighbour: that neighbour's barrier duty 'true'. -/
theorem barPayX_intro (c : Dev nD) (f : C512 F) :
    ((bigSep Finset.univ fun k : Fin 8 => rPts c (nx c) k fullShare f) : sProp 𝕄) ⊢ barPayX (nx c) := by
  unfold barPayX
  refine bigSep_mono fun k _ => ?_
  show rPts c (nx c) k fullShare f ⊢ iprop(∃ f, rPts (nx (nx c)) (nx c) k fullShare f)
  rw [nx_nx]
  iintro H; iexists f; iexact H

omit [FloatOps F] in
/-- A landed chunk's two half shares joined, read as the receive buffer's final contents. -/
theorem rbase_other (c : Dev nD) (k : Fin 8) :
    iprop(rPts c c k qL (xstg m ρ (ny c)) ∗ rPts c c k qR (xstg m ρ (ny c))) ⊢ rPts c c k fullShare (other m ρ c) := by
  rw [rPts_congr c c k fullShare (other m ρ c) (xstg m ρ (ny c)) (other_on_base m ρ c k)]
  unfold rPts
  exact (share_split _ _).2
omit [FloatOps F] in
theorem robase_other (c : Dev nD) (k : Fin 8) :
    rPts c (nx c) k fullShare (xstg m ρ (ny (nx c))) ⊢ rPts c (nx c) k fullShare (other m ρ c) := by
  rw [rPts_congr c (nx c) k fullShare (other m ρ c) (xstg m ρ (ny (nx c))) (other_on_obase m ρ c k)]

omit [FloatOps F] in
theorem xRight_eq (c : Dev nD) : xRight m ρ c = ((((c : Thread nD τ).loc cc0_stg0_0) ↦[Finset.univ]{qR} xstg m ρ c) : sProp 𝕄) := by
  unfold xRight; rw [View.set_whole]

/-! ## What is owed, transfer by transfer -/

omit [FloatOps F] in
theorem oweY (c : Dev nD) (k : Fin 8) : restX c 0 + restY c k.val = (restX c 0 + restY c (k.val + 1)) + tY c k := by
  rw [restY_succ c k, add_assoc]
omit [FloatOps F] in
theorem oweX (c : Dev nD) (k : Fin 8) : restX c k.val = restX c (k.val + 1) + tX c k := restX_succ c k
omit [FloatOps F] in
/-- The same two at a numeral j that is the chunk's number. -/
theorem oweY' (c : Dev nD) (k : Fin 8) (j j' : ℕ) (hj : j = k.val) (hj' : j' = j + 1) : restX c 0 + restY c j = (restX c 0 + restY c j') + tY c k := by
  subst hj hj'; exact oweY c k
omit [FloatOps F] in
theorem oweX' (c : Dev nD) (k : Fin 8) (j j' : ℕ) (hj : j = k.val) (hj' : j' = j + 1) : restX c j = restX c j' + tX c k := by
  subst hj hj'; exact oweX c k
theorem hmwC (c : Dev nD) (k : Fin 8) :
    (levAts L lv : sProp 𝕄) ⊢ MayWait (c : Thread nD τ) (.dma (yrS k)) () (restX c (k.val + 1) + tX c k) := by
  rw [← restX_succ c k]; exact mayWait_yr c k k.val

/-! ## The body -/

section Body

variable (K : Dev nD × Fin 33 → ℕ)

def bodyPre (c : Dev nD) : sProp 𝕄 :=
  iprop((ghost m ρ K c ∗ cred (tallyAt (barCell c) () 2)
      ∗ (bigSep Finset.univ fun k : Fin 8 => cred (tallyAt (yrCell c k) () N))
      ∗ (bigSep Finset.univ fun k : Fin 8 => cred (tallyAt (xrCell c k) () N)) ∗ levAts L lv
      ∗ ∃ f, (((c : Thread nD τ).loc cc0_scratch0) ↦{fullShare} f))
    ∗ (dats m ρ 0 c).owesAt () t₀.castSucc
    ∗ (∃ d, stg c cc0_stg0_0 ((dats m ρ 0 c).before (0 : Fin 2) t₀ d))
    ∗ (∃ d, stg c cc0_stg1_0 ((dats m ρ 0 c).before (1 : Fin 2) t₀ d)))

/-- Owing nothing, whatever waits were recorded, is the point's exit condition on what is owed. -/
theorem owesAt_exit (c : Dev nD) (W : Waits sig Unit) : owes (c : Thread nD τ) 0 W ⊢ ((dats m ρ 0 c).owesAt () t₀.succ : sProp 𝕄) := by
  unfold Dat.owesAt Pipeline.owesWithin
  rw [show (dats m ρ 0 c).owed t₀.succ = 0 from rfl]
  iintro HO
  iexists W
  isplitr; · ipureintro; exact fun _ _ => Or.inl trivial
  iexact HO

def bodyPost (c : Dev nD) : sProp 𝕄 :=
  iprop(Φ₁ m ρ c ∗ (dats m ρ 0 c).owesAt () t₀.succ ∗ stg c cc0_stg0_0 (xstg m ρ c) ∗ stg c cc0_stg1_0 (outAt m ρ c))

set_option hygiene false in
local macro "open8 " h:ident " as " h0:ident h1:ident h2:ident h3:ident h4:ident h5:ident h6:ident h7:ident : tactic => `(tactic| (
  ihave Htmp8 := (fin8_elim _) $$ $h:ident
  icases Htmp8 with ⟨$h0:ident, $h1:ident, $h2:ident, $h3:ident, $h4:ident, $h5:ident, $h6:ident, $h7:ident⟩))

set_option hygiene false in
local macro "close8 " h0:ident h1:ident h2:ident h3:ident h4:ident h5:ident h6:ident h7:ident : tactic => `(tactic| (
  iapply (fin8_intro _)
  isplitl [$h0:ident]; · iexact $h0:ident
  isplitl [$h1:ident]; · iexact $h1:ident
  isplitl [$h2:ident]; · iexact $h2:ident
  isplitl [$h3:ident]; · iexact $h3:ident
  isplitl [$h4:ident]; · iexact $h4:ident
  isplitl [$h5:ident]; · iexact $h5:ident
  isplitl [$h6:ident]; · iexact $h6:ident
  iexact $h7:ident))

set_option hygiene false in
/-- The Y-transfer of chunk k. -/
local macro "y_step " k:term:max kn:term:max dv:term:max hx:ident hd:ident hs:ident hr:ident hc:ident : tactic => `(tactic| (
  rw [oweY' c $k $k $kn rfl rfl]
  iapply (stepY m ρ K c _ $dv $k _ _) $$ [HO $hx:ident $hd:ident $hs:ident $hr:ident]
  · isplitr; · iexact HI
    isplitl [$hx:ident]; · iexact $hx:ident
    isplitl [$hd:ident]; · iexact $hd:ident
    isplitl [HO]; · iexact HO
    isplitl [$hs:ident]; · iexact $hs:ident
    iexact $hr:ident
  iintro ⟨$hc:ident, HO⟩))

set_option hygiene false in
/-- The second loop's trip k. -/
local macro "c_step " k:term:max kn:term:max dv:term:max pay:term:max hcr:ident hat:ident hd:ident hs:ident hr:ident ho:ident hcs:ident hrr:ident : tactic => `(tactic| (
  rw [oweX' c $k $k $kn rfl rfl]
  iapply (stepC m ρ K c _ $dv $k $pay (fun _ _ => rfl) (restX c $kn) _ (hmwC c $k)) $$ [$hcr:ident $hat:ident HO $hd:ident $hs:ident $hr:ident HxR $ho:ident]
  · isplitr; · iexact HI
    isplitr; · iexact Hlev
    isplitl [$hcr:ident]; · iexact $hcr:ident
    isplitl [$hat:ident]; · iexact $hat:ident
    isplitl [HO]; · iexact HO
    isplitl [$hd:ident]; · iexact $hd:ident
    isplitl [$hs:ident]; · iexact $hs:ident
    isplitl [$hr:ident]; · iexact $hr:ident
    isplitl [HxR]; · iexact HxR
    iexists _; iexact $ho:ident
  iintro ⟨$hcs:ident, $hat:ident, HO, $hrr:ident, HxR, $ho:ident⟩))

set_option hygiene false in
/-- The third loop's trip k. -/
local macro "d_step " k:term:max pay:term:max hcr:ident hat:ident ho:ident hrr:ident : tactic => `(tactic| (
  iapply (stepD m ρ K c $k $pay (fun _ _ => rfl) _) $$ [$hcr:ident $hat:ident HO HxR $ho:ident]
  · isplitr; · iexact HI
    isplitl [$hcr:ident]; · iexact $hcr:ident
    isplitl [$hat:ident]; · iexact $hat:ident
    isplitl [HO]; · iexact HO
    isplitl [HxR]; · iexact HxR
    iexists _; iexact $ho:ident
  iintro ⟨$hat:ident, HO, $hrr:ident, HxR, $ho:ident⟩))

set_option hygiene false in
/-- The two send waits of chunk k. -/
local macro "e_step " k:term:max hcy:ident hcx:ident hay:ident hax:ident hxl:ident hrl:ident : tactic => `(tactic| (
  iapply (stepE m ρ K c $k _) $$ [$hcy:ident $hcx:ident $hay:ident $hax:ident HO]
  · isplitr; · iexact HI
    isplitl [$hcy:ident]; · iexact $hcy:ident
    isplitl [$hcx:ident]; · iexact $hcx:ident
    isplitl [$hay:ident]; · iexact $hay:ident
    isplitl [$hax:ident]; · iexact $hax:ident
    iexact HO
  iintro ⟨$hay:ident, $hax:ident, HO, $hxl:ident, $hrl:ident⟩))

set_option hygiene false in
/-- Chunk k of the receive buffer at the exit: the landed chunk's two half shares joined and read as the final contents,
    the forwarded chunk read as the final contents. -/
local macro "j_step " k:term:max hl:ident hr:ident ho:ident hj:ident hq:ident : tactic => `(tactic| (
  ihave $hj:ident := (rbase_other m ρ c $k) $$ [$hl:ident $hr:ident]
  · isplitl [$hl:ident]; · iexact $hl:ident
    iexact $hr:ident
  ihave $hq:ident := (robase_other m ρ c $k) $$ $ho:ident))

set_option maxHeartbeats 6400000 in
set_option maxRecDepth 65536 in
theorem sound_body (c : Dev nD) (Kt : PUnit → sProp 𝕄) :
    iprop(bodyPre m ρ K c ∗ (bodyPost m ρ c -∗ Kt ⟨⟩))
      ⊢ wp frame (wpE (defs₀ (F := F)) 𝒱₀ c none) Set.univ
          (cc0_body (Memref.whole cc0_stg0_0) (Memref.isWhole_whole _) (Memref.whole cc0_stg1_0) (Memref.isWhole_whole _)
            (Memref.whole cc0_scratch0) (Memref.isWhole_whole _) cc0_scratch1 cc0_scratch2 cc0_scratch3 cc0_scratch4) Kt := by
  simp only [cc0_body_eq_skeleton]; unfold cc0_body_skel
  simp only [k0_part1_eq_skeleton, k0_part2_eq_skeleton, k0_part3_eq_skeleton, k0_part4_eq_skeleton, k0_part5_eq_skeleton, k0_part6_eq_skeleton,
    k0_part7_eq_skeleton, k0_part8_eq_skeleton, k0_part9_eq_skeleton, k0_part10_eq_skeleton, k0_part11_eq_skeleton, k0_part12_eq_skeleton,
    k0_part13_eq_skeleton, k0_part14_eq_skeleton, k0_part15_eq_skeleton, k0_part16_eq_skeleton, k0_part17_eq_skeleton, k0_part18_eq_skeleton]
  unfold k0_part1_skel k0_part2_skel k0_part3_skel k0_part4_skel k0_part5_skel k0_part6_skel k0_part7_skel k0_part8_skel k0_part9_skel
    k0_part10_skel k0_part11_skel k0_part12_skel k0_part13_skel k0_part14_skel k0_part15_skel k0_part16_skel k0_part17_skel k0_part18_skel
  simp only [semSignalWord, semWaitWord, Prog.lift, Prog.bind_op, Prog.bind_ret, Prog.pure_eq_ret, wp_deviceId]
  unfold bodyPre ghost linear payToks
  iintro ⟨⟨⟨⟨#HI, Hat, HtBY, HtBX, HtYR, HtXR, HtYS, HtXS⟩, HcB, HcYR, HcXR, #Hlev, ⟨%f0, Hscr⟩⟩, Ho, ⟨%d0, %g0, %hg0, Hx⟩, ⟨%d1, %g1, %hg1, Hout⟩⟩, Hk⟩
  have hx : g0 = xstg m ρ c := by rw [hg0]; unfold Dat.before; rw [if_pos (fetch_0 t₀)]; rfl
  subst hx
  unfold Dat.owesAt Pipeline.owesWithin
  icases Ho with ⟨%W, %hW, HO⟩
  rw [show (dats m ρ 0 c).owed t₀.castSucc = O₀ c from rfl]
  -- the positions, cell kind by cell kind; the families, chunk by chunk
  ihave Hat' := (atPos_open c 0).1 $$ Hat
  icases Hat' with ⟨HaB, HaYS, HaYR, HaXS, HaXR⟩
  open8 HaYS as HaYS0 HaYS1 HaYS2 HaYS3 HaYS4 HaYS5 HaYS6 HaYS7
  open8 HaYR as HaYR0 HaYR1 HaYR2 HaYR3 HaYR4 HaYR5 HaYR6 HaYR7
  open8 HaXS as HaXS0 HaXS1 HaXS2 HaXS3 HaXS4 HaXS5 HaXS6 HaXS7
  open8 HaXR as HaXR0 HaXR1 HaXR2 HaXR3 HaXR4 HaXR5 HaXR6 HaXR7
  open8 HtYR as HtYR0 HtYR1 HtYR2 HtYR3 HtYR4 HtYR5 HtYR6 HtYR7
  open8 HtXR as HtXR0 HtXR1 HtXR2 HtXR3 HtXR4 HtXR5 HtXR6 HtXR7
  open8 HtYS as HtYS0 HtYS1 HtYS2 HtYS3 HtYS4 HtYS5 HtYS6 HtYS7
  open8 HtXS as HtXS0 HtXS1 HtXS2 HtXS3 HtXS4 HtXS5 HtXS6 HtXS7
  open8 HcYR as HcYR0 HcYR1 HcYR2 HcYR3 HcYR4 HcYR5 HcYR6 HcYR7
  open8 HcXR as HcXR0 HcXR1 HcXR2 HcXR3 HcXR4 HcXR5 HcXR6 HcXR7
  -- the receive buffer in its sixteen chunks: eight for each neighbour to write
  ihave Hs := (scr_split c fullShare f0).1 $$ Hscr
  icases Hs with ⟨HscrY, HscrX⟩
  -- the x staging buffer: the right half whole for the loads, the left half in chunks for the transfers
  ihave Hxs := (share_split (F := F) (ℓ := (c : Thread nD τ).loc cc0_stg0_0) Finset.univ (xstg m ρ c)).1 $$ Hx
  icases Hxs with ⟨HxL, HxR0⟩
  ihave HxR := (Entails.of_eq (xRight_eq m ρ c).symm) $$ HxR0
  ihave HxL' := (x_split c qL (xstg m ρ c)).1 $$ HxL
  icases HxL' with ⟨HxLb, HxLo⟩
  open8 HxLb as HxL0 HxL1 HxL2 HxL3 HxL4 HxL5 HxL6 HxL7
  -- the output staging buffer in its sixteen chunks
  ihave Hos := (out_split c g1).1 $$ Hout
  icases Hos with ⟨Hob, Hoo⟩
  open8 Hob as Hob0 Hob1 Hob2 Hob3 Hob4 Hob5 Hob6 Hob7
  open8 Hoo as Hoo0 Hoo1 Hoo2 Hoo3 Hoo4 Hoo5 Hoo6 Hoo7
  simp only [dev1_eq c, dev2_eq c]
  -- the signal to the y-neighbour's barrier: its duty 'false', with the own-row chunks of this device's receive buffer
  unfold O₀
  iapply (Rounds.wp_signal 𝒱₀ ER (sched m ρ) (c : Thread nD τ) none (dst := (ny c : Thread nD τ)) (κ := K (ny c, 0))
      (d := false) (by rw [duties_bar]; exact Finset.mem_univ _) ((amount_bar m ρ (ny c) false).trans (by decide)) () (O₁ c) rfl)
    $$ [HO HtBY HscrY]
  · isplitr; · iapply (inv_bar m ρ K (ny c)); iexact HI
    isplitl [HO]; · iexact HO
    isplitl [HtBY]; · iexact HtBY
    isplitl [HscrY]
    · rw [payload_bar_false]; iapply (barPayY_intro c f0); iexact HscrY
    · iapply (reached_bar m ρ K (ny c)); iexact HI
  iintro HO
  -- the signal to the x-neighbour's: its duty 'true', with the other chunks
  unfold O₁
  iapply (Rounds.wp_signal 𝒱₀ ER (sched m ρ) (c : Thread nD τ) none (dst := (nx c : Thread nD τ)) (κ := K (nx c, 0))
      (d := true) (by rw [duties_bar]; exact Finset.mem_univ _) ((amount_bar m ρ (nx c) true).trans (by decide)) () (restX c 0 + restY c 0) rfl)
    $$ [HO HtBX HscrX]
  · isplitr; · iapply (inv_bar m ρ K (nx c)); iexact HI
    isplitl [HO]; · iexact HO
    isplitl [HtBX]; · iexact HtBX
    isplitl [HscrX]
    · rw [payload_bar_true]; iapply (barPayX_intro c f0); iexact HscrX
    · iapply (reached_bar m ρ K (nx c)); iexact HI
  iintro HO
  -- the wait for both neighbours' signals: their chunks come with it
  iapply (Rounds.wp_wait_rest_token 𝒱₀ ER (sched m ρ) (c : Thread nD τ) none (κ := K (c, 0))
      (wpE_semWait_eq 𝒱₀ (c : Thread nD τ) none Set.univ) (Set.mem_univ _) () (O := restX c 0 + restY c 0) (W := W) (R := 0) (m := 0) (T := ∅)
      (by rw [expect_bar]; decide)) $$ [HcB HO HaB]
  · isplitr; · iapply (inv_bar m ρ K c); iexact HI
    isplitl [HcB]; · iexact HcB
    isplitl [HO]; · iexact HO
    isplitr; · iapply (mayWait_bar c); iexact Hlev
    iexact HaB
  iintro ⟨HO, HaB, -, Hpay⟩
  ihave Hp := (Entails.of_eq (rest_bar m ρ c)) $$ Hpay
  unfold barPayY barPayX
  icases Hp with ⟨HdY, HdX⟩
  open8 HdY as HdY0 HdY1 HdY2 HdY3 HdY4 HdY5 HdY6 HdY7
  open8 HdX as HdX0 HdX1 HdX2 HdX3 HdX4 HdX5 HdX6 HdX7
  -- the eight Y-transfers
  y_step 0 1 (dev3_eq c) HxL0 HdY0 HtYS0 HtYR0 HcYS0
  y_step 1 2 (dev4_eq c) HxL1 HdY1 HtYS1 HtYR1 HcYS1
  y_step 2 3 (dev5_eq c) HxL2 HdY2 HtYS2 HtYR2 HcYS2
  y_step 3 4 (dev6_eq c) HxL3 HdY3 HtYS3 HtYR3 HcYS3
  y_step 4 5 (dev7_eq c) HxL4 HdY4 HtYS4 HtYR4 HcYS4
  y_step 5 6 (dev8_eq c) HxL5 HdY5 HtYS5 HtYR5 HcYS5
  y_step 6 7 (dev9_eq c) HxL6 HdY6 HtYS6 HtYR6 HcYS6
  y_step 7 8 (dev10_eq c) HxL7 HdY7 HtYS7 HtYR7 HcYS7
  rw [restY_eight, add_zero]
  -- the second loop
  c_step 0 1 (dev11_eq c) k0_pay1 HcYR0 HaYR0 HdX0 HtXS0 HtXR0 Hob0 HcXS0 HrR0
  c_step 1 2 (dev12_eq c) k0_pay2 HcYR1 HaYR1 HdX1 HtXS1 HtXR1 Hob1 HcXS1 HrR1
  c_step 2 3 (dev13_eq c) k0_pay3 HcYR2 HaYR2 HdX2 HtXS2 HtXR2 Hob2 HcXS2 HrR2
  c_step 3 4 (dev14_eq c) k0_pay4 HcYR3 HaYR3 HdX3 HtXS3 HtXR3 Hob3 HcXS3 HrR3
  c_step 4 5 (dev15_eq c) k0_pay5 HcYR4 HaYR4 HdX4 HtXS4 HtXR4 Hob4 HcXS4 HrR4
  c_step 5 6 (dev16_eq c) k0_pay6 HcYR5 HaYR5 HdX5 HtXS5 HtXR5 Hob5 HcXS5 HrR5
  c_step 6 7 (dev17_eq c) k0_pay7 HcYR6 HaYR6 HdX6 HtXS6 HtXR6 Hob6 HcXS6 HrR6
  c_step 7 8 (dev18_eq c) (fun a b => k0_pay9 (k0_pay8 a) b) HcYR7 HaYR7 HdX7 HtXS7 HtXR7 Hob7 HcXS7 HrR7
  rw [restX_eight]
  -- the third loop
  d_step 0 k0_pay10 HcXR0 HaXR0 Hoo0 Hro0
  d_step 1 k0_pay11 HcXR1 HaXR1 Hoo1 Hro1
  d_step 2 k0_pay12 HcXR2 HaXR2 Hoo2 Hro2
  d_step 3 k0_pay13 HcXR3 HaXR3 Hoo3 Hro3
  d_step 4 k0_pay14 HcXR4 HaXR4 Hoo4 Hro4
  d_step 5 k0_pay15 HcXR5 HaXR5 Hoo5 Hro5
  d_step 6 k0_pay16 HcXR6 HaXR6 Hoo6 Hro6
  d_step 7 k0_pay17 HcXR7 HaXR7 Hoo7 Hro7
  -- the send waits
  e_step 0 HcYS0 HcXS0 HaYS0 HaXS0 HxL0 HrL0
  e_step 1 HcYS1 HcXS1 HaYS1 HaXS1 HxL1 HrL1
  e_step 2 HcYS2 HcXS2 HaYS2 HaXS2 HxL2 HrL2
  e_step 3 HcYS3 HcXS3 HaYS3 HaXS3 HxL3 HrL3
  e_step 4 HcYS4 HcXS4 HaYS4 HaXS4 HxL4 HrL4
  e_step 5 HcYS5 HcXS5 HaYS5 HaXS5 HxL5 HrL5
  e_step 6 HcYS6 HcXS6 HaYS6 HaXS6 HxL6 HrL6
  e_step 7 HcYS7 HcXS7 HaYS7 HaXS7 HxL7 HrL7
  -- every own cell has consumed its one round: all thirty-two close, their counters zero and the device's again
  imod (close_own m ρ K c) $$ [HaYS0 HaYS1 HaYS2 HaYS3 HaYS4 HaYS5 HaYS6 HaYS7 HaYR0 HaYR1 HaYR2 HaYR3 HaYR4 HaYR5 HaYR6 HaYR7
      HaXS0 HaXS1 HaXS2 HaXS3 HaXS4 HaXS5 HaXS6 HaXS7 HaXR0 HaXR1 HaXR2 HaXR3 HaXR4 HaXR5 HaXR6 HaXR7] with Hz
  · isplitr; · iexact HI
    isplitl [HaYS0 HaYS1 HaYS2 HaYS3 HaYS4 HaYS5 HaYS6 HaYS7]; · close8 HaYS0 HaYS1 HaYS2 HaYS3 HaYS4 HaYS5 HaYS6 HaYS7
    isplitl [HaYR0 HaYR1 HaYR2 HaYR3 HaYR4 HaYR5 HaYR6 HaYR7]; · close8 HaYR0 HaYR1 HaYR2 HaYR3 HaYR4 HaYR5 HaYR6 HaYR7
    isplitl [HaXS0 HaXS1 HaXS2 HaXS3 HaXS4 HaXS5 HaXS6 HaXS7]; · close8 HaXS0 HaXS1 HaXS2 HaXS3 HaXS4 HaXS5 HaXS6 HaXS7
    close8 HaXR0 HaXR1 HaXR2 HaXR3 HaXR4 HaXR5 HaXR6 HaXR7
  -- the receive buffer whole again: each landed chunk's halves joined, every chunk read as the final contents
  j_step 0 HrL0 HrR0 Hro0 Hr0 Hq0
  j_step 1 HrL1 HrR1 Hro1 Hr1 Hq1
  j_step 2 HrL2 HrR2 Hro2 Hr2 Hq2
  j_step 3 HrL3 HrR3 Hro3 Hr3 Hq3
  j_step 4 HrL4 HrR4 Hro4 Hr4 Hq4
  j_step 5 HrL5 HrR5 Hro5 Hr5 Hq5
  j_step 6 HrL6 HrR6 Hro6 Hr6 Hq6
  j_step 7 HrL7 HrR7 Hro7 Hr7 Hq7
  ihave Hscr := (scr_split c fullShare (other m ρ c)).2 $$ [Hr0 Hr1 Hr2 Hr3 Hr4 Hr5 Hr6 Hr7 Hq0 Hq1 Hq2 Hq3 Hq4 Hq5 Hq6 Hq7]
  · isplitl [Hr0 Hr1 Hr2 Hr3 Hr4 Hr5 Hr6 Hr7]; · close8 Hr0 Hr1 Hr2 Hr3 Hr4 Hr5 Hr6 Hr7
    close8 Hq0 Hq1 Hq2 Hq3 Hq4 Hq5 Hq6 Hq7
  -- the x staging buffer whole again
  ihave HxL := (x_split c qL (xstg m ρ c)).2 $$ [HxL0 HxL1 HxL2 HxL3 HxL4 HxL5 HxL6 HxL7 HxLo]
  · isplitl [HxL0 HxL1 HxL2 HxL3 HxL4 HxL5 HxL6 HxL7]; · close8 HxL0 HxL1 HxL2 HxL3 HxL4 HxL5 HxL6 HxL7
    iexact HxLo
  ihave HxR' := (Entails.of_eq (xRight_eq m ρ c)) $$ HxR
  ihave Hx := (share_split (F := F) (ℓ := (c : Thread nD τ).loc cc0_stg0_0) Finset.univ (xstg m ρ c)).2 $$ [HxL HxR']
  · isplitl [HxL]; · iexact HxL
    iexact HxR'
  -- the output staging buffer whole again, every chunk at own rows plus received rows
  ihave Hout := (out_split c (outAt m ρ c)).2 $$ [Hob0 Hob1 Hob2 Hob3 Hob4 Hob5 Hob6 Hob7 Hoo0 Hoo1 Hoo2 Hoo3 Hoo4 Hoo5 Hoo6 Hoo7]
  · isplitl [Hob0 Hob1 Hob2 Hob3 Hob4 Hob5 Hob6 Hob7]; · close8 Hob0 Hob1 Hob2 Hob3 Hob4 Hob5 Hob6 Hob7
    close8 Hoo0 Hoo1 Hoo2 Hoo3 Hoo4 Hoo5 Hoo6 Hoo7
  rw [wp_ret]; imodintro
  iapply Hk
  unfold bodyPost Φ₁
  isplitl [Hscr Hz]
  · isplitl [Hscr]; · iexact Hscr
    iexact Hz
  isplitl [HO]
  · iapply (owesAt_exit m ρ c _); iexact HO
  isplitl [Hx]
  · iexists _; isplitr; · (ipureintro; rfl)
    iexact Hx
  iexists _; isplitr; · (ipureintro; rfl)
  iexact Hout

set_option maxRecDepth 65536 in
def bodyPre' (c : Dev nD) : sProp 𝕄 :=
  iprop(Φ₀ m ρ c ∗ (dats m ρ 0 c).owesAt () t₀.castSucc
    ∗ (∃ d, stg c cc0_stg0_0 ((dats m ρ 0 c).before (0 : Fin 2) t₀ d))
    ∗ (∃ d, stg c cc0_stg1_0 ((dats m ρ 0 c).before (1 : Fin 2) t₀ d)))

set_option maxRecDepth 65536 in
/-- The library's body obligation on device c. -/
theorem body_obligation (c : Dev nD) : BodyObligation (dats (F := F) m ρ 0 c) (defs₀ (F := F)) 𝒱₀ () Set.univ := fun t => by
  rw [fin_N t]
  rw [bigSep_W, bigSep_W]
  simp only [owns_whole_eq]
  show bodyPre' m ρ c ⊢ wp frame (wpE (defs₀ (F := F)) 𝒱₀ c none) Set.univ
    (cc0_body (Memref.whole cc0_stg0_0) (Memref.isWhole_whole _) (Memref.whole cc0_stg1_0) (Memref.isWhole_whole _)
      (Memref.whole cc0_scratch0) (Memref.isWhole_whole _) cc0_scratch1 cc0_scratch2 cc0_scratch3 cc0_scratch4) (fun _ => bodyPost m ρ c)
  unfold bodyPre' Φ₀ start
  iintro ⟨⟨⟨⟨%K, Hg⟩, Hrest⟩, Hscr⟩, Ho, Hx, Hout⟩
  iapply (sound_body m ρ K c fun _ => bodyPost m ρ c)
  unfold bodyPre
  isplitr []
  · isplitl [Hg Hrest Hscr]
    · isplitl [Hg]; · iexact Hg
      icases Hrest with ⟨H1, H2, H3, H4⟩
      isplitl [H1]; · iexact H1
      isplitl [H2]; · iexact H2
      isplitl [H3]; · iexact H3
      isplitl [H4]; · iexact H4
      iexact Hscr
    isplitl [Ho]; · iexact Ho
    isplitl [Hx] <;> iassumption
  · iintro H; iexact H

end Body

end Cert.KernelIdeal.AR

end
-- ==== Proof.Launch.lean ====
/-
  The launch: the ghost state every device starts from is minted and dealt, the cells' invariants are allocated for
  all devices at once, and the run of the whole mesh follows from the body of one device.

  Each device's 33 cells (its barrier and its 32 transfer semaphores) get a position at round 0 and the fact that
  round 0 is reached; each cell's duty "false" and each barrier's duty "true" get a token. A device keeps its own send
  tokens; its barrier's "false" token and its Y-receive tokens go to its y-neighbour, its barrier's "true" token and its
  X-receive tokens to its x-neighbour: the two neighbour maps are involutions, so every device ends with exactly the
  tokens of the duties it pays.
-/
import proofs.«900702_g7700000000000703_dist_ar_v7x_xyz2x2x2_y_m512_n512_f32_1_alg».proof.Proof.Proto
import proofs.«900702_g7700000000000703_dist_ar_v7x_xyz2x2x2_y_m512_n512_f32_1_alg».proof.Proof.Owes
import proofs.«900702_g7700000000000703_dist_ar_v7x_xyz2x2x2_y_m512_n512_f32_1_alg».proof.Proof.Gen.KernelIdeal.Launch

noncomputable section

namespace Cert.KernelIdeal.AR

open Cert.KernelIdeal Cert.KernelIdeal.Gen Cert.KernelIdeal.Mesh

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

/-! ## The cells and the tokens -/

theorem ownSemFacts : Pipeline.OwnSemFacts cfg0.spec osem := by decide

theorem share_eq (c : Dev nD) (w : Fin cfg0.W) : (dats m ρ 0 c).share w = fullShare := by unfold Dat.share; split <;> rfl

/-- Different indices name different semaphores. -/
theorem csem_injective : Function.Injective csem := by decide

theorem kcell_injective : Function.Injective (kcell : Dev nD × Fin 33 → GSem nD τ sig) := by
  rintro ⟨c, j⟩ ⟨c', j'⟩ h
  have h1 : c = c' := by have := congrArg (fun g : GSem nD τ sig => g.1.1) h; exact this
  subst h1
  have h2 : j = j' := csem_injective (congrArg Prod.snd h)
  subst h2; rfl

/-- Every device's 33 cells. -/
def arCells : Finset (GSem nD τ sig) := Finset.univ.map ⟨kcell, kcell_injective⟩

/-- The tokens minted: duty "false" of every cell, duty "true" of every barrier. -/
def tokF : Dev nD × Fin 33 ↪ GSem nD τ sig × ℕ × Bool :=
  ⟨fun ck => (kcell ck, 0, false), fun a b h => kcell_injective (congrArg Prod.fst h)⟩
def tokT : Dev nD ↪ GSem nD τ sig × ℕ × Bool :=
  ⟨fun c => (barCell c, 0, true), fun a b h => Fin.ext (congrArg (fun x : GSem nD τ sig × ℕ × Bool => x.1.1.1.val) h)⟩
def arToks : Finset (GSem nD τ sig × ℕ × Bool) := Finset.univ.map tokF ∪ Finset.univ.map tokT

theorem arToks_disj : Disjoint (Finset.univ.map tokF) (Finset.univ.map tokT) := by
  rw [Finset.disjoint_left]
  intro x h1 h2
  obtain ⟨a, _, rfl⟩ := Finset.mem_map.mp h1
  obtain ⟨b, _, hb⟩ := Finset.mem_map.mp h2
  exact absurd (show true = false from congrArg (fun x : GSem nD τ sig × ℕ × Bool => x.2.2) hb) (by decide)

def u₀ : UU :=
  (initOf (Pipeline.cells cfgs cellOf_inj) (Pipeline.launchToks cfgs cellOf_inj), initOf arCells arToks)

/-- The duty tokens of device c's own cells. -/
def toks (c : Dev nD) : sProp 𝕄 :=
  iprop((bigSep Finset.univ fun j : Fin 33 => dutyTok ER (kcell (c, j)) 0 false) ∗ dutyTok ER (barCell c) 0 true)

/-- What the launch element deals device c. -/
def G (c : Dev nD) : sProp 𝕄 :=
  iprop((bigSep Finset.univ fun j : Fin 33 => roundState ER (sched m ρ) (kcell (c, j)) 0)
    ∗ (bigSep Finset.univ fun j : Fin 33 => iprop(atPos ER (kcell (c, j)) 0 ∅ 0 ∗ reached ER (kcell (c, j)) 0)) ∗ toks c)

/-- What the global step makes of it. -/
def G' (c : Dev nD) : sProp 𝕄 := iprop(∃ K, ghost m ρ K c)

omit [FloatOps F] in
theorem fund_ring : BI.own (ER (initOf arCells arToks)) ⊢ (|==> bigSep Finset.univ (G m ρ) : sProp 𝕄) := by
  have hX (Φ : GSem nD τ sig → sProp 𝕄) : bigSep arCells Φ = bigSep Finset.univ fun c : Dev nD => bigSep Finset.univ fun j : Fin 33 => Φ (kcell (c, j)) := by
    unfold arCells; rw [bigSep_map, bigSep_univ_prod]; rfl
  have hT : bigSep arToks (fun x => (dutyTok ER x.1 x.2.1 x.2.2 : sProp 𝕄)) = bigSep Finset.univ fun c : Dev nD => toks c := by
    unfold arToks
    rw [bigSep_union arToks_disj, bigSep_map, bigSep_map, bigSep_univ_prod]
    unfold toks
    rw [bigSep_sep']
    rfl
  iintro HX
  imod (Rounds.fund ER (sched m ρ) arCells arToks) $$ HX with ⟨Hst, Hr, Hat, Htok⟩
  imodintro
  ihave Hst' := (Entails.of_eq (hX fun g => roundState ER (sched m ρ) g 0)) $$ Hst
  ihave Hat' := (Entails.of_eq (hX fun g => atPos ER g 0 ∅ 0)) $$ Hat
  ihave Hr' := (Entails.of_eq (hX fun g => reached ER g 0)) $$ Hr
  ihave Htok' := (Entails.of_eq hT) $$ Htok
  unfold G; simp only [bigSep_sep']
  isplitl [Hst']; · iexact Hst'
  isplitl [Hat' Hr']
  · isplitl [Hat'] <;> iassumption
  iexact Htok'

/-! ## Splitting the 33 cells -/

omit [FloatOps F] in
/-- The first index, then the others. -/
theorem bigSep_fin_succ {n : ℕ} (Φ : Fin (n + 1) → sProp 𝕄) :
    bigSep Finset.univ Φ = iprop(Φ 0 ∗ bigSep Finset.univ fun j : Fin n => Φ j.succ) := by
  rw [Fin.univ_succ, Finset.cons_eq_insert, bigSep_insert (by simp [Fin.succ_ne_zero]), bigSep_map]
  rfl

/-- The 33 indices: the barrier, then the four arrays of eight. -/
def split33 : Unit ⊕ (Fin 8 ⊕ (Fin 8 ⊕ (Fin 8 ⊕ Fin 8))) → Fin 33
  | .inl _ => 0
  | .inr (.inl k) => jys k
  | .inr (.inr (.inl k)) => jyr k
  | .inr (.inr (.inr (.inl k))) => jxs k
  | .inr (.inr (.inr (.inr k))) => jxr k
theorem split33_bij : Function.Bijective split33 := by decide

omit [FloatOps F] in
theorem bigSep_fin33 (Φ : Fin 33 → sProp 𝕄) :
    bigSep Finset.univ Φ = iprop(Φ 0 ∗ (bigSep Finset.univ fun k : Fin 8 => Φ (jys k)) ∗ (bigSep Finset.univ fun k : Fin 8 => Φ (jyr k))
      ∗ (bigSep Finset.univ fun k : Fin 8 => Φ (jxs k)) ∗ bigSep Finset.univ fun k : Fin 8 => Φ (jxr k)) := by
  rw [bigSep_univ_equiv (Equiv.ofBijective split33 split33_bij) Φ, bigSep_univ_sum, bigSep_univ_sum, bigSep_univ_sum, bigSep_univ_sum,
    bigSep_univ_of_subsingleton ()]
  rfl

theorem csem_succ : ∀ j : Fin 32, csem j.succ = osem j := by decide

/-! ## The semaphores at zero, and the invariants allocated -/

omit [FloatOps F] in
/-- The barrier semaphore is the launch's one unscoped semaphore. -/
theorem unscopedSems0_eq (c : Dev nD) : (unscopedSems0 c : sProp 𝕄) = semVal (barCell c) 0 := by
  unfold unscopedSems0; rw [bigSep_eq_bigSepL_of_eq [SemLoc.reg barS] (by decide) (by decide)]; rfl

omit [FloatOps F] in
theorem sems0_eq (c : Dev nD) :
    iprop(Pipeline.ownSems0 (Ix := Unit) (Name := ℕ) (U := UU) (Lvl := ℕ) (Val := Elt F) (τ := τ) osem c ∗ unscopedSems0 c)
      ⊢ (bigSep Finset.univ fun j : Fin 33 => semVal (kcell (c, j)) 0 : sProp 𝕄) := by
  rw [unscopedSems0_eq, bigSep_fin_succ]
  unfold Pipeline.ownSems0
  rw [bigSep_congr (s := Finset.univ) (Φ := fun j : Fin 32 => (semVal (kcell (c, j.succ)) 0 : sProp 𝕄))
    (Ψ := fun j : Fin 32 => semVal ((c : Thread nD τ), osem j) 0) fun j _ => by
      rw [show kcell (c, j.succ) = ((c : Thread nD τ), osem j) from congrArg (Prod.mk (c : Thread nD τ)) (csem_succ j)]]
  iintro ⟨HO, HB⟩
  isplitl [HB]; · iexact HB
  iexact HO

omit [FloatOps F] in
theorem core_alloc (c : Dev nD) :
    iprop(Pipeline.ownSems0 (Ix := Unit) (Name := ℕ) (U := UU) (Lvl := ℕ) (Val := Elt F) (τ := τ) osem c ∗ unscopedSems0 c ∗ G m ρ c)
      ⊢ |={Set.univ}=> iprop((bigSep Finset.univ fun j : Fin 33 => iprop(∃ κ : ℕ, cellInv ER (sched m ρ) κ (kcell (c, j))))
          ∗ (bigSep Finset.univ fun j : Fin 33 => iprop(atPos ER (kcell (c, j)) 0 ∅ 0 ∗ reached ER (kcell (c, j)) 0)) ∗ toks c) := by
  unfold G
  iintro ⟨Hos, Hus, Hst, Hat, Htok⟩
  ihave Hv := (sems0_eq (F := F) c) $$ [Hos Hus]
  · isplitl [Hos] <;> iassumption
  imod (show iprop((bigSep Finset.univ fun j : Fin 33 => semVal (kcell (c, j)) 0) ∗ bigSep Finset.univ fun j : Fin 33 => roundState ER (sched m ρ) (kcell (c, j)) 0)
      ⊢ (|={Set.univ}=> bigSep Finset.univ fun j : Fin 33 => iprop(∃ κ : ℕ, cellInv ER (sched m ρ) κ (kcell (c, j))) : sProp 𝕄) from by
        rw [← bigSep_sep']
        exact (bigSep_mono fun j _ => (Rounds.body_intro ER (sched m ρ) (kcell (c, j))).trans inv_alloc).trans (bigSep_fupd _ _)) $$ [Hv Hst] with Hinv
  · isplitl [Hv] <;> iassumption
  imodintro
  isplitl [Hinv]; · iexact Hinv
  isplitl [Hat]; · iexact Hat
  iexact Htok

/-! ## Dealing the tokens -/

omit [FloatOps F] in
theorem ghost_intro (K : Dev nD × Fin 33 → ℕ) (c : Dev nD) : iprop(records m ρ K ∗ linear c) ⊢ G' m ρ c := by
  unfold G' ghost
  iintro H
  iexists K
  iexact H

omit [FloatOps F] in
/-- A device's own tokens, array by array. -/
theorem toks_split (c : Dev nD) : (toks c : sProp 𝕄)
    = iprop((dutyTok ER (barCell c) 0 false ∗ (bigSep Finset.univ fun k : Fin 8 => dutyTok ER (ysCell c k) 0 false)
        ∗ (bigSep Finset.univ fun k : Fin 8 => dutyTok ER (yrCell c k) 0 false)
        ∗ (bigSep Finset.univ fun k : Fin 8 => dutyTok ER (xsCell c k) 0 false)
        ∗ (bigSep Finset.univ fun k : Fin 8 => dutyTok ER (xrCell c k) 0 false)) ∗ dutyTok ER (barCell c) 0 true) := by
  unfold toks
  rw [bigSep_fin33]
  simp only [kcell_ys, kcell_yr, kcell_xs, kcell_xr]
  rfl

omit [FloatOps F] in
/-- The tokens dealt: a barrier's "false" token and the Y-receive tokens to the y-neighbour, a barrier's "true" token
    and the X-receive tokens to the x-neighbour, the send tokens kept. -/
theorem toks_around : (bigSep Finset.univ fun c : Dev nD => (toks c : sProp 𝕄)) ⊢ bigSep Finset.univ fun c : Dev nD => payToks c := by
  rw [bigSep_congr (s := Finset.univ) fun (c : Dev nD) _ => toks_split (F := F) c]
  unfold payToks
  rw [bigSep_sep', bigSep_sep', bigSep_sep', bigSep_sep', bigSep_sep', bigSep_sep', bigSep_sep', bigSep_sep', bigSep_sep', bigSep_sep',
    bigSep_univ_equiv nyE (fun c : Dev nD => (dutyTok ER (barCell c) 0 false : sProp 𝕄)),
    bigSep_univ_equiv nxE (fun c : Dev nD => (dutyTok ER (barCell c) 0 true : sProp 𝕄)),
    bigSep_univ_equiv nyE (fun c : Dev nD => (bigSep Finset.univ fun k : Fin 8 => dutyTok ER (yrCell c k) 0 false : sProp 𝕄)),
    bigSep_univ_equiv nxE (fun c : Dev nD => (bigSep Finset.univ fun k : Fin 8 => dutyTok ER (xrCell c k) 0 false : sProp 𝕄))]
  iintro ⟨⟨Hbf, Hys, Hyr, Hxs, Hxr⟩, Hbt⟩
  isplitl [Hbf]; · iexact Hbf
  isplitl [Hbt]; · iexact Hbt
  isplitl [Hyr]; · iexact Hyr
  isplitl [Hxr]; · iexact Hxr
  isplitl [Hys]; · iexact Hys
  iexact Hxs

omit [FloatOps F] in
theorem regroup :
    (bigSep Finset.univ fun c : Dev nD => iprop((bigSep Finset.univ fun j : Fin 33 => iprop(∃ κ : ℕ, cellInv ER (sched m ρ) κ (kcell (c, j))))
          ∗ (bigSep Finset.univ fun j : Fin 33 => iprop(atPos ER (kcell (c, j)) 0 ∅ 0 ∗ reached ER (kcell (c, j)) 0)) ∗ toks c) : sProp 𝕄)
      ⊢ bigSep Finset.univ (G' m ρ) := by
  rw [bigSep_sep', bigSep_sep', ← bigSep_univ_prod (fun ck : Dev nD × Fin 33 => iprop(∃ κ : ℕ, cellInv ER (sched m ρ) κ (kcell ck))),
    bigSep_congr (s := Finset.univ) (fun (c : Dev nD) _ => bigSep_sep' Finset.univ (fun j : Fin 33 => (atPos ER (kcell (c, j)) 0 ∅ 0 : sProp 𝕄)) (fun j => reached ER (kcell (c, j)) 0)),
    bigSep_sep', ← bigSep_univ_prod (fun ck : Dev nD × Fin 33 => (reached ER (kcell ck) 0 : sProp 𝕄))]
  iintro ⟨HI, ⟨Hat, #HR⟩, Htok⟩
  ihave HK := (BI.bigSep_exists_pi Finset.univ (fun (ck : Dev nD × Fin 33) (κ : ℕ) => (cellInv ER (sched m ρ) κ (kcell ck) : sProp 𝕄))) $$ HI
  icases HK with ⟨%K, #HI⟩
  ihave Htk := (toks_around (F := F)) $$ Htok
  iapply (BI.bigSep_with_persistent (R := records m ρ K) fun c _ => ghost_intro m ρ K c)
  isplitr
  · unfold records; isplitl; · iexact HI
    iexact HR
  · iapply ((Entails.of_eq (bigSep_sep' Finset.univ (fun c : Dev nD => bigSep Finset.univ fun j : Fin 33 => (atPos ER (kcell (c, j)) 0 ∅ 0 : sProp 𝕄)) payToks).symm).trans
      (bigSep_mono fun c _ => show _ ⊢ linear c from Entails.of_eq (by unfold linear; rfl)))
    isplitl [Hat]; · iexact Hat
    iexact Htk

omit [FloatOps F] in
/-- The global step: the own and the unscoped semaphores of every device at once. -/
theorem glob : (bigSep Finset.univ fun c => iprop(Pipeline.ownSems0 (Ix := Unit) (Name := ℕ) (U := UU) (Lvl := ℕ) (Val := Elt F) (τ := τ) osem c ∗ unscopedSems0 c ∗ G m ρ c) : sProp 𝕄)
    ⊢ |={Set.univ}=> bigSep Finset.univ (G' m ρ) :=
  ((bigSep_mono fun c _ => core_alloc m ρ c).trans (bigSep_fupd _ _)).trans (BI.fupd_mono (regroup m ρ))

/-! ## The launch theorem's side conditions -/

theorem start_intro (c : Dev nD) :
    iprop(Pipeline.unscopedRestP Pipeline.Prefetch.none cfg0.spec c (fun b => m ((c : Thread nD τ).loc b)) ∗ levAts L lv
        ∗ Pipeline.launchCred O₀ c ∗ prngReg c (ρ c) ∗ G' m ρ c)
      ⊢ |={Set.univ}=> iprop(start m ρ c ∗ emp) := by
  iintro ⟨-, Hlev, Hcr, -, HG⟩
  ihave Hc := (creds (F := F) c) $$ Hcr
  icases Hc with ⟨H1, HY, HX⟩
  imodintro
  unfold start G'
  isplitl
  · isplitl [HG]; · iexact HG
    isplitl [H1]; · iexact H1
    isplitl [HY]; · iexact HY
    isplitl [HX]; · iexact HX
    iexact Hlev
  · iempintro

theorem phi0_intro (c : Dev nD) :
    iprop(start m ρ c ∗ Pipeline.prefHeld Pipeline.Prefetch.none c (fun _ => fullShare.right) (fun k => k.elim0) ∗ Pipeline.scopedRest cfg0.spec c)
      ⊢ (dats m ρ 0 c).Φ 0 := by
  rw [show (dats m ρ 0 c).Φ 0 = Φ₀ m ρ c from rfl, scopedRest0_eq]
  unfold Φ₀
  iintro ⟨Hs, -, ⟨%f, Hr⟩⟩
  isplitl [Hs]; · iexact Hs
  iexists f; iexact Hr

theorem phi1_exit (c : Dev nD) :
    (dats m ρ 0 c).Φ (Fin.last cfg0.N) ⊢ iprop(emp ∗ Pipeline.ownSems0 osem c ∗ Pipeline.scopedRest cfg0.spec c) := by
  rw [show (dats m ρ 0 c).Φ (Fin.last cfg0.N) = Φ₁ m ρ c from rfl, scopedRest0_eq]
  unfold Φ₁ Pipeline.ownSems0
  iintro ⟨Hr, Hz⟩
  isplitr; · iempintro
  isplitl [Hz]; · iexact Hz
  iexists (other m ρ c); iexact Hr

/-- The pipeline's own waits, on the two staging semaphores, are below everything a device owes. -/
theorem waits (c : Dev nD) : (levAts L lv : sProp 𝕄) ⊢ Pipeline.cellsWaits cfgs (dats m ρ) () 0 c :=
  Pipeline.cellsWaits_intro cfgs (dats m ρ) () 0 c fun w s t =>
    mayWait_stage c _ (by fin_cases w <;> fin_cases s <;> decide) _ (by
      rcases t with ⟨_ | _, ht⟩
      · exact Or.inl rfl
      · exact Or.inr rfl)

/-! ## The run -/

/-- Every device's arrays end at the contents the proof data computes. -/
def QC : PUnit × MemSt nD τ sig (Elt F) → Prop := fun r =>
  ∀ c : Dev nD, ∀ w : Fin cfg0.W, r.2.mem ((cfg0.win w).arr.view.loc (c : Thread nD τ)) = (dats m ρ 0 c).arrAt w cfg0.N

set_option maxRecDepth 8000 in
/-- At the compiled mesh of eight devices, for any float values, from any memory with zero counters: if one device's
    body meets its obligation, every weakly fair execution of the whole mesh terminates, and every final state has each
    device's arrays at the computed contents. -/
theorem launch_of_body (hbody : ∀ c : Dev nD, BodyObligation (dats (F := F) m ρ 0 c) (defs₀ (F := F)) 𝒱₀ () Set.univ) :
    θ_run defs (onTc (τ := τ) (main (F := F))) (s₀ m ρ) (QC m ρ) :=
  Pipeline.θ_run_region_owing_glob_pf (fun p => (cfgs p).toPCfg) (fun p => (cfgs p).toPCfg_adm) (dats m ρ) () cellOf_inj (0 : Fin 1)
    winFacts0.to₀ ownSemFacts (Pipeline.PreFacts.none _) EP defs₀ 𝒱₀ m ρ main
    (hmain := fun _ => rfl)
    (hbody := hbody) (hne := fun w => by fin_cases w <;> exact Nat.succ_pos _) (harr := arr_whole0) (hstage := stage_whole0) (hshare := share_eq m ρ)
    (hdistinct := winFacts0.arr_inj)
    (O₀ := O₀) (howed₀ := fun _ => rfl) (howedN := fun _ => rfl)
    (L := L) (lv := lv) (hL := L_of_ne) (hwaits := waits m ρ)
    (G := G m ρ) (G' := G' m ρ) (u₀ := u₀)
    (hu₀ := by
      unfold u₀
      iintro Hu
      ihave H := (ownU_pair _ _) $$ Hu
      icases H with ⟨HP, HX⟩
      imod (fund_ring m ρ) $$ HX with HG
      imodintro
      isplitl [HP] <;> iassumption)
    (hglob := glob m ρ)
    (hA := fun _ _ => rfl) (hpf := fun _ k => k.elim0)
    (X := start m ρ) (Y := fun _ => iprop(emp)) (Z := fun _ => iprop(emp))
    (hX := start_intro m ρ) (hin := phi0_intro m ρ) (hout := phi1_exit m ρ)
    (QY := fun _ _ => True)
    (hY := fun c s' => by
      iintro ⟨-, -, HSI⟩
      imodintro
      isplitr; · ipureintro; trivial
      iexact HSI)
    (hQ := fun _ h c w => (h c).1 w)

end Cert.KernelIdeal.AR

end
-- ==== Proof.Run.lean ====
/-
  The run of the whole mesh: every device's result array ends at its own block plus the block it received, its
  argument array as it was.
-/
import proofs.«900702_g7700000000000703_dist_ar_v7x_xyz2x2x2_y_m512_n512_f32_1_alg».proof.Proof.Body
import proofs.«900702_g7700000000000703_dist_ar_v7x_xyz2x2x2_y_m512_n512_f32_1_alg».proof.Proof.Launch
import proofs.«900702_g7700000000000703_dist_ar_v7x_xyz2x2x2_y_m512_n512_f32_1_alg».proof.Proof.KValue

noncomputable section

namespace Cert.KernelIdeal.AR

open Cert.KernelIdeal Cert.KernelIdeal.Gen Cert.KernelIdeal.Mesh

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

/-- From any memory with zero counters every weakly fair execution of the eight devices terminates, each device's
    arrays at the contents the proof data computes. -/
theorem run_main : θ_run defs (onTc (τ := τ) (main (F := F))) (s₀ m ρ) (QC m ρ) :=
  launch_of_body m ρ (body_obligation m ρ)

/-- Every device's result array ends at its own block plus the block it received, its argument array unchanged. -/
theorem kernel_run : θ_run (defs (F := F)) (onTc (τ := τ) (main (F := F))) ⟨m, fun _ => 0, ρ⟩ (fun r => ∀ c : Dev nD,
    r.2.mem ((c.tc : Thread nD τ).loc main_v1) = (outAt m ρ c : C512 F)
    ∧ r.2.mem ((c.tc : Thread nD τ).loc main_arg0) = m ((c.tc : Thread nD τ).loc main_arg0)) :=
  (θ_run defs _ _).mono
    (fun _ h c => ⟨(h c (1 : Fin 2)).trans (final_out m ρ c), (h c (0 : Fin 2)).trans (final_x m ρ c)⟩)
    (run_main m ρ)

/-- The program runs and leaves every device's argument array as it was. -/
theorem frame_k : θ_run (defs (F := F)) (onTc (τ := τ) (main (F := F))) ⟨m, fun _ => 0, ρ⟩ (fun r => ∀ c : Dev nD,
    r.2.mem ((c.tc : Thread nD τ).loc main_arg0) = m ((c.tc : Thread nD τ).loc main_arg0)) :=
  (θ_run defs _ _).mono (fun _ h c => (h c).2) (kernel_run m ρ)

end Cert.KernelIdeal.AR

end
-- ==== Proof.lean ====
/-
  An all-reduce over the y axis of a 2×2×2 mesh against the sum of the whole array's two row blocks.

  The whole array has 1024 rows; device c holds the block of 512 rows that its y coordinate names. Each device sends the
  half of its block that its x coordinate names to its y-neighbour, forwards the half it receives to its x-neighbour,
  and adds what it received to its own rows: so on every device every row of the result is its own block's row plus
  the same row of the other block. The reference adds the two blocks of the reshaped array, starting from zero. The two
  agree entry by entry by commutativity of addition on the extended reals; no finiteness is needed.

  The frames: the kernel's run, at either instance, leaves each device's argument array as it was (the run with the
  result's value dropped); the reference's is its run likewise. No rewrite was applied when the idealized program was
  printed, so it is the program's own text read at the ideal instance.
-/
import proofs.«900702_g7700000000000703_dist_ar_v7x_xyz2x2x2_y_m512_n512_f32_1_alg».proof.Defs
import proofs.«900702_g7700000000000703_dist_ar_v7x_xyz2x2x2_y_m512_n512_f32_1_alg».proof.Proof.Gen.Kernel
import proofs.«900702_g7700000000000703_dist_ar_v7x_xyz2x2x2_y_m512_n512_f32_1_alg».proof.Proof.Gen.KernelIdeal
import proofs.«900702_g7700000000000703_dist_ar_v7x_xyz2x2x2_y_m512_n512_f32_1_alg».proof.Proof.Gen.ReferenceIdeal
import proofs.«900702_g7700000000000703_dist_ar_v7x_xyz2x2x2_y_m512_n512_f32_1_alg».proof.Proof.Gen.Pre_finite_inputs_Kernel
import proofs.«900702_g7700000000000703_dist_ar_v7x_xyz2x2x2_y_m512_n512_f32_1_alg».proof.Proof.Gen.Pre_finite_inputs_ReferenceIdeal
import proofs.«900702_g7700000000000703_dist_ar_v7x_xyz2x2x2_y_m512_n512_f32_1_alg».proof.Proof.RefValue
import proofs.«900702_g7700000000000703_dist_ar_v7x_xyz2x2x2_y_m512_n512_f32_1_alg».proof.Proof.KValue
import proofs.«900702_g7700000000000703_dist_ar_v7x_xyz2x2x2_y_m512_n512_f32_1_alg».proof.Proof.Run
import proofs.«900702_g7700000000000703_dist_ar_v7x_xyz2x2x2_y_m512_n512_f32_1_alg».proof.Proof.W.Run

noncomputable section

namespace Cert.Proof

open Idealize.ShloMosaic Idealize.SL.Sem

/-- The word-level program runs and leaves every device's argument array unchanged. -/
theorem frame_k : Cert.frame_Kernel := fun m ρ _ => Cert.Kernel.AR.frame_k (F := Bits) m ρ

/-- So does the program read at the ideal instance. -/
theorem frame_ki : Cert.frame_KernelIdeal := fun m ρ _ => Cert.KernelIdeal.AR.frame_k (F := Ideal) m ρ

/-- The reference's run leaves its argument array unchanged. -/
theorem frame_ri : Cert.frame_ReferenceIdeal := Cert.ReferenceIdeal.RefValue.frame_ri

/-- The ideal pass rewrote nothing. -/
theorem preserves : Cert.preserves_Kernel_KernelIdeal := trivial

/-- Every device's result is the reference's: the sum of the whole array's two blocks. -/
theorem algebraic : Cert.algebraic_KernelIdeal_ReferenceIdeal := by
  intro m ρ m' ρ' _ hag
  refine ⟨Cert.ReferenceIdeal.RefValue.sumBlocks
    (m' (((0 : Dev Cert.ReferenceIdeal.nD).tc : Thread Cert.ReferenceIdeal.nD Cert.ReferenceIdeal.τ).loc Cert.ReferenceIdeal.main_arg0)), ?_, ?_⟩
  · exact (θ_run (Cert.KernelIdeal.defs (F := Ideal)) _ _).mono
      (fun _ h c => ⟨(h c).1.trans (Cert.KernelIdeal.AR.outAt_ideal m ρ _ hag c), (h c).2⟩)
      (Cert.KernelIdeal.AR.kernel_run (F := Ideal) m ρ)
  · exact (θ_run (Cert.ReferenceIdeal.defs (F := Ideal)) _ _).mono (fun _ h => h 0)
      (Cert.ReferenceIdeal.RefValue.ref_run m' ρ')

theorem claim : Cert.Claim :=
  ⟨Cert.Kernel.Gen.facts, Cert.KernelIdeal.Gen.facts, Cert.ReferenceIdeal.Gen.facts, Cert.Pre_finite_inputs_Kernel.Gen.facts,
    Cert.Pre_finite_inputs_ReferenceIdeal.Gen.facts, frame_k, frame_ki, frame_ri, preserves, algebraic⟩

end Cert.Proof

end
